-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x300 : Shape := ⟨2, ![10000, 300]⟩
abbrev S1500x1500 : Shape := ⟨2, ![1500, 1500]⟩
abbrev S300x1500 : Shape := ⟨2, ![300, 1500]⟩
abbrev S1500 : Shape := ⟨1, ![1500]⟩
abbrev S10000x128 : Shape := ⟨2, ![10000, 128]⟩
abbrev S128 : Shape := ⟨1, ![128]⟩
abbrev S128x30 : Shape := ⟨2, ![128, 30]⟩
abbrev S30 : Shape := ⟨1, ![30]⟩
abbrev S30x30 : Shape := ⟨2, ![30, 30]⟩
abbrev S30x2 : Shape := ⟨2, ![30, 2]⟩
abbrev S2 : Shape := ⟨1, ![2]⟩
abbrev S_ : Shape := ⟨0, ![]⟩

class Facts : Prop where
  bcast_S_S10000x300 : S_.BroadcastsInDim S10000x300 (![] : Fin 0 → Fin S10000x300.rank)
  reducesTo_S10000x300_S_d0_1 : S10000x300.ReducesTo [0, 1] S_
  h_S_ : 0 < S_.numel
  bcast_S_S1500x1500 : S_.BroadcastsInDim S1500x1500 (![] : Fin 0 → Fin S1500x1500.rank)
  reducesTo_S1500x1500_S_d0_1 : S1500x1500.ReducesTo [0, 1] S_
  bcast_S_S300x1500 : S_.BroadcastsInDim S300x1500 (![] : Fin 0 → Fin S300x1500.rank)
  reducesTo_S300x1500_S_d0_1 : S300x1500.ReducesTo [0, 1] S_
  bcast_S_S1500 : S_.BroadcastsInDim S1500 (![] : Fin 0 → Fin S1500.rank)
  reducesTo_S1500_S_d0 : S1500.ReducesTo [0] S_
  bcast_S_S10000x128 : S_.BroadcastsInDim S10000x128 (![] : Fin 0 → Fin S10000x128.rank)
  reducesTo_S10000x128_S_d0_1 : S10000x128.ReducesTo [0, 1] S_
  bcast_S_S128 : S_.BroadcastsInDim S128 (![] : Fin 0 → Fin S128.rank)
  reducesTo_S128_S_d0 : S128.ReducesTo [0] S_
  bcast_S_S128x30 : S_.BroadcastsInDim S128x30 (![] : Fin 0 → Fin S128x30.rank)
  reducesTo_S128x30_S_d0_1 : S128x30.ReducesTo [0, 1] S_
  bcast_S_S30 : S_.BroadcastsInDim S30 (![] : Fin 0 → Fin S30.rank)
  reducesTo_S30_S_d0 : S30.ReducesTo [0] S_
  bcast_S_S30x30 : S_.BroadcastsInDim S30x30 (![] : Fin 0 → Fin S30x30.rank)
  reducesTo_S30x30_S_d0_1 : S30x30.ReducesTo [0, 1] S_
  bcast_S_S30x2 : S_.BroadcastsInDim S30x2 (![] : Fin 0 → Fin S30x2.rank)
  reducesTo_S30x2_S_d0_1 : S30x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg11 : FVec F S30x2 .f32) (main_arg12 : FVec F S2 .f32) (main_v48 : IVec S_ 1) (main_v49 : FVec F S30 .f32) (main_v50 : FVec F S30 .f32) : IVec S_ 1 :=
  let main_v51 : IVec S30 1 := cmpf .olt main_v49 main_v50
  let main_c_19 : IVec S_ 1 := constantI S_ 1 1#1
  let main_v52 : IVec S_ 1 := (fun x v => Host.reduce IntOp.andi x v reducesTo_S30_S_d0 h_S_) main_v51 main_c_19
  let main_v53 : IVec S_ 1 := andi main_v48 main_v52
  let main_v54 : FVec F S30x2 .f32 := Host.absf main_arg11
  let main_cst_20 : FVec F S_ .f32 := constant S_ .f32 0x7F800000#32
  let main_v55 : FVec F S30x2 .f32 := broadcastInDim S30x2 ![] bcast_S_S30x2 main_cst_20
  let main_v56 : IVec S30x2 1 := cmpf .olt main_v54 main_v55
  let main_c_21 : IVec S_ 1 := constantI S_ 1 1#1
  let main_v57 : IVec S_ 1 := (fun x v => Host.reduce IntOp.andi x v reducesTo_S30x2_S_d0_1 h_S_) main_v56 main_c_21
  let main_v58 : IVec S_ 1 := andi main_v53 main_v57
  let main_v59 : FVec F S2 .f32 := Host.absf main_arg12
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg7 : FVec F S128x30 .f32) (main_arg8 : FVec F S30 .f32) (main_arg9 : FVec F S30x30 .f32) (main_arg10 : FVec F S30 .f32) (main_arg11 : FVec F S30x2 .f32) (main_arg12 : FVec F S2 .f32) (main_v33 : IVec S_ 1) : IVec S_ 1 :=
  let main_v34 : FVec F S128x30 .f32 := Host.absf main_arg7
  let main_cst_12 : FVec F S_ .f32 := constant S_ .f32 0x7F800000#32
  let main_v35 : FVec F S128x30 .f32 := broadcastInDim S128x30 ![] bcast_S_S128x30 main_cst_12
  let main_v36 : IVec S128x30 1 := cmpf .olt main_v34 main_v35
  let main_c_13 : IVec S_ 1 := constantI S_ 1 1#1
  let main_v37 : IVec S_ 1 := (fun x v => Host.reduce IntOp.andi x v reducesTo_S128x30_S_d0_1 h_S_) main_v36 main_c_13
  let main_v38 : IVec S_ 1 := andi main_v33 main_v37
  let main_v39 : FVec F S30 .f32 := Host.absf main_arg8
  let main_cst_14 : FVec F S_ .f32 := constant S_ .f32 0x7F800000#32
  let main_v40 : FVec F S30 .f32 := broadcastInDim S30 ![] bcast_S_S30 main_cst_14
  let main_v41 : IVec S30 1 := cmpf .olt main_v39 main_v40
  let main_c_15 : IVec S_ 1 := constantI S_ 1 1#1
  let main_v42 : IVec S_ 1 := (fun x v => Host.reduce IntOp.andi x v reducesTo_S30_S_d0 h_S_) main_v41 main_c_15
  let main_v43 : IVec S_ 1 := andi main_v38 main_v42
  let main_v44 : FVec F S30x30 .f32 := Host.absf main_arg9
  let main_cst_16 : FVec F S_ .f32 := constant S_ .f32 0x7F800000#32
  let main_v45 : FVec F S30x30 .f32 := broadcastInDim S30x30 ![] bcast_S_S30x30 main_cst_16
  let main_v46 : IVec S30x30 1 := cmpf .olt main_v44 main_v45
  let main_c_17 : IVec S_ 1 := constantI S_ 1 1#1
  let main_v47 : IVec S_ 1 := (fun x v => Host.reduce IntOp.andi x v reducesTo_S30x30_S_d0_1 h_S_) main_v46 main_c_17
  let main_v48 : IVec S_ 1 := andi main_v43 main_v47
  let main_v49 : FVec F S30 .f32 := Host.absf main_arg10
  let main_cst_18 : FVec F S_ .f32 := constant S_ .f32 0x7F800000#32
  let main_v50 : FVec F S30 .f32 := broadcastInDim S30 ![] bcast_S_S30 main_cst_18
  fn_part3 (F := F) main_arg11 main_arg12 main_v48 main_v49 main_v50

def fn_part1 {F : FTy → Type} [FloatOps F] (main_arg4 : FVec F S1500 .f32) (main_arg5 : FVec F S10000x128 .f32) (main_arg6 : FVec F S128 .f32) (main_arg7 : FVec F S128x30 .f32) (main_arg8 : FVec F S30 .f32) (main_arg9 : FVec F S30x30 .f32) (main_arg10 : FVec F S30 .f32) (main_arg11 : FVec F S30x2 .f32) (main_arg12 : FVec F S2 .f32) (main_v13 : IVec S_ 1) (main_v16 : IVec S300x1500 1) : IVec S_ 1 :=
  let main_c_5 : IVec S_ 1 := constantI S_ 1 1#1
  let main_v17 : IVec S_ 1 := (fun x v => Host.reduce IntOp.andi x v reducesTo_S300x1500_S_d0_1 h_S_) main_v16 main_c_5
  let main_v18 : IVec S_ 1 := andi main_v13 main_v17
  let main_v19 : FVec F S1500 .f32 := Host.absf main_arg4
  let main_cst_6 : FVec F S_ .f32 := constant S_ .f32 0x7F800000#32
  let main_v20 : FVec F S1500 .f32 := broadcastInDim S1500 ![] bcast_S_S1500 main_cst_6
  let main_v21 : IVec S1500 1 := cmpf .olt main_v19 main_v20
  let main_c_7 : IVec S_ 1 := constantI S_ 1 1#1
  let main_v22 : IVec S_ 1 := (fun x v => Host.reduce IntOp.andi x v reducesTo_S1500_S_d0 h_S_) main_v21 main_c_7
  let main_v23 : IVec S_ 1 := andi main_v18 main_v22
  let main_v24 : FVec F S10000x128 .f32 := Host.absf main_arg5
  let main_cst_8 : FVec F S_ .f32 := constant S_ .f32 0x7F800000#32
  let main_v25 : FVec F S10000x128 .f32 := broadcastInDim S10000x128 ![] bcast_S_S10000x128 main_cst_8
  let main_v26 : IVec S10000x128 1 := cmpf .olt main_v24 main_v25
  let main_c_9 : IVec S_ 1 := constantI S_ 1 1#1
  let main_v27 : IVec S_ 1 := (fun x v => Host.reduce IntOp.andi x v reducesTo_S10000x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S10000x300 .f32) (main_arg1 : FVec F S1500x1500 .f32) (main_arg2 : FVec F S1500x1500 .f32) (main_arg3 : FVec F S300x1500 .f32) (main_arg4 : FVec F S1500 .f32) (main_arg5 : FVec F S10000x128 .f32) (main_arg6 : FVec F S128 .f32) (main_arg7 : FVec F S128x30 .f32) (main_arg8 : FVec F S30 .f32) (main_arg9 : FVec F S30x30 .f32) (main_arg10 : FVec F S30 .f32) (main_arg11 : FVec F S30x2 .f32) (main_arg12 : FVec F S2 .f32) : IVec S_ 1 :=
  let main_v0 : FVec F S10000x300 .f32 := Host.absf main_arg0
  let main_cst : FVec F S_ .f32 := constant S_ .f32 0x7F800000#32
  let main_v1 : FVec F S10000x300 .f32 := broadcastInDim S10000x300 ![] bcast_S_S10000x300 main_cst
  let main_v2 : IVec S10000x300 1 := cmpf .olt main_v0 main_v1
  let main_c : IVec S_ 1 := constantI S_ 1 1#1
  let main_v3 : IVec S_ 1 := (fun x v => Host.reduce IntOp.andi x v reducesTo_S10000x300_S_d0_1 h_S_) main_v2 main_c
  let main_v4 : FVec F S1500x1500 .f32 := Host.absf main_arg1
  let main_cst_0 : FVec F S_ .f32 := constant S_ .f32 0x7F800000#32
  let main_v5 : FVec F S1500x1500 .f32 := broadcastInDim S1500x1500 ![] bcast_S_S1500x1500 main_cst_0
  let main_v6 : IVec S1500x1500 1 := cmpf .olt main_v4 main_v5
  let main_c_1 : IVec S_ 1 := constantI S_ 1 1#1
  let main_v7 : IVec S_ 1 := (fun x v => Host.reduce IntOp.andi x v reducesTo_S1500x1500_S_d0_1 h_S_) main_v6 main_c_1
  let main_v8 : IVec S_ 1 := andi main_v3 main_v7
  let main_v9 : FVec F S1500x1500 .f32 := Host.absf main_arg2
  let main_cst_2 : FVec F S_ .f32 := constant S_ .f32 0x7F800000#32
  let main_v10 : FVec F S1500x1500 .f32 := broadcastInDim S1500x1500 ![] bcast_S_S1500x1500 main_cst_2
  let main_v11 : IVec S1500x1500 1 := cmpf .olt main_v9 main_v10
  let main_c_3 : IVec S_ 1 := constantI S_ 1 1#1
  let main_v12 : IVec S_ 1 := (fun x v => Host.reduce IntOp.andi x v reducesTo_S1500x1500_S_d0_1 h_S_) main_v11 main_c_3
  let main_v13 : IVec S_ 1 := andi main_v8 main_v12
  let main_v14 : FVec F S300x1500 .f32 := Host.absf main_arg3
  let main_cst_4 : FVec F S_ .f32 := constant S_ .f32 0x7F800000#32
  let main_v15 : FVec F S300x1500 .f32 := broadcastInDim S300x1500 ![] bcast_S_S300x1500 main_cst_4
  let main_v16 : IVec S300x1500 1 := cmpf .olt main_v14 main_v15
  fn_part1 (F := F) main_arg4 main_arg5 main_arg6 main_arg7 main_arg8 main_arg9 main_arg10 main_arg11 main_arg12 main_v13 main_v16
-- ==== Kernel.lean ====
abbrev S10000x300 : Shape := ⟨2, ![10000, 300]⟩
abbrev S1500x1500 : Shape := ⟨2, ![1500, 1500]⟩
abbrev S300x1500 : Shape := ⟨2, ![300, 1500]⟩
abbrev S1500 : Shape := ⟨1, ![1500]⟩
abbrev S10000x128 : Shape := ⟨2, ![10000, 128]⟩
abbrev S128 : Shape := ⟨1, ![128]⟩
abbrev S128x30 : Shape := ⟨2, ![128, 30]⟩
abbrev S30 : Shape := ⟨1, ![30]⟩
abbrev S30x30 : Shape := ⟨2, ![30, 30]⟩
abbrev S30x2 : Shape := ⟨2, ![30, 2]⟩
abbrev S2 : Shape := ⟨1, ![2]⟩
abbrev S300x128 : Shape := ⟨2, ![300, 128]⟩
abbrev S1x128 : Shape := ⟨2, ![1, 128]⟩
abbrev S2000x300 : Shape := ⟨2, ![2000, 300]⟩
abbrev S2000x128 : Shape := ⟨2, ![2000, 128]⟩
abbrev S1500x1 : Shape := ⟨2, ![1500, 1]⟩
abbrev S1x30 : Shape := ⟨2, ![1, 30]⟩
abbrev S1x2 : Shape := ⟨2, ![1, 2]⟩
abbrev S1500x2 : Shape := ⟨2, ![1500, 2]⟩
abbrev S1500x128 : Shape := ⟨2, ![1500, 128]⟩
abbrev S128x2 : Shape := ⟨2, ![128, 2]⟩

abbrev nBuf : Space → Nat
  | .hbm => 21
  | .vmem => 20
  | .smem => 0
  | _ => 0

abbrev bufTy : (tb : Table) → Fin (tcTables nBuf tb) → BufTy
  | .hbm, ⟨0, _⟩ => ⟨S10000x300, .f32⟩
  | .hbm, ⟨1, _⟩ => ⟨S1500x1500, .f32⟩
  | .hbm, ⟨2, _⟩ => ⟨S1500x1500, .f32⟩
  | .hbm, ⟨3, _⟩ => ⟨S300x1500, .f32⟩
  | .hbm, ⟨4, _⟩ => ⟨S1500, .f32⟩
  | .hbm, ⟨5, _⟩ => ⟨S10000x128, .f32⟩
  | .hbm, ⟨6, _⟩ => ⟨S128, .f32⟩
  | .hbm, ⟨7, _⟩ => ⟨S128x30, .f32⟩
  | .hbm, ⟨8, _⟩ => ⟨S30, .f32⟩
  | .hbm, ⟨9, _⟩ => ⟨S30x30, .f32⟩
  | .hbm, ⟨10, _⟩ => ⟨S30, .f32⟩
  | .hbm, ⟨11, _⟩ => ⟨S30x2, .f32⟩
  | .hbm, ⟨12, _⟩ => ⟨S2, .f32⟩
  | .hbm, ⟨13, _⟩ => ⟨S300x128, .f32⟩
  | .hbm, ⟨14, _⟩ => ⟨S1x128, .f32⟩
  | .hbm, ⟨15, _⟩ => ⟨S1500x1, .f32⟩
  | .hbm, ⟨16, _⟩ => ⟨S1x128, .f32⟩
  | .hbm, ⟨17, _⟩ => ⟨S1x30, .f32⟩
  | .hbm, ⟨18, _⟩ => ⟨S1x30, .f32⟩
  | .hbm, ⟨19, _⟩ => ⟨S1x2, .f32⟩
  | .hbm, ⟨20, _⟩ => ⟨S1500x2, .f32⟩
  | .local _ .vmem, ⟨0, _⟩ => ⟨S2000x300, .f32⟩
  | .local _ .vmem, ⟨1, _⟩ => ⟨S2000x300, .f32⟩
  | .local _ .vmem, ⟨2, _⟩ => ⟨S2000x128, .f32⟩
  | .local _ .vmem, ⟨3, _⟩ => ⟨S2000x128, .f32⟩
  | .local _ .vmem, ⟨4, _⟩ => ⟨S300x128, .f32⟩
  | .local _ .vmem, ⟨5, _⟩ => ⟨S1x128, .f32⟩
  | .local _ .vmem, ⟨6, _⟩ => ⟨S300x128, .f32⟩
  | .local _ .vmem, ⟨7, _⟩ => ⟨S1x128, .f32⟩
  | .local _ .vmem, ⟨8, _⟩ => ⟨S300x1500, .f32⟩
  | .local _ .vmem, ⟨9, _⟩ => ⟨S1500x1, .f32⟩
  | .local _ .vmem, ⟨10, _⟩ => ⟨S1500x1500, .f32⟩
  | .local _ .vmem, ⟨11, _⟩ => ⟨S1500x1500, .f32⟩
  | .local _ .vmem, ⟨12, _⟩ => ⟨S1x128, .f32⟩
  | .local _ .vmem, ⟨13, _⟩ => ⟨S128x30, .f32⟩
  | .local _ .vmem, ⟨14, _⟩ => ⟨S1x30, .f32⟩
  | .local _ .vmem, ⟨15, _⟩ => ⟨S30x30, .f32⟩
  | .local _ .vmem, ⟨16, _⟩ => ⟨S1x30, .f32⟩
  | .local _ .vmem, ⟨17, _⟩ => ⟨S30x2, .f32⟩
  | .local _ .vmem, ⟨18, _⟩ => ⟨S1x2, .f32⟩
  | .local _ .vmem, ⟨19, _⟩ => ⟨S1500x2, .f32⟩
  | _, _ => ⟨S10000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg9_0 : Ref sig .tc := ⟨.vmem, 15, rfl⟩
abbrev cc1_stg10_0 : Ref sig .tc := ⟨.vmem, 16, rfl⟩
abbrev cc1_stg11_0 : Ref sig .tc := ⟨.vmem, 17, rfl⟩
abbrev cc1_stg12_0 : Ref sig .tc := ⟨.vmem, 18, rfl⟩
abbrev cc1_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16
abbrev cc1_sem11_0 : DmaSem sig := 17
abbrev cc1_sem12_0 : DmaSem sig := 18
abbrev cc1_sem13_0 : DmaSem sig := 19

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S300x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := .none

abbrev stage1_0 : Fin 1 → Memref sig .tc .vmem S300x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S300x1500 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1500x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1500x1500 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1500x1500 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S128x30 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x30 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S30x30 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S1x30 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S30x2 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S1x2 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev stage1_13 : Fin 1 → Memref sig .tc .vmem S1500x2 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))

class Facts₀ : Prop where
  inb_S300x128_S300x128_0_0 : ∀ a, (![0, 0] : Fin 2 → Nat) a + S300x128.size a ≤ S300x128.size a
  h_S300x128 : 0 < S300x128.numel
  inb_S1x128_S1x128_0_0 : ∀ a, (![0, 0] : Fin 2 → Nat) a + S1x128.size a ≤ S1x128.size a
  h_S1x128 : 0 < S1x128.numel
  inb_S2000x300_S2000x300_0_0 : ∀ a, (![0, 0] : Fin 2 → Nat) a + S2000x300.size a ≤ S2000x300.size a
  h_S2000x300 : 0 < S2000x300.numel
  inb_S2000x128_S2000x128_0_0 : ∀ a, (![0, 0] : Fin 2 → Nat) a + S2000x128.size a ≤ S2000x128.size a
  h_S2000x128 : 0 < S2000x128.numel
  shapeCasts_S300x128_S300x128 : S300x128.ShapeCasts S300x128
  shapeCasts_S1x128_S1x128 : S1x128.ShapeCasts S1x128
  reduces_S2000x128_S128 : S2000x128.Reduces [0] S128
  shapeCasts_S128_S1x128 : S128.ShapeCasts S1x128
  shapeCasts_S1500_S1500x1 : S1500.ShapeCasts S1500x1
  shapeCasts_S30_S1x30 : S30.ShapeCasts S1x30
  shapeCasts_S2_S1x2 : S2.ShapeCasts S1x2
  inb_S300x1500_S300x1500_0_0 : ∀ a, (![0, 0] : Fin 2 → Nat) a + S300x1500.size a ≤ S300x1500.size a
  h_S300x1500 : 0 < S300x1500.numel
  inb_S1500x1_S1500x1_0_0 : ∀ a, (![0, 0] : Fin 2 → Nat) a + S1500x1.size a ≤ S1500x1.size a
  h_S1500x1 : 0 < S1500x1.numel
  shapeCasts_S1500x1_S1500x1 : S1500x1.ShapeCasts S1500x1
  broadcasts_S1500x1_S1500x128 : S1500x1.Broadcasts S1500x128
  broadcasts_S1x128_S1500x128 : S1x128.Broadcasts S1500x128
  inb_S1500x1500_S1500x1500_0_0 : ∀ a, (![0, 0] : Fin 2 → Nat) a + S1500x1500.size a ≤ S1500x1500.size a
  h_S1500x1500 : 0 < S1500x1500.numel
  inb_S30x30_S30x30_0_0 : ∀ a, (![0, 0] : Fin 2 → Nat) a + S30x30.size a ≤ S30x30.size a
  h_S30x30 : 0 < S30x30.numel
  inb_S30x2_S30x2_0_0 : ∀ a, (![0, 0] : Fin 2 → Nat) a + S30x2.size a ≤ S30x2.size a
  h_S30x2 : 0 < S30x2.numel
  inb_S128x30_S128x30_0_0 : ∀ a, (![0, 0] : Fin 2 → Nat) a + S128x30.size a ≤ S128x30.size a
  h_S128x30 : 0 < S128x30.numel
  inb_S1x30_S1x30_0_0 : ∀ a, (![0, 0] : Fin 2 → Nat) a + S1x30.size a ≤ S1x30.size a
  h_S1x30 : 0 < S1x30.numel
  shapeCasts_S1x30_S1x30 : S1x30.ShapeCasts S1x30
  broadcasts_S1x2_S1500x2 : S1x2.Broadcasts S1500x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  reduces_S1500x2_S1500 : S1500x2.Reduces [1] S1500
  broadcasts_S1500x1_S1500x2 : S1500x1.Broadcasts S1500x2
  inb_S1500x2_S1500x2_0_0 : ∀ a, (![0, 0] : Fin 2 → Nat) a + S1500x2.size a ≤ S1500x2.size a
  h_S1500x2 : 0 < S1500x2.numel
  dot_S2000x300_S2000x128_S300x128_0_0_1_1_n_n_wf : DotDims.WF S2000x300 S2000x128 S300x128 [0] [0] [1] [1] [] []
  dot_S300x1500_S300x128_S1500x128_0_0_1_1_n_n_wf : DotDims.WF S300x1500 S300x128 S1500x128 [0] [0] [1] [1] [] []
  dot_S1500x1500_S1500x128_S1500x128_1_0_0_1_n_n_wf : DotDims.WF S1500x1500 S1500x128 S1500x128 [1] [0] [0] [1] [] []
  dot_S30x30_S30x2_S30x2_1_0_0_1_n_n_wf : DotDims.WF S30x30 S30x2 S30x2 [1] [0] [0] [1] [] []
  dot_S128x30_S30x2_S128x2_1_0_0_1_n_n_wf : DotDims.WF S128x30 S30x2 S128x2 [1] [0] [0] [1] [] []
  dot_S1500x128_S128x2_S1500x2_1_0_0_1_n_n_wf : DotDims.WF S1500x128 S128x2 S1500x2 [1] [0] [0] [1] [] []
  dot_S1500x1500_S1500x2_S1500x2_1_0_0_1_n_n_wf : DotDims.WF S1500x1500 S1500x2 S1500x2 [1] [0] [0] [1] [] []
  dot_S1x30_S30x2_S1x2_1_0_0_1_n_n_wf : DotDims.WF S1x30 S30x2 S1x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x300.size a ≤ S10000x300.size a
  hwx0_0 : ∀ i : grid0.Coords, EltTy.bits .f32 = 32 ∨ (Rect.block (s := S10000x300) S2000x300.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S10000x128.size a
  hwx0_1 : ∀ i : grid0.Coords, EltTy.bits .f32 = 32 ∨ (Rect.block (s := S10000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S300x128.size a ≤ S300x128.size a
  hwx0_2 : ∀ i : grid0.Coords, EltTy.bits .f32 = 32 ∨ (Rect.block (s := S300x128) S300x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage1_0 : ∀ j, (stage1_0 j).IsWhole
  hstage1_1 : ∀ j, (stage1_1 j).IsWhole
  hstage1_2 : ∀ j, (stage1_2 j).IsWhole
  hstage1_3 : ∀ j, (stage1_3 j).IsWhole
  hstage1_4 : ∀ j, (stage1_4 j).IsWhole
  hstage1_5 : ∀ j, (stage1_5 j).IsWhole
  hstage1_6 : ∀ j, (stage1_6 j).IsWhole
  hstage1_7 : ∀ j, (stage1_7 j).IsWhole
  hstage1_8 : ∀ j, (stage1_8 j).IsWhole
  hstage1_9 : ∀ j, (stage1_9 j).IsWhole
  hstage1_10 : ∀ j, (stage1_10 j).IsWhole
  hstage1_11 : ∀ j, (stage1_11 j).IsWhole
  hstage1_12 : ∀ j, (stage1_12 j).IsWhole
  hstage1_13 : ∀ j, (stage1_13 j).IsWhole

variable [Facts₀]

def dot_S2000x300_S2000x128_S300x128_0_0_1_1_n_n : DotDims S2000x300 S2000x128 S300x128 where
  lhsContracting := [0]
  rhsContracting := [0]
  lhsNonContracting := [1]
  rhsNonContracting := [1]
  lhsBatch := []
  rhsBatch := []
  wf := dot_S2000x300_S2000x128_S300x128_0_0_1_1_n_n_wf
def dot_S300x1500_S300x128_S1500x128_0_0_1_1_n_n : DotDims S300x1500 S300x128 S1500x128 where
  lhsContracting := [0]
  rhsContracting := [0]
  lhsNonContracting := [1]
  rhsNonContracting := [1]
  lhsBatch := []
  rhsBatch := []
  wf := dot_S300x1500_S300x128_S1500x128_0_0_1_1_n_n_wf
def dot_S1500x1500_S1500x128_S1500x128_1_0_0_1_n_n : DotDims S1500x1500 S1500x128 S1500x128 where
  lhsContracting := [1]
  rhsContracting := [0]
  lhsNonContracting := [0]
  rhsNonContracting := [1]
  lhsBatch := []
  rhsBatch := []
  wf := dot_S1500x1500_S1500x128_S1500x128_1_0_0_1_n_n_wf
def dot_S30x30_S30x2_S30x2_1_0_0_1_n_n : DotDims S30x30 S30x2 S30x2 where
  lhsContracting := [1]
  rhsContracting := [0]
  lhsNonContracting := [0]
  rhsNonContracting := [1]
  lhsBatch := []
  rhsBatch := []
  wf := dot_S30x30_S30x2_S30x2_1_0_0_1_n_n_wf
def dot_S128x30_S30x2_S128x2_1_0_0_1_n_n : DotDims S128x30 S30x2 S128x2 where
  lhsContracting := [1]
  rhsContracting := [0]
  lhsNonContracting := [0]
  rhsNonContracting := [1]
  lhsBatch := []
  rhsBatch := []
  wf := dot_S128x30_S30x2_S128x2_1_0_0_1_n_n_wf
def dot_S1500x128_S128x2_S1500x2_1_0_0_1_n_n : DotDims S1500x128 S128x2 S1500x2 where
  lhsContracting := [1]
  rhsContracting := [0]
  lhsNonContracting := [0]
  rhsNonContracting := [1]
  lhsBatch := []
  rhsBatch := []
  wf := dot_S1500x128_S128x2_S1500x2_1_0_0_1_n_n_wf
def dot_S1500x1500_S1500x2_S1500x2_1_0_0_1_n_n : DotDims S1500x1500 S1500x2 S1500x2 where
  lhsContracting := [1]
  rhsContracting := [0]
  lhsNonContracting := [0]
  rhsNonContracting := [1]
  lhsBatch := []
  rhsBatch := []
  wf := dot_S1500x1500_S1500x2_S1500x2_1_0_0_1_n_n_wf
def dot_S1x30_S30x2_S1x2_1_0_0_1_n_n : DotDims S1x30 S30x2 S1x2 where
  lhsContracting := [1]
  rhsContracting := [0]
  lhsNonContracting := [0]
  rhsNonContracting := [1]
  lhsBatch := []
  rhsBatch := []
  wf := dot_S1x30_S30x2_S1x2_1_0_0_1_n_n_wf

abbrev win0_0 : Pipeline.Window sig grid0 :=
  Pipeline.Window.ofSpec (Memref.whole main_arg0) S2000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S300x128.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.whole (Memref.whole main_v0_0) false false (stage1_0 0) (sem1_0 0) (Memref.isWhole_whole _) (hstage1_0 0)

abbrev win1_1 : Pipeline.Window sig grid1 :=
  Pipeline.Window.whole (Memref.whole main_v0_1) false false (stage1_1 0) (sem1_1 0) (Memref.isWhole_whole _) (hstage1_1 0)

abbrev win1_2 : Pipeline.Window sig grid1 :=
  Pipeline.Window.whole (Memref.whole main_arg3) false false (stage1_2 0) (sem1_2 0) (Memref.isWhole_whole _) (hstage1_2 0)

abbrev win1_3 : Pipeline.Window sig grid1 :=
  Pipeline.Window.whole (Memref.whole main_v1) false false (stage1_3 0) (sem1_3 0) (Memref.isWhole_whole _) (hstage1_3 0)

abbrev win1_4 : Pipeline.Window sig grid1 :=
  Pipeline.Window.whole (Memref.whole main_arg1) false false (stage1_4 0) (sem1_4 0) (Memref.isWhole_whole _) (hstage1_4 0)

abbrev win1_5 : Pipeline.Window sig grid1 :=
  Pipeline.Window.whole (Memref.whole main_arg2) false false (stage1_5 0) (sem1_5 0) (Memref.isWhole_whole _) (hstage1_5 0)

abbrev win1_6 : Pipeline.Window sig grid1 :=
  Pipeline.Window.whole (Memref.whole main_v2) false false (stage1_6 0) (sem1_6 0) (Memref.isWhole_whole _) (hstage1_6 0)

abbrev win1_7 : Pipeline.Window sig grid1 :=
  Pipeline.Window.whole (Memref.whole main_arg7) false false (stage1_7 0) (sem1_7 0) (Memref.isWhole_whole _) (hstage1_7 0)

abbrev win1_8 : Pipeline.Window sig grid1 :=
  Pipeline.Window.whole (Memref.whole main_v3) false false (stage1_8 0) (sem1_8 0) (Memref.isWhole_whole _) (hstage1_8 0)

abbrev win1_9 : Pipeline.Window sig grid1 :=
  Pipeline.Window.whole (Memref.whole main_arg9) false false (stage1_9 0) (sem1_9 0) (Memref.isWhole_whole _) (hstage1_9 0)

abbrev win1_10 : Pipeline.Window sig grid1 :=
  Pipeline.Window.whole (Memref.whole main_v4) false false (stage1_10 0) (sem1_10 0) (Memref.isWhole_whole _) (hstage1_10 0)

abbrev win1_11 : Pipeline.Window sig grid1 :=
  Pipeline.Window.whole (Memref.whole main_arg11) false false (stage1_11 0) (sem1_11 0) (Memref.isWhole_whole _) (hstage1_11 0)

abbrev win1_12 : Pipeline.Window sig grid1 :=
  Pipeline.Window.whole (Memref.whole main_v5) false false (stage1_12 0) (sem1_12 0) (Memref.isWhole_whole _) (hstage1_12 0)

abbrev win1_13 : Pipeline.Window sig grid1 :=
  Pipeline.Window.whole (Memref.whole main_v6) true false (stage1_13 0) (sem1_13 0) (Memref.isWhole_whole _) (hstage1_13 0)

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S10000x300 : Shape := ⟨2, ![10000, 300]⟩
abbrev S1500x1500 : Shape := ⟨2, ![1500, 1500]⟩
abbrev S300x1500 : Shape := ⟨2, ![300, 1500]⟩
abbrev S1500 : Shape := ⟨1, ![1500]⟩
abbrev S10000x128 : Shape := ⟨2, ![10000, 128]⟩
abbrev S128 : Shape := ⟨1, ![128]⟩
abbrev S128x30 : Shape := ⟨2, ![128, 30]⟩
abbrev S30 : Shape := ⟨1, ![30]⟩
abbrev S30x30 : Shape := ⟨2, ![30, 30]⟩
abbrev S30x2 : Shape := ⟨2, ![30, 2]⟩
abbrev S2 : Shape := ⟨1, ![2]⟩
abbrev S10000x1500 : Shape := ⟨2, ![10000, 1500]⟩
abbrev S1x1500 : Shape := ⟨2, ![1, 1500]⟩
abbrev S1500x10000 : Shape := ⟨2, ![1500, 10000]⟩
abbrev S1500x128 : Shape := ⟨2, ![1500, 128]⟩
abbrev S1x128 : Shape := ⟨2, ![1, 128]⟩
abbrev S_ : Shape := ⟨0, ![]⟩
abbrev S1500x30 : Shape := ⟨2, ![1500, 30]⟩
abbrev S1x30 : Shape := ⟨2, ![1, 30]⟩
abbrev S1500x2 : Shape := ⟨2, ![1500, 2]⟩
abbrev S1x2 : Shape := ⟨2, ![1, 2]⟩
abbrev S1500x1 : Shape := ⟨2, ![1500, 1]⟩

abbrev nBuf : Space → Nat
  | .hbm => 55
  | .vmem => 0
  | .smem => 0
  | _ => 0

abbrev bufTy : (tb : Table) → Fin (tcTables nBuf tb) → BufTy
  | .hbm, ⟨0, _⟩ => ⟨S10000x300, .f32⟩
  | .hbm, ⟨1, _⟩ => ⟨S1500x1500, .f32⟩
  | .hbm, ⟨2, _⟩ => ⟨S1500x1500, .f32⟩
  | .hbm, ⟨3, _⟩ => ⟨S300x1500, .f32⟩
  | .hbm, ⟨4, _⟩ => ⟨S1500, .f32⟩
  | .hbm, ⟨5, _⟩ => ⟨S10000x128, .f32⟩
  | .hbm, ⟨6, _⟩ => ⟨S128, .f32⟩
  | .hbm, ⟨7, _⟩ => ⟨S128x30, .f32⟩
  | .hbm, ⟨8, _⟩ => ⟨S30, .f32⟩
  | .hbm, ⟨9, _⟩ => ⟨S30x30, .f32⟩
  | .hbm, ⟨10, _⟩ => ⟨S30, .f32⟩
  | .hbm, ⟨11, _⟩ => ⟨S30x2, .f32⟩
  | .hbm, ⟨12, _⟩ => ⟨S2, .f32⟩
  | .hbm, ⟨13, _⟩ => ⟨S10000x1500, .f32⟩
  | .hbm, ⟨14, _⟩ => ⟨S1x1500, .f32⟩
  | .hbm, ⟨15, _⟩ => ⟨S10000x1500, .f32⟩
  | .hbm, ⟨16, _⟩ => ⟨S10000x1500, .f32⟩
  | .hbm, ⟨17, _⟩ => ⟨S1500x10000, .f32⟩
  | .hbm, ⟨18, _⟩ => ⟨S1500x128, .f32⟩
  | .hbm, ⟨19, _⟩ => ⟨S1500x128, .f32⟩
  | .hbm, ⟨20, _⟩ => ⟨S1x128, .f32⟩
  | .hbm, ⟨21, _⟩ => ⟨S1500x128, .f32⟩
  | .hbm, ⟨22, _⟩ => ⟨S1500x128, .f32⟩
  | .hbm, ⟨23, _⟩ => ⟨S_, .f32⟩
  | .hbm, ⟨24, _⟩ => ⟨S1500x128, .f32⟩
  | .hbm, ⟨25, _⟩ => ⟨S1500x128, .f32⟩
  | .hbm, ⟨26, _⟩ => ⟨S1500x30, .f32⟩
  | .hbm, ⟨27, _⟩ => ⟨S1500x30, .f32⟩
  | .hbm, ⟨28, _⟩ => ⟨S1x30, .f32⟩
  | .hbm, ⟨29, _⟩ => ⟨S1500x30, .f32⟩
  | .hbm, ⟨30, _⟩ => ⟨S1500x30, .f32⟩
  | .hbm, ⟨31, _⟩ => ⟨S1500x30, .f32⟩
  | .hbm, ⟨32, _⟩ => ⟨S1500x30, .f32⟩
  | .hbm, ⟨33, _⟩ => ⟨S1x30, .f32⟩
  | .hbm, ⟨34, _⟩ => ⟨S1500x30, .f32⟩
  | .hbm, ⟨35, _⟩ => ⟨S1500x30, .f32⟩
  | .hbm, ⟨36, _⟩ => ⟨S1500x2, .f32⟩
  | .hbm, ⟨37, _⟩ => ⟨S1x2, .f32⟩
  | .hbm, ⟨38, _⟩ => ⟨S1500x2, .f32⟩
  | .hbm, ⟨39, _⟩ => ⟨S1500x2, .f32⟩
  | .hbm, ⟨40, _⟩ => ⟨S_, .f32⟩
  | .hbm, ⟨41, _⟩ => ⟨S1500, .f32⟩
  | .hbm, ⟨42, _⟩ => ⟨S_, .f32⟩
  | .hbm, ⟨43, _⟩ => ⟨S1500, .f32⟩
  | .hbm, ⟨44, _⟩ => ⟨S1500, .f32⟩
  | .hbm, ⟨45, _⟩ => ⟨S1500x1, .f32⟩
  | .hbm, ⟨46, _⟩ => ⟨S1500x2, .f32⟩
  | .hbm, ⟨47, _⟩ => ⟨S1500x2, .f32⟩
  | .hbm, ⟨48, _⟩ => ⟨S1500x2, .f32⟩
  | .hbm, ⟨49, _⟩ => ⟨S_, .f32⟩
  | .hbm, ⟨50, _⟩ => ⟨S1500, .f32⟩
  | .hbm, ⟨51, _⟩ => ⟨S1500x1, .f32⟩
  | .hbm, ⟨52, _⟩ => ⟨S1500x1, .f32⟩
  | .hbm, ⟨53, _⟩ => ⟨S1500x2, .f32⟩
  | .hbm, ⟨54, _⟩ => ⟨S1500x2, .f32⟩
  | _, _ => ⟨S10000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_call0_cst : Ref sig .tc := ⟨.hbm, 23, rfl⟩
abbrev main_call0_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call1_cst : Ref sig .tc := ⟨.hbm, 40, rfl⟩
abbrev main_call1_v0 : Ref sig .tc := ⟨.hbm, 41, rfl⟩
abbrev main_call1_cst_0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_cst_1 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_v25 : Ref sig .tc := ⟨.hbm, 54, rfl⟩

abbrev nD : Nat := 1
abbrev τ : Topo := Topo.v7x

variable {F : FTy → Type} [FloatOps F]

class Facts₀ : Prop where
  bcast_S1500_S1x1500_1 : S1500.BroadcastsInDim S1x1500 (![1] : Fin 1 → Fin S1x1500.rank)
  bcast_S1x1500_S10000x1500_0_1 : S1x1500.BroadcastsInDim S10000x1500 (![0, 1] : Fin 2 → Fin S10000x1500.rank)
  transposes_S10000x1500_S1500x10000_1_0 : S10000x1500.Transposes [1, 0] S1500x10000
  bcast_S128_S1x128_1 : S128.BroadcastsInDim S1x128 (![1] : Fin 1 → Fin S1x128.rank)
  bcast_S1x128_S1500x128_0_1 : S1x128.BroadcastsInDim S1500x128 (![0, 1] : Fin 2 → Fin S1500x128.rank)
  bcast_S_S1500x128 : S_.BroadcastsInDim S1500x128 (![] : Fin 0 → Fin S1500x128.rank)
  bcast_S30_S1x30_1 : S30.BroadcastsInDim S1x30 (![1] : Fin 1 → Fin S1x30.rank)
  bcast_S1x30_S1500x30_0_1 : S1x30.BroadcastsInDim S1500x30 (![0, 1] : Fin 2 → Fin S1500x30.rank)
  bcast_S2_S1x2_1 : S2.BroadcastsInDim S1x2 (![1] : Fin 1 → Fin S1x2.rank)
  bcast_S1x2_S1500x2_0_1 : S1x2.BroadcastsInDim S1500x2 (![0, 1] : Fin 2 → Fin S1500x2.rank)
  reducesTo_S1500x2_S1500_d1 : S1500x2.ReducesTo [1] S1500
  h_S_ : 0 < S_.numel
  bcast_S_S1500 : S_.BroadcastsInDim S1500 (![] : Fin 0 → Fin S1500.rank)
  bcast_S1500_S1500x1_0 : S1500.BroadcastsInDim S1500x1 (![0] : Fin 1 → Fin S1500x1.rank)
  bcast_S1500x1_S1500x2_0_1 : S1500x1.BroadcastsInDim S1500x2 (![0, 1] : Fin 2 → Fin S1500x2.rank)
  dot_S10000x300_S300x1500_S10000x1500_1_0_0_1_n_n_wf : DotDims.WF S10000x300 S300x1500 S10000x1500 [1] [0] [0] [1] [] []
  dot_S1500x10000_S10000x128_S1500x128_1_0_0_1_n_n_wf : DotDims.WF S1500x10000 S10000x128 S1500x128 [1] [0] [0] [1] [] []
  dot_S1500x1500_S1500x128_S1500x128_1_0_0_1_n_n_wf : DotDims.WF S1500x1500 S1500x128 S1500x128 [1] [0] [0] [1] [] []
  dot_S1500x128_S128x30_S1500x30_1_0_0_1_n_n_wf : DotDims.WF S1500x128 S128x30 S1500x30 [1] [0] [0] [1] [] []
  dot_S1500x1500_S1500x30_S1500x30_1_0_0_1_n_n_wf : DotDims.WF S1500x1500 S1500x30 S1500x30 [1] [0] [0] [1] [] []
  dot_S1500x30_S30x30_S1500x30_1_0_0_1_n_n_wf : DotDims.WF S1500x30 S30x30 S1500x30 [1] [0] [0] [1] [] []
  dot_S1500x30_S30x2_S1500x2_1_0_0_1_n_n_wf : DotDims.WF S1500x30 S30x2 S1500x2 [1] [0] [0] [1] [] []

variable [Facts₀]

def dot_S10000x300_S300x1500_S10000x1500_1_0_0_1_n_n : DotDims S10000x300 S300x1500 S10000x1500 where
  lhsContracting := [1]
  rhsContracting := [0]
  lhsNonContracting := [0]
  rhsNonContracting := [1]
  lhsBatch := []
  rhsBatch := []
  wf := dot_S10000x300_S300x1500_S10000x1500_1_0_0_1_n_n_wf
def dot_S1500x10000_S10000x128_S1500x128_1_0_0_1_n_n : DotDims S1500x10000 S10000x128 S1500x128 where
  lhsContracting := [1]
  rhsContracting := [0]
  lhsNonContracting := [0]
  rhsNonContracting := [1]
  lhsBatch := []
  rhsBatch := []
  wf := dot_S1500x10000_S10000x128_S1500x128_1_0_0_1_n_n_wf
def dot_S1500x1500_S1500x128_S1500x128_1_0_0_1_n_n : DotDims S1500x1500 S1500x128 S1500x128 where
  lhsContracting := [1]
  rhsContracting := [0]
  lhsNonContracting := [0]
  rhsNonContracting := [1]
  lhsBatch := []
  rhsBatch := []
  wf := dot_S1500x1500_S1500x128_S1500x128_1_0_0_1_n_n_wf
def dot_S1500x128_S128x30_S1500x30_1_0_0_1_n_n : DotDims S1500x128 S128x30 S1500x30 where
  lhsContracting := [1]
  rhsContracting := [0]
  lhsNonContracting := [0]
  rhsNonContracting := [1]
  lhsBatch := []
  rhsBatch := []
  wf := dot_S1500x128_S128x30_S1500x30_1_0_0_1_n_n_wf
def dot_S1500x1500_S1500x30_S1500x30_1_0_0_1_n_n : DotDims S1500x1500 S1500x30 S1500x30 where
  lhsContracting := [1]
  rhsContracting := [0]
  lhsNonContracting := [0]
  rhsNonContracting := [1]
  lhsBatch := []
  rhsBatch := []
  wf := dot_S1500x1500_S1500x30_S1500x30_1_0_0_1_n_n_wf
def dot_S1500x30_S30x30_S1500x30_1_0_0_1_n_n : DotDims S1500x30 S30x30 S1500x30 where
  lhsContracting := [1]
  rhsContracting := [0]
  lhsNonContracting := [0]
  rhsNonContracting := [1]
  lhsBatch := []
  rhsBatch := []
  wf := dot_S1500x30_S30x30_S1500x30_1_0_0_1_n_n_wf
def dot_S1500x30_S30x2_S1500x2_1_0_0_1_n_n : DotDims S1500x30 S30x2 S1500x2 where
  lhsContracting := [1]
  rhsContracting := [0]
  lhsNonContracting := [0]
  rhsNonContracting := [1]
  lhsBatch := []
  rhsBatch := []
  wf := dot_S1500x30_S30x2_S1500x2_1_0_0_1_n_n_wf

class Facts : Prop extends Facts₀ where

variable [Facts]
-- ==== Proof.Spec.lean ====
/-
  The mathematics of the two programs over the reals.

  Inputs: x (10000×300), adj, adj2 (1500×1500), W_l1 (300×1500), b_l1 (1500), W_gc1 (10000×128), b_gc1 (128),
  W_gc2 (128×30), b_gc2 (30), W_gc3 (30×30), b_gc3 (30), W_l4 (30×2), b_l4 (2).

  The reference forms h = x·W_l1 + b_l1 (10000×1500), then hᵀ·W_gc1, three graph convolutions adj·(h·W) + b with a
  ReLU after the first, a last linear layer and a row-wise log-softmax.
  The kernel never forms h: it accumulates t = xᵀ·W_gc1 (300×128) and the column sums of W_gc1 and uses
  hᵀ·W_gc1 = W_l1ᵀ·t + b_l1 ⊗ colsum(W_gc1); after the ReLU every layer is linear, so it folds
  W_gc2·W_gc3·W_l4 into one 128×2 matrix and carries the biases through the folded products.
  Over the reals the two are equal by associativity and distributivity of matrix products (`Wk_eq_Z`), and the two
  spellings of the log-softmax, z − (m + log Σ e^{z−m}) and (z − m) − log Σ e^{z−m}, agree (`OutK_eq_OutR`).
-/
import Mathlib.Analysis.SpecialFunctions.Log.Basic
import Mathlib.Algebra.BigOperators.Fin
import Mathlib.Data.Real.Basic

noncomputable section

namespace Cert.Spec

/-- The thirteen inputs as real arrays. -/
structure RIn where
  x : Fin 10000 → Fin 300 → ℝ
  adj : Fin 1500 → Fin 1500 → ℝ
  adj2 : Fin 1500 → Fin 1500 → ℝ
  wl1 : Fin 300 → Fin 1500 → ℝ
  bl1 : Fin 1500 → ℝ
  wg1 : Fin 10000 → Fin 128 → ℝ
  bg1 : Fin 128 → ℝ
  wg2 : Fin 128 → Fin 30 → ℝ
  bg2 : Fin 30 → ℝ
  wg3 : Fin 30 → Fin 30 → ℝ
  bg3 : Fin 30 → ℝ
  wl4 : Fin 30 → Fin 2 → ℝ
  bl4 : Fin 2 → ℝ

variable (R : RIn)

/-! ## The kernel's chain -/

/-- t = xᵀ·W_gc1. -/
def T (a : Fin 300) (j : Fin 128) : ℝ := ∑ k : Fin 10000, R.x k a * R.wg1 k j
/-- The column sums of W_gc1. -/
def cs (j : Fin 128) : ℝ := ∑ k : Fin 10000, R.wg1 k j
/-- s1 = W_l1ᵀ·t + b_l1 ⊗ colsum. -/
def S1 (i : Fin 1500) (j : Fin 128) : ℝ := (∑ a : Fin 300, R.wl1 a i * T R a j) + R.bl1 i * cs R j
/-- h1 = relu(adj·s1 + b_gc1). -/
def H1 (i : Fin 1500) (j : Fin 128) : ℝ := max ((∑ k : Fin 1500, R.adj i k * S1 R k j) + R.bg1 j) 0
/-- W34 = W_gc3·W_l4. -/
def W34 (a : Fin 30) (q : Fin 2) : ℝ := ∑ k : Fin 30, R.wg3 a k * R.wl4 k q
/-- W234 = W_gc2·W34. -/
def W234 (a : Fin 128) (q : Fin 2) : ℝ := ∑ k : Fin 30, R.wg2 a k * W34 R k q
/-- u = h1·W234. -/
def U (i : Fin 1500) (q : Fin 2) : ℝ := ∑ k : Fin 128, H1 R i k * W234 R k q
/-- v = adj·u + b_gc2·W34. -/
def Vk (i : Fin 1500) (q : Fin 2) : ℝ := (∑ k : Fin 1500, R.adj i k * U R k q) + ∑ k : Fin 30, R.bg2 k * W34 R k q
/-- w = adj2·v + b_gc3·W_l4 + b_l4: the kernel's logits. -/
def Wk (i : Fin 1500) (q : Fin 2) : ℝ :=
  ((∑ k : Fin 1500, R.adj2 i k * Vk R k q) + ∑ k : Fin 30, R.bg3 k * R.wl4 k q) + R.bl4 q

/-! ## The reference's chain -/

/-- h = x·W_l1 + b_l1. -/
def Hh (k : Fin 10000) (i : Fin 1500) : ℝ := (∑ a : Fin 300, R.x k a * R.wl1 a i) + R.bl1 i
/-- hᵀ·W_gc1. -/
def Sr (i : Fin 1500) (j : Fin 128) : ℝ := ∑ k : Fin 10000, Hh R k i * R.wg1 k j
/-- relu(adj·(hᵀ·W_gc1) + b_gc1). -/
def H1r (i : Fin 1500) (j : Fin 128) : ℝ := max ((∑ k : Fin 1500, R.adj i k * Sr R k j) + R.bg1 j) 0
def P2 (i : Fin 1500) (b : Fin 30) : ℝ := ∑ k : Fin 128, H1r R i k * R.wg2 k b
def H2 (i : Fin 1500) (b : Fin 30) : ℝ := (∑ k : Fin 1500, R.adj i k * P2 R k b) + R.bg2 b
def P3 (i : Fin 1500) (b : Fin 30) : ℝ := ∑ k : Fin 30, H2 R i k * R.wg3 k b
def H3 (i : Fin 1500) (b : Fin 30) : ℝ := (∑ k : Fin 1500, R.adj2 i k * P3 R k b) + R.bg3 b
/-- The reference's logits. -/
def Z (i : Fin 1500) (q : Fin 2) : ℝ := (∑ k : Fin 30, H3 R i k * R.wl4 k q) + R.bl4 q

/-! ## The log-softmax over the two classes -/

/-- The row maximum. -/
def mx (z : Fin 1500 → Fin 2 → ℝ) (i : Fin 1500) : ℝ := max (z i 0) (z i 1)
/-- Σ_q e^{z − m}. -/
def se (z : Fin 1500 → Fin 2 → ℝ) (i : Fin 1500) : ℝ := Real.exp (z i 0 - mx z i) + Real.exp (z i 1 - mx z i)
/-- The kernel's spelling: w − (m + log Σ e^{w−m}). -/
def OutK (i : Fin 1500) (q : Fin 2) : ℝ := Wk R i q - (mx (Wk R) i + Real.log (se (Wk R) i))
/-- The reference's spelling: (z − m) − log Σ e^{z−m}. -/
def OutR (i : Fin 1500) (q : Fin 2) : ℝ := (Z R i q - mx (Z R) i) - Real.log (se (Z R) i)

theorem se_pos (z : Fin 1500 → Fin 2 → ℝ) (i : Fin 1500) : 0 < se z i := by
  unfold se; positivity

end Cert.Spec

end
-- ==== Proof.SpecLaws.lean ====
/-
  The two chains agree over the reals: hᵀ·W_gc1 = W_l1ᵀ·(xᵀ·W_gc1) + b_l1 ⊗ colsum(W_gc1) by distributing the sum over
  the rows of x, the linear tail by associativity of the matrix products and distributivity over the bias rows, and
  the two spellings of the log-softmax by arithmetic.
-/
import proofs.«146911_g64390149702081_cont_9to1_m_674_1_alg».proof.Proof.Spec

noncomputable section

namespace Cert.Spec

variable (R : RIn)

/-! ## Two general identities on finite sums -/

/-- Associativity of a row–matrix–column product: Σ_b (Σ_a A_a B_ab) C_b = Σ_a A_a (Σ_b B_ab C_b). -/
theorem sum_mul_assoc {ι κ : Type*} [Fintype ι] [Fintype κ] (A : ι → ℝ) (B : ι → κ → ℝ) (C : κ → ℝ) :
    ∑ b, (∑ a, A a * B a b) * C b = ∑ a, A a * ∑ b, B a b * C b := by
  simp only [Finset.sum_mul, Finset.mul_sum]
  rw [Finset.sum_comm]
  exact Finset.sum_congr rfl fun a _ => Finset.sum_congr rfl fun b _ => mul_assoc _ _ _

/-- The same with a bias row: Σ_b (Σ_a A_a B_ab + c_b) C_b = Σ_a A_a (Σ_b B_ab C_b) + Σ_b c_b C_b. -/
theorem sum_affine_mul {ι κ : Type*} [Fintype ι] [Fintype κ] (A : ι → ℝ) (B : ι → κ → ℝ) (c C : κ → ℝ) :
    ∑ b, ((∑ a, A a * B a b) + c b) * C b = (∑ a, A a * ∑ b, B a b * C b) + ∑ b, c b * C b := by
  simp only [add_mul, Finset.sum_add_distrib]
  rw [sum_mul_assoc]

/-- A bias column carried through a transposed product:
Σ_k (Σ_a X_ka w_a + b) g_k = Σ_a w_a (Σ_k X_ka g_k) + b Σ_k g_k. -/
theorem sum_affine_col {ι κ : Type*} [Fintype ι] [Fintype κ] (X : κ → ι → ℝ) (w : ι → ℝ) (b : ℝ) (g : κ → ℝ) :
    ∑ k, ((∑ a, X k a * w a) + b) * g k = (∑ a, w a * ∑ k, X k a * g k) + b * ∑ k, g k := by
  -- distribute the product over the bias, then pull the constants out of the sums over k
  simp only [add_mul, Finset.sum_add_distrib, Finset.sum_mul, Finset.mul_sum]
  -- exchange the sums over k and a; the summands agree up to commutativity
  rw [Finset.sum_comm]
  congr 1
  exact Finset.sum_congr rfl fun a _ => Finset.sum_congr rfl fun k _ => by ring

/-! ## The first layer -/

/-- hᵀ·W_gc1 = W_l1ᵀ·(xᵀ·W_gc1) + b_l1 ⊗ colsum(W_gc1). -/
theorem Sr_eq_S1 (i : Fin 1500) (j : Fin 128) : Sr R i j = S1 R i j := by
  unfold Sr S1 Hh T cs
  exact sum_affine_col (fun k a => R.x k a) (fun a => R.wl1 a i) (R.bl1 i) (fun k => R.wg1 k j)

/-- The two first hidden layers agree: the same ReLU of the same affine form. -/
theorem H1r_eq_H1 (i : Fin 1500) (j : Fin 128) : H1r R i j = H1 R i j := by
  unfold H1r H1
  simp only [Sr_eq_S1]

/-! ## The linear tail -/

/-- (H1r·W_gc2)·W34 = H1·(W_gc2·W34). -/
theorem P2_W34 (m : Fin 1500) (q : Fin 2) : ∑ c, P2 R m c * W34 R c q = U R m q := by
  unfold P2 U W234
  rw [sum_mul_assoc]
  simp only [H1r_eq_H1]

/-- (adj·P2 + b_gc2)·W34 = adj·(P2·W34) + b_gc2·W34, which is the kernel's v. -/
theorem H2_W34 (k : Fin 1500) (q : Fin 2) : ∑ c, H2 R k c * W34 R c q = Vk R k q := by
  unfold H2 Vk
  rw [sum_affine_mul]
  simp only [P2_W34]

/-- (H2·W_gc3)·W_l4 = H2·(W_gc3·W_l4). -/
theorem P3_wl4 (k : Fin 1500) (q : Fin 2) : ∑ b, P3 R k b * R.wl4 b q = Vk R k q := by
  unfold P3
  rw [sum_mul_assoc]
  exact H2_W34 R k q

/-- The folded tail: the two logits agree. -/
theorem Wk_eq_Z (i : Fin 1500) (q : Fin 2) : Wk R i q = Z R i q := by
  unfold Wk Z H3
  -- (adj2·P3 + b_gc3)·W_l4 = adj2·(P3·W_l4) + b_gc3·W_l4
  rw [sum_affine_mul]
  simp only [P3_wl4]

/-- With equal logits, z − (m + log Σ e^{z−m}) = (z − m) − log Σ e^{z−m}. -/
theorem OutK_eq_OutR (i : Fin 1500) (q : Fin 2) : OutK R i q = OutR R i q := by
  have h : Wk R = Z R := funext fun i => funext fun q => Wk_eq_Z R i q
  unfold OutK OutR
  rw [h]
  ring

end Cert.Spec

end
-- ==== Proof.Finite.lean ====
/-
  From the precondition to real numbers.

  The precondition says of every input array that every entry's absolute value is below +∞. An extended real whose
  absolute value max(x, −x) is below +∞ is neither +∞ nor −∞, so it is (the coercion of) a real number. Hence the
  thirteen input arrays are the coercions of thirteen real arrays.
-/
import proofs.«146911_g64390149702081_cont_9to1_m_674_1_alg».proof.Pre_finite_inputs
import proofs.«146911_g64390149702081_cont_9to1_m_674_1_alg».proof.Proof.Gen.Pre_finite_inputs
import proofs.«146911_g64390149702081_cont_9to1_m_674_1_alg».proof.Proof.Spec
import Idealize.ShloMosaic.Lib.ReduceAll
import Idealize.ShloMosaic.Lib.ValueIdx
import Idealize.ShloMosaic.PureOps.Ideal.Laws

noncomputable section

namespace Cert.Finite

open Cert.Pre_finite_inputs Idealize.ShloMosaic Idealize.ShloMosaic.ValueIdx

/-- The scalar shape has exactly one index. -/
instance : Subsingleton S_.Idx := ⟨fun a b => funext fun d => d.elim0⟩

/-- The bit pattern 0x7F800000 is +∞. -/
theorem inf_eq_top : Ideal.ofBits .f32 0x7F800000#32 = (⊤ : EReal) := by simp [Ideal.ofBits, Ideal.ieee]

/-- An extended real whose absolute value max(x, −x) is below +∞ is the coercion of a real number. -/
theorem coe_toReal_of_abs_lt_top (x : EReal) (h : max x (-x) < ⊤) : x = ((x.toReal : ℝ) : EReal) := by
  rw [max_lt_iff] at h
  have h1 : x ≠ ⊤ := h.1.ne
  have h2 : x ≠ ⊥ := by
    intro hb
    rw [hb] at h
    exact absurd h.2 (by simp)
  exact (EReal.coe_toReal h1 h2).symm

/-- An array all of whose entries pass the comparison |x| < +∞ is everywhere the coercion of a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
          (constantI S_ 1 1#1) hr hu ix0 = 1#1) (i : s.Idx) :
    x i = (((x i).toReal : ℝ) : EReal) := by
  -- every entry of the compared array is 1
  have hi := Host.reduce_andi_all _ _ hr hu ix0 e i
  -- at the entry i the comparison is max(x i, −x i) < +∞
  change Ideal.cmp .olt (max (x i) (-(x i))) (Ideal.ofBits .f32 0x7F800000#32) = 1#1 at hi
  rw [inf_eq_top] at hi
  refine coe_toReal_of_abs_lt_top (x i) ?_
  by_contra hn
  simp [Ideal.cmp, hn] at hi

/-- The conjunction of two one-bit words at an index. -/
theorem andi_at {s : Shape} (x y : IVec s 1) (i : s.Idx) : andi x y i = IntOp.andi (x i) (y i) := rfl

/-- Under the precondition every input array is the coercion of a real array. -/
theorem reals_of_pre [Cert.Pre_finite_inputs.Facts]
    (x0 : FVec Ideal S10000x300 .f32) (x1 x2 : FVec Ideal S1500x1500 .f32) (x3 : FVec Ideal S300x1500 .f32)
    (x4 : FVec Ideal S1500 .f32) (x5 : FVec Ideal S10000x128 .f32) (x6 : FVec Ideal S128 .f32)
    (x7 : FVec Ideal S128x30 .f32) (x8 : FVec Ideal S30 .f32) (x9 : FVec Ideal S30x30 .f32)
    (x10 : FVec Ideal S30 .f32) (x11 : FVec Ideal S30x2 .f32) (x12 : FVec Ideal S2 .f32)
    (h : Cert.Pre_finite_inputs.fn (F := Ideal) x0 x1 x2 x3 x4 x5 x6 x7 x8 x9 x10 x11 x12 = fun _ => 1#1) :
    ∃ R : Cert.Spec.RIn,
      (∀ (k : Fin 10000) (a : Fin 300), x0 (ix2 k a) = ((R.x k a : ℝ) : EReal))
      ∧ (∀ i k : Fin 1500, x1 (ix2 i k) = ((R.adj i k : ℝ) : EReal))
      ∧ (∀ i k : Fin 1500, x2 (ix2 i k) = ((R.adj2 i k : ℝ) : EReal))
      ∧ (∀ (a : Fin 300) (i : Fin 1500), x3 (ix2 a i) = ((R.wl1 a i : ℝ) : EReal))
      ∧ (∀ i : Fin 1500, x4 (ix1 i) = ((R.bl1 i : ℝ) : EReal))
      ∧ (∀ (k : Fin 10000) (j : Fin 128), x5 (ix2 k j) = ((R.wg1 k j : ℝ) : EReal))
      ∧ (∀ j : Fin 128, x6 (ix1 j) = ((R.bg1 j : ℝ) : EReal))
      ∧ (∀ (a : Fin 128) (b : Fin 30), x7 (ix2 a b) = ((R.wg2 a b : ℝ) : EReal))
      ∧ (∀ b : Fin 30, x8 (ix1 b) = ((R.bg2 b : ℝ) : EReal))
      ∧ (∀ a b : Fin 30, x9 (ix2 a b) = ((R.wg3 a b : ℝ) : EReal))
      ∧ (∀ b : Fin 30, x10 (ix1 b) = ((R.bg3 b : ℝ) : EReal))
      ∧ (∀ (a : Fin 30) (q : Fin 2), x11 (ix2 a q) = ((R.wl4 a q : ℝ) : EReal))
      ∧ (∀ q : Fin 2, x12 (ix1 q) = ((R.bl4 q : ℝ) : EReal)) := by
  -- the scalar result at its one index, with the printed chain in view
  have h0 := congrFun h ix0
  dsimp only [fn, fn_part1, fn_part2, fn_part3] at h0
  -- the conjunction of the thirteen scalars is 1 exactly when each is
  simp only [andi_at, IntOp.andi_eq_one] at h0
  obtain ⟨⟨⟨⟨⟨⟨⟨⟨⟨⟨⟨⟨e0, e1⟩, e2⟩, e3⟩, e4⟩, e5⟩, e6⟩, e7⟩, e8⟩, e9⟩, e10⟩, e11⟩, e12⟩ := h0
  -- the real record: entry by entry the real part of the extended real
  refine ⟨{ x := fun k a => (x0 (ix2 k a)).toReal
            adj := fun i k => (x1 (ix2 i k)).toReal
            adj2 := fun i k => (x2 (ix2 i k)).toReal
            wl1 := fun a i => (x3 (ix2 a i)).toReal
            bl1 := fun i => (x4 (ix1 i)).toReal
            wg1 := fun k j => (x5 (ix2 k j)).toReal
            bg1 := fun j => (x6 (ix1 j)).toReal
            wg2 := fun a b => (x7 (ix2 a b)).toReal
            bg2 := fun b => (x8 (ix1 b)).toReal
            wg3 := fun a b => (x9 (ix2 a b)).toReal
            bg3 := fun b => (x10 (ix1 b)).toReal
            wl4 := fun a q => (x11 (ix2 a q)).toReal
            bl4 := fun q => (x12 (ix1 q)).toReal }, ?_, ?_, ?_, ?_, ?_, ?_, ?_, ?_, ?_, ?_, ?_, ?_, ?_⟩
  · exact fun k a => real_of_all x0 _ _ _ e0 _
  · exact fun i k => real_of_all x1 _ _ _ e1 _
  · exact fun i k => real_of_all x2 _ _ _ e2 _
  · exact fun a i => real_of_all x3 _ _ _ e3 _
  · exact fun i => real_of_all x4 _ _ _ e4 _
  · exact fun k j => real_of_all x5 _ _ _ e5 _
  · exact fun j => real_of_all x6 _ _ _ e6 _
  · exact fun a b => real_of_all x7 _ _ _ e7 _
  · exact fun b => real_of_all x8 _ _ _ e8 _
  · exact fun a b => real_of_all x9 _ _ _ e9 _
  · exact fun b => real_of_all x10 _ _ _ e10 _
  · exact fun a q => real_of_all x11 _ _ _ e11 _
  · exact fun q => real_of_all x12 _ _ _ e12 _

end Cert.Finite

end
-- ==== Proof.Coe.lean ====
/-
  Extended reals that are real numbers: sums, products, maxima, exponentials and logarithms of coerced reals are
  the coercions of the real results. Every input of the two programs is finite, so every intermediate value is of
  this kind, and the comparison of the two programs is carried out over the reals.
-/
import Idealize.ShloMosaic.PureOps.Ideal.Laws
import Idealize.ShloMosaic.Lib.ValueIdx

noncomputable section

namespace Cert.Coe

open Idealize.ShloMosaic

/-- A finite sum of coerced reals is the coerced sum. -/
theorem coe_sum {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A contraction Σ_k f k · g k of coerced reals is the coerced real contraction. -/
theorem coe_dot {n : Nat} (f g : Fin n → ℝ) :
    ∑ k : Fin n, ((f k : ℝ) : EReal) * ((g k : ℝ) : EReal) = ((∑ k : Fin n, f k * g k : ℝ) : EReal) := by
  rw [← coe_sum]
  exact Finset.sum_congr rfl fun k _ => (EReal.coe_mul _ _).symm

/-- The maximum of two coerced reals. -/
theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The word of −∞ denotes the bottom element. -/
theorem ofBits_neg_inf : Ideal.ofBits .f32 0xFF800000#32 = (⊥ : EReal) := by
  simp [Ideal.ofBits, Ideal.ieee]

/-- The running maximum over two entries, started from −∞, is the maximum of the two. -/
theorem fold_max_two (f : Fin 2 → EReal) :
    (Finset.univ : Finset (Fin 2)).fold max (⊥ : EReal) f = max (f 0) (f 1) := by
  rw [show (Finset.univ : Finset (Fin 2)) = {0, 1} from by decide]
  rw [Finset.fold_insert (by decide), Finset.fold_singleton, max_eq_left (bot_le : (⊥ : EReal) ≤ f 1)]

/-- The exponential of a coerced real. -/
theorem exp_coe (a : ℝ) : Ideal.exp (a : EReal) = ((Real.exp a : ℝ) : EReal) := rfl

/-- The logarithm of a positive coerced real. -/
theorem log_coe {a : ℝ} (h : 0 < a) : Ideal.log (a : EReal) = ((Real.log a : ℝ) : EReal) := by
  rw [Ideal.log_coe, if_neg (not_le.mpr h)]

end Cert.Coe

end
-- ==== Proof.RefVal.lean ====
/-
  The reference at an index, over the reals.

  The reference forms h = x·W_l1 + b_l1, transposes it, and applies adj·(hᵀ·W_gc1) + b_gc1 with a ReLU, then
  adj·(·W_gc2) + b_gc2, adj2·(·W_gc3) + b_gc3, a last product with W_l4 plus b_l4, and the row-wise log-softmax
  (z − m) − log Σ e^{z−m} with m the row maximum. When every input holds real numbers, every stage does, and the
  result at (p, q) is the real number `Spec.OutR R p q`.
-/
import proofs.«146911_g64390149702081_cont_9to1_m_674_1_alg».proof.Proof.Gen.ReferenceIdeal.Read
import proofs.«146911_g64390149702081_cont_9to1_m_674_1_alg».proof.Proof.Spec
import proofs.«146911_g64390149702081_cont_9to1_m_674_1_alg».proof.Proof.Coe
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.RefVal

open Cert.ReferenceIdeal Cert.ReferenceIdeal.Gen Cert.ReferenceIdeal.Read Idealize.ShloMosaic Idealize.ShloMosaic.TcCoe Idealize.ShloMosaic.ValueIdx

/-- Every input holds the real numbers of `R`. -/
structure Holds (R : Cert.Spec.RIn)
    (x0 : (⟨S10000x300, .f32⟩ : BufTy).Contents (Elt Ideal)) (x1 x2 : (⟨S1500x1500, .f32⟩ : BufTy).Contents (Elt Ideal)) (x3 : (⟨S300x1500, .f32⟩ : BufTy).Contents (Elt Ideal))
    (x4 : (⟨S1500, .f32⟩ : BufTy).Contents (Elt Ideal)) (x5 : (⟨S10000x128, .f32⟩ : BufTy).Contents (Elt Ideal)) (x6 : (⟨S128, .f32⟩ : BufTy).Contents (Elt Ideal))
    (x7 : (⟨S128x30, .f32⟩ : BufTy).Contents (Elt Ideal)) (x8 : (⟨S30, .f32⟩ : BufTy).Contents (Elt Ideal)) (x9 : (⟨S30x30, .f32⟩ : BufTy).Contents (Elt Ideal))
    (x10 : (⟨S30, .f32⟩ : BufTy).Contents (Elt Ideal)) (x11 : (⟨S30x2, .f32⟩ : BufTy).Contents (Elt Ideal)) (x12 : (⟨S2, .f32⟩ : BufTy).Contents (Elt Ideal)) : Prop where
  h0 : ∀ (k : Fin 10000) (a : Fin 300), x0 (ix2 k a) = ((R.x k a : ℝ) : EReal)
  h1 : ∀ i k : Fin 1500, x1 (ix2 i k) = ((R.adj i k : ℝ) : EReal)
  h2 : ∀ i k : Fin 1500, x2 (ix2 i k) = ((R.adj2 i k : ℝ) : EReal)
  h3 : ∀ (a : Fin 300) (i : Fin 1500), x3 (ix2 a i) = ((R.wl1 a i : ℝ) : EReal)
  h4 : ∀ i : Fin 1500, x4 (ix1 i) = ((R.bl1 i : ℝ) : EReal)
  h5 : ∀ (k : Fin 10000) (j : Fin 128), x5 (ix2 k j) = ((R.wg1 k j : ℝ) : EReal)
  h6 : ∀ j : Fin 128, x6 (ix1 j) = ((R.bg1 j : ℝ) : EReal)
  h7 : ∀ (a : Fin 128) (b : Fin 30), x7 (ix2 a b) = ((R.wg2 a b : ℝ) : EReal)
  h8 : ∀ b : Fin 30, x8 (ix1 b) = ((R.bg2 b : ℝ) : EReal)
  h9 : ∀ a b : Fin 30, x9 (ix2 a b) = ((R.wg3 a b : ℝ) : EReal)
  h10 : ∀ b : Fin 30, x10 (ix1 b) = ((R.bg3 b : ℝ) : EReal)
  h11 : ∀ (a : Fin 30) (q : Fin 2), x11 (ix2 a q) = ((R.wl4 a q : ℝ) : EReal)
  h12 : ∀ q : Fin 2, x12 (ix1 q) = ((R.bl4 q : ℝ) : EReal)

section Stages

variable {R : Cert.Spec.RIn}
variable {x0 : (⟨S10000x300, .f32⟩ : BufTy).Contents (Elt Ideal)} {x1 x2 : (⟨S1500x1500, .f32⟩ : BufTy).Contents (Elt Ideal)} {x3 : (⟨S300x1500, .f32⟩ : BufTy).Contents (Elt Ideal)}
  {x4 : (⟨S1500, .f32⟩ : BufTy).Contents (Elt Ideal)} {x5 : (⟨S10000x128, .f32⟩ : BufTy).Contents (Elt Ideal)} {x6 : (⟨S128, .f32⟩ : BufTy).Contents (Elt Ideal)}
  {x7 : (⟨S128x30, .f32⟩ : BufTy).Contents (Elt Ideal)} {x8 : (⟨S30, .f32⟩ : BufTy).Contents (Elt Ideal)} {x9 : (⟨S30x30, .f32⟩ : BufTy).Contents (Elt Ideal)}
  {x10 : (⟨S30, .f32⟩ : BufTy).Contents (Elt Ideal)} {x11 : (⟨S30x2, .f32⟩ : BufTy).Contents (Elt Ideal)} {x12 : (⟨S2, .f32⟩ : BufTy).Contents (Elt Ideal)}
variable (H : Holds R x0 x1 x2 x3 x4 x5 x6 x7 x8 x9 x10 x11 x12)
include H

/-! ## The first linear layer and its transpose -/

/-- x·W_l1 at (k, i). -/
theorem v0_at (k : Fin 10000) (i : Fin 1500) :
    val_main_v0 (F := Ideal) x0 x3 (ix2 k i) = ((∑ a : Fin 300, R.x k a * R.wl1 a i : ℝ) : EReal) := by
  rw [val_main_v0_apply, ← Cert.Coe.coe_dot]
  refine Finset.sum_congr rfl fun a _ => ?_
  have el : lidx_main_v0 (ix2 k i) a = ix2 k a := funext fun d => by
    match d with
    | ⟨0, _⟩ => rfl
    | ⟨1, _⟩ => rfl
  have er : ridx_main_v0 (ix2 k i) a = ix2 a i := funext fun d => by
    match d with
    | ⟨0, _⟩ => rfl
    | ⟨1, _⟩ => rfl
  rw [el, er, H.h0, H.h3]

/-- The bias b_l1 spread over the rows, at (k, i). -/
theorem v2_at (k : Fin 10000) (i : Fin 1500) :
    val_main_v2 (F := Ideal) x4 (ix2 k i) = ((R.bl1 i : ℝ) : EReal) := by
  rw [val_main_v2_apply, val_main_v1_apply]
  have e : idx_main_v1 (idx_main_v2 (ix2 k i)) = ix1 i := funext fun d => by
    match d with
    | ⟨0, _⟩ => rfl
  rw [e, H.h4]

/-- h = x·W_l1 + b_l1 at (k, i). -/
theorem v3_at (k : Fin 10000) (i : Fin 1500) :
    val_main_v3 (F := Ideal) x0 x3 x4 (ix2 k i) = ((Cert.Spec.Hh R k i : ℝ) : EReal) := by
  rw [val_main_v3_apply, Ideal.addf_def, v0_at H, v2_at H, ← EReal.coe_add]
  rfl

/-- hᵀ at (i, k). -/
theorem v4_at (i : Fin 1500) (k : Fin 10000) :
    val_main_v4 (F := Ideal) x0 x3 x4 (ix2 i k) = ((Cert.Spec.Hh R k i : ℝ) : EReal) := by
  rw [val_main_v4_apply]
  have e : idx_main_v4 (ix2 i k) = ix2 k i := funext fun d => by
    match d with
    | ⟨0, _⟩ => rfl
    | ⟨1, _⟩ => rfl
  rw [e, v3_at H]

/-! ## The first graph convolution and the ReLU -/

/-- hᵀ·W_gc1 at (i, j). -/
theorem v5_at (i : Fin 1500) (j : Fin 128) :
    val_main_v5 (F := Ideal) x0 x3 x4 x5 (ix2 i j) = ((Cert.Spec.Sr R i j : ℝ) : EReal) := by
  rw [val_main_v5_apply, Cert.Spec.Sr, ← Cert.Coe.coe_dot]
  refine Finset.sum_congr rfl fun k _ => ?_
  have el : lidx_main_v5 (ix2 i j) k = ix2 i k := funext fun d => by
    match d with
    | ⟨0, _⟩ => rfl
    | ⟨1, _⟩ => rfl
  have er : ridx_main_v5 (ix2 i j) k = ix2 k j := funext fun d => by
    match d with
    | ⟨0, _⟩ => rfl
    | ⟨1, _⟩ => rfl
  rw [el, er, v4_at H, H.h5]

/-- adj·(hᵀ·W_gc1) at (i, j). -/
theorem v6_at (i : Fin 1500) (j : Fin 128) :
    val_main_v6 (F := Ideal) x0 x1 x3 x4 x5 (ix2 i j) = ((∑ k : Fin 1500, R.adj i k * Cert.Spec.Sr R k j : ℝ) : EReal) := by
  rw [val_main_v6_apply, ← Cert.Coe.coe_dot]
  refine Finset.sum_congr rfl fun k _ => ?_
  have el : lidx_main_v6 (ix2 i j) k = ix2 i k := funext fun d => by
    match d with
    | ⟨0, _⟩ => rfl
    | ⟨1, _⟩ => rfl
  have er : ridx_main_v6 (ix2 i j) k = ix2 k j := funext fun d => by
    match d with
    | ⟨0, _⟩ => rfl
    | ⟨1, _⟩ => rfl
  rw [el, er, H.h1, v5_at H]

/-- The bias b_gc1 spread over the rows, at (i, j). -/
theorem v8_at (i : Fin 1500) (j : Fin 128) :
    val_main_v8 (F := Ideal) x6 (ix2 i j) = ((R.bg1 j : ℝ) : EReal) := by
  rw [val_main_v8_apply, val_main_v7_apply]
  have e : idx_main_v7 (idx_main_v8 (ix2 i j)) = ix1 j := funext fun d => by
    match d with
    | ⟨0, _⟩ => rfl
  rw [e, H.h6]

/-- adj·(hᵀ·W_gc1) + b_gc1 at (i, j). -/
theorem v9_at (i : Fin 1500) (j : Fin 128) :
    val_main_v9 (F := Ideal) x0 x1 x3 x4 x5 x6 (ix2 i j)
      = (((∑ k : Fin 1500, R.adj i k * Cert.Spec.Sr R k j) + R.bg1 j : ℝ) : EReal) := by
  rw [val_main_v9_apply, Ideal.addf_def, v6_at H, v8_at H, ← EReal.coe_add]

omit H in
/-- The ReLU's zero. -/
theorem relu_zero (j : S1500x128.Idx) : val_main_call0_v0 (F := Ideal) j = ((0 : ℝ) : EReal) := by
  rw [val_main_call0_v0_apply, val_main_call0_cst_apply, Ideal.ofBits_def, Ideal.ofBits_zero_f32]
  rfl

/-- h1 = relu(adj·(hᵀ·W_gc1) + b_gc1) at (i, j). -/
theorem v10_at (i : Fin 1500) (j : Fin 128) :
    val_main_v10 (F := Ideal) x0 x1 x3 x4 x5 x6 (ix2 i j) = ((Cert.Spec.H1r R i j : ℝ) : EReal) := by
  rw [val_main_v10_apply, Ideal.maximumf_def, v9_at H, relu_zero, Cert.Coe.coe_max]
  rfl

/-! ## The second and third graph convolutions and the last linear layer -/

/-- h1·W_gc2 at (i, b). -/
theorem v11_at (i : Fin 1500) (b : Fin 30) :
    val_main_v11 (F := Ideal) x0 x1 x3 x4 x5 x6 x7 (ix2 i b) = ((Cert.Spec.P2 R i b : ℝ) : EReal) := by
  rw [val_main_v11_apply, Cert.Spec.P2, ← Cert.Coe.coe_dot]
  refine Finset.sum_congr rfl fun k _ => ?_
  have el : lidx_main_v11 (ix2 i b) k = ix2 i k := funext fun d => by
    match d with
    | ⟨0, _⟩ => rfl
    | ⟨1, _⟩ => rfl
  have er : ridx_main_v11 (ix2 i b) k = ix2 k b := funext fun d => by
    match d with
    | ⟨0, _⟩ => rfl
    | ⟨1, _⟩ => rfl
  rw [el, er, v10_at H, H.h7]

/-- adj·(h1·W_gc2) at (i, b). -/
theorem v12_at (i : Fin 1500) (b : Fin 30) :
    val_main_v12 (F := Ideal) x0 x1 x3 x4 x5 x6 x7 (ix2 i b)
      = ((∑ k : Fin 1500, R.adj i k * Cert.Spec.P2 R k b : ℝ) : EReal) := by
  rw [val_main_v12_apply, ← Cert.Coe.coe_dot]
  refine Finset.sum_congr rfl fun k _ => ?_
  have el : lidx_main_v12 (ix2 i b) k = ix2 i k := funext fun d => by
    match d with
    | ⟨0, _⟩ => rfl
    | ⟨1, _⟩ => rfl
  have er : ridx_main_v12 (ix2 i b) k = ix2 k b := funext fun d => by
    match d with
    | ⟨0, _⟩ => rfl
    | ⟨1, _⟩ => rfl
  rw [el, er, H.h1, v11_at H]

/-- The bias b_gc2 spread over the rows, at (i, b). -/
theorem v14_at (i : Fin 1500) (b : Fin 30) :
    val_main_v14 (F := Ideal) x8 (ix2 i b) = ((R.bg2 b : ℝ) : EReal) := by
  rw [val_main_v14_apply, val_main_v13_apply]
  have e : idx_main_v13 (idx_main_v14 (ix2 i b)) = ix1 b := funext fun d => by
    match d with
    | ⟨0, _⟩ => rfl
  rw [e, H.h8]

/-- h2 = adj·(h1·W_gc2) + b_gc2 at (i, b). -/
theorem v15_at (i : Fin 1500) (b : Fin 30) :
    val_main_v15 (F := Ideal) x0 x1 x3 x4 x5 x6 x7 x8 (ix2 i b) = ((Cert.Spec.H2 R i b : ℝ) : EReal) := by
  rw [val_main_v15_apply, Ideal.addf_def, v12_at H, v14_at H, ← EReal.coe_add]
  rfl

/-- h2·W_gc3 at (i, b). -/
theorem v16_at (i : Fin 1500) (b : Fin 30) :
    val_main_v16 (F := Ideal) x0 x1 x3 x4 x5 x6 x7 x8 x9 (ix2 i b) = ((Cert.Spec.P3 R i b : ℝ) : EReal) := by
  rw [val_main_v16_apply, Cert.Spec.P3, ← Cert.Coe.coe_dot]
  refine Finset.sum_congr rfl fun k _ => ?_
  have el : lidx_main_v16 (ix2 i b) k = ix2 i k := funext fun d => by
    match d with
    | ⟨0, _⟩ => rfl
    | ⟨1, _⟩ => rfl
  have er : ridx_main_v16 (ix2 i b) k = ix2 k b := funext fun d => by
    match d with
    | ⟨0, _⟩ => rfl
    | ⟨1, _⟩ => rfl
  rw [el, er, v15_at H, H.h9]

/-- adj2·(h2·W_gc3) at (i, b). -/
theorem v17_at (i : Fin 1500) (b : Fin 30) :
    val_main_v17 (F := Ideal) x0 x1 x2 x3 x4 x5 x6 x7 x8 x9 (ix2 i b)
      = ((∑ k : Fin 1500, R.adj2 i k * Cert.Spec.P3 R k b : ℝ) : EReal) := by
  rw [val_main_v17_apply, ← Cert.Coe.coe_dot]
  refine Finset.sum_congr rfl fun k _ => ?_
  have el : lidx_main_v17 (ix2 i b) k = ix2 i k := funext fun d => by
    match d with
    | ⟨0, _⟩ => rfl
    | ⟨1, _⟩ => rfl
  have er : ridx_main_v17 (ix2 i b) k = ix2 k b := funext fun d => by
    match d with
    | ⟨0, _⟩ => rfl
    | ⟨1, _⟩ => rfl
  rw [el, er, H.h2, v16_at H]

/-- The bias b_gc3 spread over the rows, at (i, b). -/
theorem v19_at (i : Fin 1500) (b : Fin 30) :
    val_main_v19 (F := Ideal) x10 (ix2 i b) = ((R.bg3 b : ℝ) : EReal) := by
  rw [val_main_v19_apply, val_main_v18_apply]
  have e : idx_main_v18 (idx_main_v19 (ix2 i b)) = ix1 b := funext fun d => by
    match d with
    | ⟨0, _⟩ => rfl
  rw [e, H.h10]

/-- h3 = adj2·(h2·W_gc3) + b_gc3 at (i, b). -/
theorem v20_at (i : Fin 1500) (b : Fin 30) :
    val_main_v20 (F := Ideal) x0 x1 x2 x3 x4 x5 x6 x7 x8 x9 x10 (ix2 i b) = ((Cert.Spec.H3 R i b : ℝ) : EReal) := by
  rw [val_main_v20_apply, Ideal.addf_def, v17_at H, v19_at H, ← EReal.coe_add]
  rfl

/-- h3·W_l4 at (i, q). -/
theorem v21_at (i : Fin 1500) (q : Fin 2) :
    val_main_v21 (F := Ideal) x0 x1 x2 x3 x4 x5 x6 x7 x8 x9 x10 x11 (ix2 i q)
      = ((∑ k : Fin 30, Cert.Spec.H3 R i k * R.wl4 k q : ℝ) : EReal) := by
  rw [val_main_v21_apply, ← Cert.Coe.coe_dot]
  refine Finset.sum_congr rfl fun k _ => ?_
  have el : lidx_main_v21 (ix2 i q) k = ix2 i k := funext fun d => by
    match d with
    | ⟨0, _⟩ => rfl
    | ⟨1, _⟩ => rfl
  have er : ridx_main_v21 (ix2 i q) k = ix2 k q := funext fun d => by
    match d with
    | ⟨0, _⟩ => rfl
    | ⟨1, _⟩ => rfl
  rw [el, er, v20_at H, H.h11]

/-- The bias b_l4 spread over the rows, at (i, q). -/
theorem v23_at (i : Fin 1500) (q : Fin 2) :
    val_main_v23 (F := Ideal) x12 (ix2 i q) = ((R.bl4 q : ℝ) : EReal) := by
  rw [val_main_v23_apply, val_main_v22_apply]
  have e : idx_main_v22 (idx_main_v23 (ix2 i q)) = ix1 q := funext fun d => by
    match d with
    | ⟨0, _⟩ => rfl
  rw [e, H.h12]

/-- The logits z = h3·W_l4 + b_l4 at (i, q). -/
theorem v24_at (i : Fin 1500) (q : Fin 2) :
    val_main_v24 (F := Ideal) x0 x1 x2 x3 x4 x5 x6 x7 x8 x9 x10 x11 x12 (ix2 i q) = ((Cert.Spec.Z R i q : ℝ) : EReal) := by
  rw [val_main_v24_apply, Ideal.addf_def, v21_at H, v23_at H, ← EReal.coe_add]
  rfl

/-! ## The row-wise log-softmax -/

omit H in
/-- The row index i with the class k put back on the reduced axis is (i, k). -/
theorem lift_at (h : S1500x2.Reduces [1] S1500) (i : Fin 1500) (k : Fin 2) : h.lift (ix1 i) k = ix2 i k :=
  funext fun d => Fin.ext (by
    match d with
    | ⟨0, _⟩ => rfl
    | ⟨1, _⟩ => rfl)

/-- The running maximum of row i of the logits, started from −∞. -/
theorem c1v0_at (i : Fin 1500) :
    val_main_call1_v0 (F := Ideal) x0 x1 x2 x3 x4 x5 x6 x7 x8 x9 x10 x11 x12 (ix1 i)
      = ((Cert.Spec.mx (Cert.Spec.Z R) i : ℝ) : EReal) := by
  unfold val_main_call1_v0
  have hr : S1500x2.Reduces [1] S1500 := by decide
  rw [Host.reduce_eq_fold_single FloatOps.maximumf _ _ reducesTo_S1500x2_S1500_d1 hr h_S_]
  rw [val_main_call1_cst_apply, Ideal.ofBits_def, Cert.Coe.ofBits_neg_inf]
  refine (Cert.Coe.fold_max_two _).trans ?_
  show max (val_main_v24 (F := Ideal) x0 x1 x2 x3 x4 x5 x6 x7 x8 x9 x10 x11 x12 (hr.lift (ix1 i) (0 : Fin 2)))
      (val_main_v24 (F := Ideal) x0 x1 x2 x3 x4 x5 x6 x7 x8 x9 x10 x11 x12 (hr.lift (ix1 i) (1 : Fin 2))) = _
  rw [lift_at, lift_at, v24_at H, v24_at H, Cert.Coe.coe_max]
  rfl

/-- The row maximum m at i. -/
theorem c1v2_at (i : Fin 1500) :
    val_main_call1_v2 (F := Ideal) x0 x1 x2 x3 x4 x5 x6 x7 x8 x9 x10 x11 x12 (ix1 i)
      = ((Cert.Spec.mx (Cert.Spec.Z R) i : ℝ) : EReal) := by
  rw [val_main_call1_v2_apply, Ideal.maximumf_def, c1v0_at H, val_main_call1_v1_apply, val_main_call1_cst_0_apply,
    Ideal.ofBits_def, Cert.Coe.ofBits_neg_inf]
  exact max_eq_right bot_le

/-- The row maximum spread over the classes, at (i, q). -/
theorem c1v4_at (i : Fin 1500) (q : Fin 2) :
    val_main_call1_v4 (F := Ideal) x0 x1 x2 x3 x4 x5 x6 x7 x8 x9 x10 x11 x12 (ix2 i q)
      = ((Cert.Spec.mx (Cert.Spec.Z R) i : ℝ) : EReal) := by
  rw [val_main_call1_v4_apply, val_main_call1_v3_apply]
  have e : idx_main_call1_v3 (idx_main_call1_v4 (ix2 i q)) = ix1 i := funext fun d => by
    match d with
    | ⟨0, _⟩ => rfl
  rw [e, c1v2_at H]

/-- z − m at (i, q). -/
theorem c1v5_at (i : Fin 1500) (q : Fin 2) :
    val_main_call1_v5 (F := Ideal) x0 x1 x2 x3 x4 x5 x6 x7 x8 x9 x10 x11 x12 (ix2 i q)
      = ((Cert.Spec.Z R i q - Cert.Spec.mx (Cert.Spec.Z R) i : ℝ) : EReal) := by
  rw [val_main_call1_v5_apply, Ideal.subf_def, v24_at H, c1v4_at H, ← EReal.coe_sub]

/-- e^{z − m} at (i, q). -/
theorem c1v6_at (i : Fin 1500) (q : Fin 2) :
    val_main_call1_v6 (F := Ideal) x0 x1 x2 x3 x4 x5 x6 x7 x8 x9 x10 x11 x12 (ix2 i q)
      = ((Real.exp (Cert.Spec.Z R i q - Cert.Spec.mx (Cert.Spec.Z R) i) : ℝ) : EReal) := by
  rw [val_main_call1_v6_apply, Ideal.hostUnary_exp_def, c1v5_at H, Cert.Coe.exp_coe]

/-- Σ_q e^{z − m} at i. -/
theorem c1v7_at (i : Fin 1500) :
    val_main_call1_v7 (F := Ideal) x0 x1 x2 x3 x4 x5 x6 x7 x8 x9 x10 x11 x12 (ix1 i)
      = ((Cert.Spec.se (Cert.Spec.Z R) i : ℝ) : EReal) := by
  rw [val_main_call1_v7_apply, val_main_call1_cst_1_apply, Ideal.ofBits_def, Ideal.ofBits_zero_f32, zero_add,
    Fin.sum_univ_two]
  have e0 : idx_main_call1_v7 (ix1 i) 0 = ix2 i 0 := funext fun d => by
    match d with
    | ⟨0, _⟩ => rfl
    | ⟨1, _⟩ => rfl
  have e1 : idx_main_call1_v7 (ix1 i) 1 = ix2 i 1 := funext fun d => by
    match d with
    | ⟨0, _⟩ => rfl
    | ⟨1, _⟩ => rfl
  rw [e0, e1, c1v6_at H, c1v6_at H, ← EReal.coe_add]
  rfl

/-- Σ_q e^{z − m} as a column, at (i, 0). -/
theorem c1v8_at (i : Fin 1500) :
    val_main_call1_v8 (F := Ideal) x0 x1 x2 x3 x4 x5 x6 x7 x8 x9 x10 x11 x12 (ix2 i (0 : Fin 1))
      = ((Cert.Spec.se (Cert.Spec.Z R) i : ℝ) : EReal) := by
  rw [val_main_call1_v8_apply]
  have e : idx_main_call1_v8 (ix2 i (0 : Fin 1)) = ix1 i := funext fun d => by
    match d with
    | ⟨0, _⟩ => rfl
  rw [e, c1v7_at H]

/-- log Σ_q e^{z − m} as a column, at (i, 0). -/
theorem c1v9_at (i : Fin 1500) :
    val_main_call1_v9 (F := Ideal) x0 x1 x2 x3 x4 x5 x6 x7 x8 x9 x10 x11 x12 (ix2 i (0 : Fin 1))
      = ((Real.log (Cert.Spec.se (Cert.Spec.Z R) i) : ℝ) : EReal) := by
  rw [val_main_call1_v9_apply, Ideal.hostUnary_log_def, c1v8_at H, Cert.Coe.log_coe (Cert.Spec.se_pos _ _)]

/-- log Σ_q e^{z − m} spread over the classes, at (i, q). -/
theorem c1v10_at (i : Fin 1500) (q : Fin 2) :
    val_main_call1_v10 (F := Ideal) x0 x1 x2 x3 x4 x5 x6 x7 x8 x9 x10 x11 x12 (ix2 i q)
      = ((Real.log (Cert.Spec.se (Cert.Spec.Z R) i) : ℝ) : EReal) := by
  rw [val_main_call1_v10_apply]
  have e : idx_main_call1_v10 (ix2 i q) = ix2 i (0 : Fin 1) := funext fun d => by
    match d with
    | ⟨0, _⟩ => rfl
    | ⟨1, _⟩ => rfl
  rw [e, c1v9_at H]

/-- The result (z − m) − log Σ_q e^{z − m} at (p, q). -/
theorem v25_at (p : Fin 1500) (q : Fin 2) :
    val_main_v25 (F := Ideal) x0 x1 x2 x3 x4 x5 x6 x7 x8 x9 x10 x11 x12 (ix2 p q)
      = ((Cert.Spec.OutR R p q : ℝ) : EReal) := by
  rw [val_main_v25_apply, Ideal.subf_def, c1v5_at H, c1v10_at H, ← EReal.coe_sub]
  rfl

end Stages

/-- The reference's result at (p, q), when every input holds the real numbers of `R`. -/
theorem ref_apply (R : Cert.Spec.RIn)
    (x0 : (⟨S10000x300, .f32⟩ : BufTy).Contents (Elt Ideal)) (x1 x2 : (⟨S1500x1500, .f32⟩ : BufTy).Contents (Elt Ideal)) (x3 : (⟨S300x1500, .f32⟩ : BufTy).Contents (Elt Ideal))
    (x4 : (⟨S1500, .f32⟩ : BufTy).Contents (Elt Ideal)) (x5 : (⟨S10000x128, .f32⟩ : BufTy).Contents (Elt Ideal)) (x6 : (⟨S128, .f32⟩ : BufTy).Contents (Elt Ideal))
    (x7 : (⟨S128x30, .f32⟩ : BufTy).Contents (Elt Ideal)) (x8 : (⟨S30, .f32⟩ : BufTy).Contents (Elt Ideal)) (x9 : (⟨S30x30, .f32⟩ : BufTy).Contents (Elt Ideal))
    (x10 : (⟨S30, .f32⟩ : BufTy).Contents (Elt Ideal)) (x11 : (⟨S30x2, .f32⟩ : BufTy).Contents (Elt Ideal)) (x12 : (⟨S2, .f32⟩ : BufTy).Contents (Elt Ideal))
    (h0 : ∀ (k : Fin 10000) (a : Fin 300), x0 (ix2 k a) = ((R.x k a : ℝ) : EReal))
    (h1 : ∀ i k : Fin 1500, x1 (ix2 i k) = ((R.adj i k : ℝ) : EReal))
    (h2 : ∀ i k : Fin 1500, x2 (ix2 i k) = ((R.adj2 i k : ℝ) : EReal))
    (h3 : ∀ (a : Fin 300) (i : Fin 1500), x3 (ix2 a i) = ((R.wl1 a i : ℝ) : EReal))
    (h4 : ∀ i : Fin 1500, x4 (ix1 i) = ((R.bl1 i : ℝ) : EReal))
    (h5 : ∀ (k : Fin 10000) (j : Fin 128), x5 (ix2 k j) = ((R.wg1 k j : ℝ) : EReal))
    (h6 : ∀ j : Fin 128, x6 (ix1 j) = ((R.bg1 j : ℝ) : EReal))
    (h7 : ∀ (a : Fin 128) (b : Fin 30), x7 (ix2 a b) = ((R.wg2 a b : ℝ) : EReal))
    (h8 : ∀ b : Fin 30, x8 (ix1 b) = ((R.bg2 b : ℝ) : EReal))
    (h9 : ∀ a b : Fin 30, x9 (ix2 a b) = ((R.wg3 a b : ℝ) : EReal))
    (h10 : ∀ b : Fin 30, x10 (ix1 b) = ((R.bg3 b : ℝ) : EReal))
    (h11 : ∀ (a : Fin 30) (q : Fin 2), x11 (ix2 a q) = ((R.wl4 a q : ℝ) : EReal))
    (h12 : ∀ q : Fin 2, x12 (ix1 q) = ((R.bl4 q : ℝ) : EReal))
    (p : Fin 1500) (q : Fin 2) :
    val_main_v25 (F := Ideal) x0 x1 x2 x3 x4 x5 x6 x7 x8 x9 x10 x11 x12 (ix2 p q)
      = ((Cert.Spec.OutR R p q : ℝ) : EReal) := by
  exact v25_at ⟨h0, h1, h2, h3, h4, h5, h6, h7, h8, h9, h10, h11, h12⟩ p q

end Cert.ReferenceIdeal.RefVal

end
-- ==== Proof.KTop.lean ====
/-
  The second kernel's result buffer, from the launch memory.

  The second kernel has no grid: each of its fourteen windows is a whole array, fetched once, and its one store writes
  the whole result block, which is written back once. So the result buffer after the run is the body's stored value
  (`kout`) of the thirteen operand arrays as the kernel finds them. Of those, six are arguments of the program,
  untouched since the launch; five are the bias vectors reshaped by the host between the two kernels (b_l1 to a
  column, the others to rows); two are the first kernel's result arrays, which the reshapes do not touch.
-/
import proofs.«146911_g64390149702081_cont_9to1_m_674_1_alg».proof.Proof.Gen.KernelIdeal.Frame
import Idealize.ShloMosaic.Lib.Pipeline.Value
import Idealize.ShloMosaic.Lib.StableHlo.Run
import Idealize.ShloMosaic.Lib.Tactic

noncomputable section

namespace Cert.KernelIdeal.KTop

open Cert.KernelIdeal Cert.KernelIdeal.Gen Idealize.ShloMosaic Idealize.ShloMosaic.TcCoe Idealize.SL.Sem
open Idealize.ShloMosaic.Pipeline (Dat)

variable {F : FTy → Type} [FloatOps F]

section Region1
variable (V : (c : Dev nD) → (b : Ref sig .tc) → Buf (Elt F) ((c : Thread nD τ).loc b))

theorem hz : (![0, 0] : Fin 2 → Nat) = fun _ => 0 := funext fun a => by fin_cases a <;> rfl

/-- The second kernel's stored value as one function of its thirteen whole operand arrays, in window order:
    t, the column sums, W_l1, b_l1 as a column, adj, adj2, b_gc1 as a row, W_gc2, b_gc2 as a row, W_gc3, b_gc3 as a row,
    W_l4, b_l4 as a row. -/
def kout (x0 : Vec F S300x128 .f32) (x1 : Vec F S1x128 .f32) (x2 : Vec F S300x1500 .f32) (x3 : Vec F S1500x1 .f32)
    (x4 : Vec F S1500x1500 .f32) (x5 : Vec F S1500x1500 .f32) (x6 : Vec F S1x128 .f32) (x7 : Vec F S128x30 .f32)
    (x8 : Vec F S1x30 .f32) (x9 : Vec F S30x30 .f32) (x10 : Vec F S1x30 .f32) (x11 : Vec F S30x2 .f32)
    (x12 : Vec F S1x2 .f32) : Vec F S1500x2 .f32 :=
  k1_pay1 (k1_pay2 x9 x11) (k1_pay3 x2 x0 x3 x1 x4 x6 x9 x11 x7 x4) (k1_pay4 x8) (constant S1x2 .f32 0x00000000#32)
    x5 x10 x11 x12

/-- The body's one store covers the result block, and each of its loads reads a whole staging buffer: what it leaves
    is `kout` of the buffers' contents. -/
theorem out1_13_eq (x0 : Vec F S300x128 .f32) (x1 : Vec F S1x128 .f32) (x2 : Vec F S300x1500 .f32) (x3 : Vec F S1500x1 .f32)
    (x4 : Vec F S1500x1500 .f32) (x5 : Vec F S1500x1500 .f32) (x6 : Vec F S1x128 .f32) (x7 : Vec F S128x30 .f32)
    (x8 : Vec F S1x30 .f32) (x9 : Vec F S30x30 .f32) (x10 : Vec F S1x30 .f32) (x11 : Vec F S30x2 .f32)
    (x12 : Vec F S1x2 .f32) :
    out1_13 x0 x1 x2 x3 x4 x5 x6 x7 x8 x9 x10 x11 x12 = kout x0 x1 x2 x3 x4 x5 x6 x7 x8 x9 x10 x11 x12 := by
  unfold out1_13 kout
  rw [View.canon_unit_zero hz]
  simp only [View.ld_unit_zero (S := S300x1500) hz, View.ld_unit_zero (S := S300x128) hz, View.ld_unit_zero (S := S1500x1) hz,
    View.ld_unit_zero (S := S1x128) hz, View.ld_unit_zero (S := S1500x1500) hz, View.ld_unit_zero (S := S30x30) hz,
    View.ld_unit_zero (S := S30x2) hz, View.ld_unit_zero (S := S128x30) hz, View.ld_unit_zero (S := S1x30) hz,
    View.ld_unit_zero (S := S1x2) hz]

/-- A window over a whole array has one block, at offset zero: read through the window it is the array. -/
local macro "whole_window " b:term ", " f:term : tactic =>
  `(tactic| (unfold iblk1
             exact Memref.read_access_unit_zero _ $b (off := fun a => 0 * ($b).ty.shape.size a)
               (funext fun a => Nat.zero_mul _) (fun a => by simp) $f))

theorem iblk1_0 (c : Dev nD) (t : Fin cfg1.N) : (iblk1 V c 0 t : Vec F S300x128 .f32) = V c main_v0_0 := by
  whole_window main_v0_0, V c main_v0_0
theorem iblk1_1 (c : Dev nD) (t : Fin cfg1.N) : (iblk1 V c 1 t : Vec F S1x128 .f32) = V c main_v0_1 := by
  whole_window main_v0_1, V c main_v0_1
theorem iblk1_2 (c : Dev nD) (t : Fin cfg1.N) : (iblk1 V c 2 t : Vec F S300x1500 .f32) = V c main_arg3 := by
  whole_window main_arg3, V c main_arg3
theorem iblk1_3 (c : Dev nD) (t : Fin cfg1.N) : (iblk1 V c 3 t : Vec F S1500x1 .f32) = V c main_v1 := by
  whole_window main_v1, V c main_v1
theorem iblk1_4 (c : Dev nD) (t : Fin cfg1.N) : (iblk1 V c 4 t : Vec F S1500x1500 .f32) = V c main_arg1 := by
  whole_window main_arg1, V c main_arg1
theorem iblk1_5 (c : Dev nD) (t : Fin cfg1.N) : (iblk1 V c 5 t : Vec F S1500x1500 .f32) = V c main_arg2 := by
  whole_window main_arg2, V c main_arg2
theorem iblk1_6 (c : Dev nD) (t : Fin cfg1.N) : (iblk1 V c 6 t : Vec F S1x128 .f32) = V c main_v2 := by
  whole_window main_v2, V c main_v2
theorem iblk1_7 (c : Dev nD) (t : Fin cfg1.N) : (iblk1 V c 7 t : Vec F S128x30 .f32) = V c main_arg7 := by
  whole_window main_arg7, V c main_arg7
theorem iblk1_8 (c : Dev nD) (t : Fin cfg1.N) : (iblk1 V c 8 t : Vec F S1x30 .f32) = V c main_v3 := by
  whole_window main_v3, V c main_v3
theorem iblk1_9 (c : Dev nD) (t : Fin cfg1.N) : (iblk1 V c 9 t : Vec F S30x30 .f32) = V c main_arg9 := by
  whole_window main_arg9, V c main_arg9
theorem iblk1_10 (c : Dev nD) (t : Fin cfg1.N) : (iblk1 V c 10 t : Vec F S1x30 .f32) = V c main_v4 := by
  whole_window main_v4, V c main_v4
theorem iblk1_11 (c : Dev nD) (t : Fin cfg1.N) : (iblk1 V c 11 t : Vec F S30x2 .f32) = V c main_arg11 := by
  whole_window main_arg11, V c main_arg11
theorem iblk1_12 (c : Dev nD) (t : Fin cfg1.N) : (iblk1 V c 12 t : Vec F S1x2 .f32) = V c main_v5 := by
  whole_window main_v5, V c main_v5

/-- What the second kernel leaves in its result array, as the region finds its operands. -/
abbrev G13 (c : Dev nD) : Buf (Elt F) ((c : Thread nD τ).loc main_v6) :=
  kout (V c main_v0_0) (V c main_v0_1) (V c main_arg3) (V c main_v1) (V c main_arg1) (V c main_arg2) (V c main_v2)
    (V c main_arg7) (V c main_v3) (V c main_arg9) (V c main_v4) (V c main_arg11) (V c main_v5)

/-- The one write-back writes it: the result window's block is the whole array. -/
theorem flushed13_eq (c : Dev nD) (t : Fin cfg1.N) :
    (dat1 V c).flushed 13 t = ((cfg1.win 13).blk t).view.read (Elt F) (G13 V c) := by
  show (cfg1.win 13).cut (grid1.coords t) ((dat1 V c).after 13 t) = _
  rw [after1_13, out1_13_eq, iblk1_0, iblk1_1, iblk1_2, iblk1_3, iblk1_4, iblk1_5, iblk1_6, iblk1_7, iblk1_8, iblk1_9,
    iblk1_10, iblk1_11, iblk1_12]
  exact (Memref.read_access_unit_zero (Elt F) main_v6 (off := fun a => 0 * main_v6.ty.shape.size a)
    (funext fun a => Nat.zero_mul _) (fun a => by simp) (G13 V c)).symm

/-- So the result array ends holding it: the one block covers the array. -/
theorem final13 (c : Dev nD) : (dat1 V c).arrAt 13 cfg1.N = G13 V c :=
  (dat1 V c).arrAt_eq_of_cover 13 (G13 V c) (fun t _ => flushed13_eq V c t) fun i =>
    ⟨t1_0, flush1_13 t1_0, by
      show i ∈ ((View.whole main_v6).slice (win1_13.rect t1_0)).set
      rw [View.set_slice_whole, Rect.mem_set_unit]
      intro a
      have h0 : (i 0 : Nat) < 1500 := (i 0).isLt
      have h1 : (i 1 : Nat) < 2 := (i 1).isLt
      match a with
      | ⟨0, _⟩ => show 0 * 1500 ≤ (i 0 : Nat) ∧ (i 0 : Nat) < 0 * 1500 + 1500; omega
      | ⟨1, _⟩ => show 0 * 2 ≤ (i 1 : Nat) ∧ (i 1 : Nat) < 0 * 2 + 2; omega⟩

end Region1

/-! ## The run: the result buffer after the second kernel, from the launch memory -/

variable (m : (ℓ : Loc nD τ sig) → Buf (Elt F) ℓ) (ρ : Dev nD → PrngReg)

/-- The result buffer at the last boundary is the second kernel's value of its operands at its entry. -/
theorem W3_out (c : Dev nD) : W3 m ρ c (Proc.devRef .tc main_v6) = G13 (V2 m ρ) c :=
  (W3_arr m ρ c 13).trans (final13 (V2 m ρ) c)

/-- An argument the second kernel reads is, at its entry, as launched: the kernel's input window leaves it as it
    finds it, and the launch contents reach the last boundary unchanged. -/
theorem V2_arg3 (c : Dev nD) : V2 m ρ c main_arg3 = m ((c : Thread nD τ).loc main_arg3) :=
  ((W3_arr m ρ c 2).trans (((dat1 (V2 m ρ) c).arrAt_in 2 rfl _).trans (A_eq1 (V2 m ρ) c 2))).symm.trans (W3_main_arg3 m ρ c)
theorem V2_arg1 (c : Dev nD) : V2 m ρ c main_arg1 = m ((c : Thread nD τ).loc main_arg1) :=
  ((W3_arr m ρ c 4).trans (((dat1 (V2 m ρ) c).arrAt_in 4 rfl _).trans (A_eq1 (V2 m ρ) c 4))).symm.trans (W3_main_arg1 m ρ c)
theorem V2_arg2 (c : Dev nD) : V2 m ρ c main_arg2 = m ((c : Thread nD τ).loc main_arg2) :=
  ((W3_arr m ρ c 5).trans (((dat1 (V2 m ρ) c).arrAt_in 5 rfl _).trans (A_eq1 (V2 m ρ) c 5))).symm.trans (W3_main_arg2 m ρ c)
theorem V2_arg7 (c : Dev nD) : V2 m ρ c main_arg7 = m ((c : Thread nD τ).loc main_arg7) :=
  ((W3_arr m ρ c 7).trans (((dat1 (V2 m ρ) c).arrAt_in 7 rfl _).trans (A_eq1 (V2 m ρ) c 7))).symm.trans (W3_main_arg7 m ρ c)
theorem V2_arg9 (c : Dev nD) : V2 m ρ c main_arg9 = m ((c : Thread nD τ).loc main_arg9) :=
  ((W3_arr m ρ c 9).trans (((dat1 (V2 m ρ) c).arrAt_in 9 rfl _).trans (A_eq1 (V2 m ρ) c 9))).symm.trans (W3_main_arg9 m ρ c)
theorem V2_arg11 (c : Dev nD) : V2 m ρ c main_arg11 = m ((c : Thread nD τ).loc main_arg11) :=
  ((W3_arr m ρ c 11).trans (((dat1 (V2 m ρ) c).arrAt_in 11 rfl _).trans (A_eq1 (V2 m ρ) c 11))).symm.trans (W3_main_arg11 m ρ c)

/-- None of the five reshapes between the kernels writes the buffer `b`. -/
theorem reshapes_keep (c : Dev nD) (b : Ref sig .tc)
    (h1 : b ≠ main_v1) (h2 : b ≠ main_v2) (h3 : b ≠ main_v3) (h4 : b ≠ main_v4) (h5 : b ≠ main_v5) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact ⟨StableHlo.devRef_ne_of_ne h1, StableHlo.devRef_ne_of_ne h2, StableHlo.devRef_ne_of_ne h3,
      StableHlo.devRef_ne_of_ne h4, StableHlo.devRef_ne_of_ne h5⟩))

/-- The first kernel's two result arrays reach the second kernel untouched by the reshapes between. -/
theorem V2_v0_0 (c : Dev nD) : V2 m ρ c main_v0_0 = (dat0 (V0 m ρ) c).arrAt 2 cfg0.N :=
  (reshapes_keep m ρ c main_v0_0 (by decide) (by decide) (by decide) (by decide) (by decide)).trans (W1_arr m ρ c 2)
theorem V2_v0_1 (c : Dev nD) : V2 m ρ c main_v0_1 = (dat0 (V0 m ρ) c).arrAt 3 cfg0.N :=
  (reshapes_keep m ρ c main_v0_1 (by decide) (by decide) (by decide) (by decide) (by decide)).trans (W1_arr m ρ c 3)

/-- The arguments the first kernel reads are, at its entry, the launch memory. -/
theorem V0_arg (c : Dev nD) (b : Ref sig .tc) : V0 m ρ c b = m ((c : Thread nD τ).loc b) := rfl

/-- The bias vectors reach the second kernel reshaped: b_l1 to a column, the others to rows. -/
theorem V2_v1 (c : Dev nD) : (V2 m ρ c main_v1 : Vec F S1500x1 .f32)
    = shapeCast S1500x1 (m ((c : Thread nD τ).loc main_arg4)) shapeCasts_S1500_S1500x1 := by
  show StableHlo.after hostOps1 (W1 m ρ c) (Proc.devRef .tc main_v1) = _
  after_results
  rw [W1_of_ne m ρ c main_arg4 (by decide)]
  rfl
theorem V2_v2 (c : Dev nD) : (V2 m ρ c main_v2 : Vec F S1x128 .f32)
    = shapeCast S1x128 (m ((c : Thread nD τ).loc main_arg6)) shapeCasts_S128_S1x128 := by
  show StableHlo.after hostOps1 (W1 m ρ c) (Proc.devRef .tc main_v2) = _
  after_results
  rw [W1_of_ne m ρ c main_arg6 (by decide)]
  rfl
theorem V2_v3 (c : Dev nD) : (V2 m ρ c main_v3 : Vec F S1x30 .f32)
    = shapeCast S1x30 (m ((c : Thread nD τ).loc main_arg8)) shapeCasts_S30_S1x30 := by
  show StableHlo.after hostOps1 (W1 m ρ c) (Proc.devRef .tc main_v3) = _
  after_results
  rw [W1_of_ne m ρ c main_arg8 (by decide)]
  rfl
theorem V2_v4 (c : Dev nD) : (V2 m ρ c main_v4 : Vec F S1x30 .f32)
    = shapeCast S1x30 (m ((c : Thread nD τ).loc main_arg10)) shapeCasts_S30_S1x30 := by
  show StableHlo.after hostOps1 (W1 m ρ c) (Proc.devRef .tc main_v4) = _
  after_results
  rw [W1_of_ne m ρ c main_arg10 (by decide)]
  rfl
theorem V2_v5 (c : Dev nD) : (V2 m ρ c main_v5 : Vec F S1x2 .f32)
    = shapeCast S1x2 (m ((c : Thread nD τ).loc main_arg12)) shapeCasts_S2_S1x2 := by
  show StableHlo.after hostOps1 (W1 m ρ c) (Proc.devRef .tc main_v5) = _
  after_results
  rw [W1_of_ne m ρ c main_arg12 (by decide)]
  rfl

end Cert.KernelIdeal.KTop

end
-- ==== Proof.KPay.lean ====
/-
  The second kernel's body at an index, over the reals.

  The body computes s1 = W_l1ᵀ·t + b_l1 ⊗ colsum, h1 = relu(adj·s1 + b_gc1), the folded matrices W34 = W_gc3·W_l4 and
  W234 = W_gc2·W34, u = h1·W234, v = adj·u + b_gc2·W34, w = adj2·v + b_gc3·W_l4 + b_l4 and the row-wise
  log-softmax w − (m + log Σ e^{w−m}). When every operand holds real numbers, every stage does, and the stored value
  at (p, q) is the real number `Spec.OutK R p q`.
-/
import proofs.«146911_g64390149702081_cont_9to1_m_674_1_alg».proof.Proof.Gen.KernelIdeal.Skeleton
import proofs.«146911_g64390149702081_cont_9to1_m_674_1_alg».proof.Proof.Spec
import proofs.«146911_g64390149702081_cont_9to1_m_674_1_alg».proof.Proof.Coe
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KPay

open Cert.KernelIdeal Cert.KernelIdeal.Gen Idealize.ShloMosaic Idealize.ShloMosaic.TcCoe Idealize.ShloMosaic.ValueIdx

/-! ## Sums, layout operations and the two row reductions read at an index -/

variable {α : Type}

/-- A contraction whose factors are coerced reals is the coerced real contraction. -/
theorem sum_coe {n : Nat} (L R : Fin n → EReal) (f g : Fin n → ℝ) (hl : ∀ k, L k = ((f k : ℝ) : EReal))
    (hr : ∀ k, R k = ((g k : ℝ) : EReal)) :
    ∑ k : Fin n, L k * R k = ((∑ k : Fin n, f k * g k : ℝ) : EReal) := by
  rw [← Cert.Coe.coe_dot]
  exact Finset.sum_congr rfl fun k _ => by rw [hl k, hr k]

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the two columns of a row. -/
theorem rowsum_apply (src : FVec Ideal S1500x2 .f32) (i : Fin 1500) :
    multiReduction .add [1] S1500 src 0x00000000#32 reduces_S1500x2_S1500 (.inl rfl) rfl (ix1 i)
      = src (ix2 i 0) + src (ix2 i 1) := by
  refine (Ideal.multiReduction_add_single src 0x00000000#32 reduces_S1500x2_S1500 (.inl rfl) rfl (ix1 i)).trans ?_
  show ∑ k : Fin 2, src (reduces_S1500x2_S1500.lift (ix1 i) k) = _
  rw [Fin.sum_univ_two]
  have e : ∀ k : Fin 2, reduces_S1500x2_S1500.lift (ix1 i) k = ix2 i k := fun k =>
    funext fun a => Fin.ext (by match a with | ⟨0, _⟩ => rfl | ⟨1, _⟩ => rfl)
  rw [e 0, e 1]

/-- The maximum over the two columns of a row. -/
theorem rowmax_apply (src : FVec Ideal S1500x2 .f32) (i : Fin 1500) :
    multiReduction .maximumf [1] S1500 src 0xFF800000#32 reduces_S1500x2_S1500 (.inl rfl) rfl (ix1 i)
      = max (src (ix2 i 0)) (src (ix2 i 1)) := by
  refine (Ideal.multiReduction_maximumf_single src 0xFF800000#32 reduces_S1500x2_S1500 (.inl rfl) rfl (ix1 i)).trans ?_
  show (Finset.univ : Finset (Fin 2)).fold max (Ideal.ofBits .f32 0xFF800000#32) (src ∘ reduces_S1500x2_S1500.lift (ix1 i)) = _
  rw [Cert.Coe.ofBits_neg_inf]
  refine (Cert.Coe.fold_max_two (fun k : Fin 2 => src (reduces_S1500x2_S1500.lift (ix1 i) k))).trans ?_
  have e : ∀ k : Fin 2, reduces_S1500x2_S1500.lift (ix1 i) k = ix2 i k := fun k =>
    funext fun a => Fin.ext (by match a with | ⟨0, _⟩ => rfl | ⟨1, _⟩ => rfl)
  exact congrArg₂ max (congrArg src (e 0)) (congrArg src (e 1))

/-! ## The matrix products -/

theorem mmW34_lhs_0 (i : S30x2.Idx) (q : dot_S30x30_S30x2_S30x2_1_0_0_1_n_n.contr.Idx) :
    (dot_S30x30_S30x2_S30x2_1_0_0_1_n_n.lhsIdx i q 0).val = (i 0).val := by
  unfold DotDims.lhsIdx
  rw [dif_neg (show ¬(0 : Fin S30x30.rank) ∈ dot_S30x30_S30x2_S30x2_1_0_0_1_n_n.lhsBatch by decide), dif_pos (show (0 : Fin S30x30.rank) ∈ dot_S30x30_S30x2_S30x2_1_0_0_1_n_n.lhsNonContracting by decide)]
  rfl
theorem mmW34_lhs_1 (i : S30x2.Idx) (q : dot_S30x30_S30x2_S30x2_1_0_0_1_n_n.contr.Idx) :
    (dot_S30x30_S30x2_S30x2_1_0_0_1_n_n.lhsIdx i q 1).val = (q ⟨0, by decide⟩).val :=
  dot_S30x30_S30x2_S30x2_1_0_0_1_n_n.lhsIdx_val_of_single rfl i q
theorem mmW34_rhs_0 (i : S30x2.Idx) (q : dot_S30x30_S30x2_S30x2_1_0_0_1_n_n.contr.Idx) :
    (dot_S30x30_S30x2_S30x2_1_0_0_1_n_n.rhsIdx i q 0).val = (q ⟨0, by decide⟩).val :=
  dot_S30x30_S30x2_S30x2_1_0_0_1_n_n.rhsIdx_val_of_single rfl i q
theorem mmW34_rhs_1 (i : S30x2.Idx) (q : dot_S30x30_S30x2_S30x2_1_0_0_1_n_n.contr.Idx) :
    (dot_S30x30_S30x2_S30x2_1_0_0_1_n_n.rhsIdx i q 1).val = (i 1).val := by
  unfold DotDims.rhsIdx
  rw [dif_neg (show ¬(1 : Fin S30x2.rank) ∈ dot_S30x30_S30x2_S30x2_1_0_0_1_n_n.rhsBatch by decide), dif_pos (show (1 : Fin S30x2.rank) ∈ dot_S30x30_S30x2_S30x2_1_0_0_1_n_n.rhsNonContracting by decide)]
  rfl
/-- The product read at (i, j): the sum over the contracted axis of the operands' products. -/
theorem mmW34_apply (l : FVec Ideal S30x30 .f32) (r : FVec Ideal S30x2 .f32) (i : Fin 30) (j : Fin 2) :
    matmul dot_S30x30_S30x2_S30x2_1_0_0_1_n_n none l r (constant S30x2 .f32 0x00000000#32) (ix2 i j)
      = ∑ k : Fin 30, l (ix2 i k) * r (ix2 k j) := by
  show FloatOps.matmul dot_S30x30_S30x2_S30x2_1_0_0_1_n_n none l r (constant S30x2 .f32 0x00000000#32) (ix2 i j) = _
  rw [Ideal.matmul_constant_zero_apply, ← Equiv.sum_comp (ValueIdx.contrEquiv1 dot_S30x30_S30x2_S30x2_1_0_0_1_n_n 30 rfl rfl).symm]
  refine Finset.sum_congr rfl fun k _ => ?_
  have hk := ValueIdx.contrEquiv1_symm_val dot_S30x30_S30x2_S30x2_1_0_0_1_n_n 30 rfl rfl k
  have el : dot_S30x30_S30x2_S30x2_1_0_0_1_n_n.lhsIdx (ix2 i j) ((ValueIdx.contrEquiv1 dot_S30x30_S30x2_S30x2_1_0_0_1_n_n 30 rfl rfl).symm k) = ix2 i k := funext fun a => Fin.ext (by
    match a with
    | ⟨0, _⟩ => exact mmW34_lhs_0 _ _
    | ⟨1, _⟩ => exact (mmW34_lhs_1 _ _).trans hk)
  have er : dot_S30x30_S30x2_S30x2_1_0_0_1_n_n.rhsIdx (ix2 i j) ((ValueIdx.contrEquiv1 dot_S30x30_S30x2_S30x2_1_0_0_1_n_n 30 rfl rfl).symm k) = ix2 k j := funext fun a => Fin.ext (by
    match a with
    | ⟨0, _⟩ => exact (mmW34_rhs_0 _ _).trans hk
    | ⟨1, _⟩ => exact mmW34_rhs_1 _ _)
  rw [el, er]

/-- With operands that hold real numbers the product holds the real contraction. -/
theorem mmW34_coe (l : FVec Ideal S30x30 .f32) (r : FVec Ideal S30x2 .f32) (f : Fin 30 → Fin 30 → ℝ) (g : Fin 30 → Fin 2 → ℝ)
    (hl : ∀ (i : Fin 30) (k : Fin 30), l (ix2 i k) = ((f i k : ℝ) : EReal))
    (hr : ∀ (k : Fin 30) (j : Fin 2), r (ix2 k j) = ((g k j : ℝ) : EReal)) (i : Fin 30) (j : Fin 2) :
    matmul dot_S30x30_S30x2_S30x2_1_0_0_1_n_n none l r (constant S30x2 .f32 0x00000000#32) (ix2 i j)
      = ((∑ k : Fin 30, f i k * g k j : ℝ) : EReal) := by
  rw [mmW34_apply]
  exact sum_coe _ _ _ _ (fun k => hl i k) (fun k => hr k j)

theorem mmTN_lhs_1 (i : S1500x128.Idx) (q : dot_S300x1500_S300x128_S1500x128_0_0_1_1_n_n.contr.Idx) :
    (dot_S300x1500_S300x128_S1500x128_0_0_1_1_n_n.lhsIdx i q 1).val = (i 0).val := by
  unfold DotDims.lhsIdx
  rw [dif_neg (show ¬(1 : Fin S300x1500.rank) ∈ dot_S300x1500_S300x128_S1500x128_0_0_1_1_n_n.lhsBatch by decide), dif_pos (show (1 : Fin S300x1500.rank) ∈ dot_S300x1500_S300x128_S1500x128_0_0_1_1_n_n.lhsNonContracting by decide)]
  rfl
theorem mmTN_lhs_0 (i : S1500x128.Idx) (q : dot_S300x1500_S300x128_S1500x128_0_0_1_1_n_n.contr.Idx) :
    (dot_S300x1500_S300x128_S1500x128_0_0_1_1_n_n.lhsIdx i q 0).val = (q ⟨0, by decide⟩).val :=
  dot_S300x1500_S300x128_S1500x128_0_0_1_1_n_n.lhsIdx_val_of_single rfl i q
theorem mmTN_rhs_0 (i : S1500x128.Idx) (q : dot_S300x1500_S300x128_S1500x128_0_0_1_1_n_n.contr.Idx) :
    (dot_S300x1500_S300x128_S1500x128_0_0_1_1_n_n.rhsIdx i q 0).val = (q ⟨0, by decide⟩).val :=
  dot_S300x1500_S300x128_S1500x128_0_0_1_1_n_n.rhsIdx_val_of_single rfl i q
theorem mmTN_rhs_1 (i : S1500x128.Idx) (q : dot_S300x1500_S300x128_S1500x128_0_0_1_1_n_n.contr.Idx) :
    (dot_S300x1500_S300x128_S1500x128_0_0_1_1_n_n.rhsIdx i q 1).val = (i 1).val := by
  unfold DotDims.rhsIdx
  rw [dif_neg (show ¬(1 : Fin S300x128.rank) ∈ dot_S300x1500_S300x128_S1500x128_0_0_1_1_n_n.rhsBatch by decide), dif_pos (show (1 : Fin S300x128.rank) ∈ dot_S300x1500_S300x128_S1500x128_0_0_1_1_n_n.rhsNonContracting by decide)]
  rfl
/-- The product read at (i, j): the sum over the contracted axis of the operands' products. -/
theorem mmTN_apply (l : FVec Ideal S300x1500 .f32) (r : FVec Ideal S300x128 .f32) (i : Fin 1500) (j : Fin 128) :
    matmul dot_S300x1500_S300x128_S1500x128_0_0_1_1_n_n none l r (constant S1500x128 .f32 0x00000000#32) (ix2 i j)
      = ∑ k : Fin 300, l (ix2 k i) * r (ix2 k j) := by
  show FloatOps.matmul dot_S300x1500_S300x128_S1500x128_0_0_1_1_n_n none l r (constant S1500x128 .f32 0x00000000#32) (ix2 i j) = _
  rw [Ideal.matmul_constant_zero_apply, ← Equiv.sum_comp (ValueIdx.contrEquiv1 dot_S300x1500_S300x128_S1500x128_0_0_1_1_n_n 300 rfl rfl).symm]
  refine Finset.sum_congr rfl fun k _ => ?_
  have hk := ValueIdx.contrEquiv1_symm_val dot_S300x1500_S300x128_S1500x128_0_0_1_1_n_n 300 rfl rfl k
  have el : dot_S300x1500_S300x128_S1500x128_0_0_1_1_n_n.lhsIdx (ix2 i j) ((ValueIdx.contrEquiv1 dot_S300x1500_S300x128_S1500x128_0_0_1_1_n_n 300 rfl rfl).symm k) = ix2 k i := funext fun a => Fin.ext (by
    match a with
    | ⟨0, _⟩ => exact (mmTN_lhs_0 _ _).trans hk
    | ⟨1, _⟩ => exact mmTN_lhs_1 _ _)
  have er : dot_S300x1500_S300x128_S1500x128_0_0_1_1_n_n.rhsIdx (ix2 i j) ((ValueIdx.contrEquiv1 dot_S300x1500_S300x128_S1500x128_0_0_1_1_n_n 300 rfl rfl).symm k) = ix2 k j := funext fun a => Fin.ext (by
    match a with
    | ⟨0, _⟩ => exact (mmTN_rhs_0 _ _).trans hk
    | ⟨1, _⟩ => exact mmTN_rhs_1 _ _)
  rw [el, er]

/-- With operands that hold real numbers the product holds the real contraction. -/
theorem mmTN_coe (l : FVec Ideal S300x1500 .f32) (r : FVec Ideal S300x128 .f32) (f : Fin 300 → Fin 1500 → ℝ) (g : Fin 300 → Fin 128 → ℝ)
    (hl : ∀ (k : Fin 300) (i : Fin 1500), l (ix2 k i) = ((f k i : ℝ) : EReal))
    (hr : ∀ (k : Fin 300) (j : Fin 128), r (ix2 k j) = ((g k j : ℝ) : EReal)) (i : Fin 1500) (j : Fin 128) :
    matmul dot_S300x1500_S300x128_S1500x128_0_0_1_1_n_n none l r (constant S1500x128 .f32 0x00000000#32) (ix2 i j)
      = ((∑ k : Fin 300, f k i * g k j : ℝ) : EReal) := by
  rw [mmTN_apply]
  exact sum_coe _ _ _ _ (fun k => hl k i) (fun k => hr k j)

theorem mmAdjS_lhs_0 (i : S1500x128.Idx) (q : dot_S1500x1500_S1500x128_S1500x128_1_0_0_1_n_n.contr.Idx) :
    (dot_S1500x1500_S1500x128_S1500x128_1_0_0_1_n_n.lhsIdx i q 0).val = (i 0).val := by
  unfold DotDims.lhsIdx
  rw [dif_neg (show ¬(0 : Fin S1500x1500.rank) ∈ dot_S1500x1500_S1500x128_S1500x128_1_0_0_1_n_n.lhsBatch by decide), dif_pos (show (0 : Fin S1500x1500.rank) ∈ dot_S1500x1500_S1500x128_S1500x128_1_0_0_1_n_n.lhsNonContracting by decide)]
  rfl
theorem mmAdjS_lhs_1 (i : S1500x128.Idx) (q : dot_S1500x1500_S1500x128_S1500x128_1_0_0_1_n_n.contr.Idx) :
    (dot_S1500x1500_S1500x128_S1500x128_1_0_0_1_n_n.lhsIdx i q 1).val = (q ⟨0, by decide⟩).val :=
  dot_S1500x1500_S1500x128_S1500x128_1_0_0_1_n_n.lhsIdx_val_of_single rfl i q
theorem mmAdjS_rhs_0 (i : S1500x128.Idx) (q : dot_S1500x1500_S1500x128_S1500x128_1_0_0_1_n_n.contr.Idx) :
    (dot_S1500x1500_S1500x128_S1500x128_1_0_0_1_n_n.rhsIdx i q 0).val = (q ⟨0, by decide⟩).val :=
  dot_S1500x1500_S1500x128_S1500x128_1_0_0_1_n_n.rhsIdx_val_of_single rfl i q
theorem mmAdjS_rhs_1 (i : S1500x128.Idx) (q : dot_S1500x1500_S1500x128_S1500x128_1_0_0_1_n_n.contr.Idx) :
    (dot_S1500x1500_S1500x128_S1500x128_1_0_0_1_n_n.rhsIdx i q 1).val = (i 1).val := by
  unfold DotDims.rhsIdx
  rw [dif_neg (show ¬(1 : Fin S1500x128.rank) ∈ dot_S1500x1500_S1500x128_S1500x128_1_0_0_1_n_n.rhsBatch by decide), dif_pos (show (1 : Fin S1500x128.rank) ∈ dot_S1500x1500_S1500x128_S1500x128_1_0_0_1_n_n.rhsNonContracting by decide)]
  rfl
/-- The product read at (i, j): the sum over the contracted axis of the operands' products. -/
theorem mmAdjS_apply (l : FVec Ideal S1500x1500 .f32) (r : FVec Ideal S1500x128 .f32) (i : Fin 1500) (j : Fin 128) :
    matmul dot_S1500x1500_S1500x128_S1500x128_1_0_0_1_n_n none l r (constant S1500x128 .f32 0x00000000#32) (ix2 i j)
      = ∑ k : Fin 1500, l (ix2 i k) * r (ix2 k j) := by
  show FloatOps.matmul dot_S1500x1500_S1500x128_S1500x128_1_0_0_1_n_n none l r (constant S1500x128 .f32 0x00000000#32) (ix2 i j) = _
  rw [Ideal.matmul_constant_zero_apply, ← Equiv.sum_comp (ValueIdx.contrEquiv1 dot_S1500x1500_S1500x128_S1500x128_1_0_0_1_n_n 1500 rfl rfl).symm]
  refine Finset.sum_congr rfl fun k _ => ?_
  have hk := ValueIdx.contrEquiv1_symm_val dot_S1500x1500_S1500x128_S1500x128_1_0_0_1_n_n 1500 rfl rfl k
  have el : dot_S1500x1500_S1500x128_S1500x128_1_0_0_1_n_n.lhsIdx (ix2 i j) ((ValueIdx.contrEquiv1 dot_S1500x1500_S1500x128_S1500x128_1_0_0_1_n_n 1500 rfl rfl).symm k) = ix2 i k := funext fun a => Fin.ext (by
    match a with
    | ⟨0, _⟩ => exact mmAdjS_lhs_0 _ _
    | ⟨1, _⟩ => exact (mmAdjS_lhs_1 _ _).trans hk)
  have er : dot_S1500x1500_S1500x128_S1500x128_1_0_0_1_n_n.rhsIdx (ix2 i j) ((ValueIdx.contrEquiv1 dot_S1500x1500_S1500x128_S1500x128_1_0_0_1_n_n 1500 rfl rfl).symm k) = ix2 k j := funext fun a => Fin.ext (by
    match a with
    | ⟨0, _⟩ => exact (mmAdjS_rhs_0 _ _).trans hk
    | ⟨1, _⟩ => exact mmAdjS_rhs_1 _ _)
  rw [el, er]

/-- With operands that hold real numbers the product holds the real contraction. -/
theorem mmAdjS_coe (l : FVec Ideal S1500x1500 .f32) (r : FVec Ideal S1500x128 .f32) (f : Fin 1500 → Fin 1500 → ℝ) (g : Fin 1500 → Fin 128 → ℝ)
    (hl : ∀ (i : Fin 1500) (k : Fin 1500), l (ix2 i k) = ((f i k : ℝ) : EReal))
    (hr : ∀ (k : Fin 1500) (j : Fin 128), r (ix2 k j) = ((g k j : ℝ) : EReal)) (i : Fin 1500) (j : Fin 128) :
    matmul dot_S1500x1500_S1500x128_S1500x128_1_0_0_1_n_n none l r (constant S1500x128 .f32 0x00000000#32) (ix2 i j)
      = ((∑ k : Fin 1500, f i k * g k j : ℝ) : EReal) := by
  rw [mmAdjS_apply]
  exact sum_coe _ _ _ _ (fun k => hl i k) (fun k => hr k j)

theorem mmW234_lhs_0 (i : S128x2.Idx) (q : dot_S128x30_S30x2_S128x2_1_0_0_1_n_n.contr.Idx) :
    (dot_S128x30_S30x2_S128x2_1_0_0_1_n_n.lhsIdx i q 0).val = (i 0).val := by
  unfold DotDims.lhsIdx
  rw [dif_neg (show ¬(0 : Fin S128x30.rank) ∈ dot_S128x30_S30x2_S128x2_1_0_0_1_n_n.lhsBatch by decide), dif_pos (show (0 : Fin S128x30.rank) ∈ dot_S128x30_S30x2_S128x2_1_0_0_1_n_n.lhsNonContracting by decide)]
  rfl
theorem mmW234_lhs_1 (i : S128x2.Idx) (q : dot_S128x30_S30x2_S128x2_1_0_0_1_n_n.contr.Idx) :
    (dot_S128x30_S30x2_S128x2_1_0_0_1_n_n.lhsIdx i q 1).val = (q ⟨0, by decide⟩).val :=
  dot_S128x30_S30x2_S128x2_1_0_0_1_n_n.lhsIdx_val_of_single rfl i q
theorem mmW234_rhs_0 (i : S128x2.Idx) (q : dot_S128x30_S30x2_S128x2_1_0_0_1_n_n.contr.Idx) :
    (dot_S128x30_S30x2_S128x2_1_0_0_1_n_n.rhsIdx i q 0).val = (q ⟨0, by decide⟩).val :=
  dot_S128x30_S30x2_S128x2_1_0_0_1_n_n.rhsIdx_val_of_single rfl i q
theorem mmW234_rhs_1 (i : S128x2.Idx) (q : dot_S128x30_S30x2_S128x2_1_0_0_1_n_n.contr.Idx) :
    (dot_S128x30_S30x2_S128x2_1_0_0_1_n_n.rhsIdx i q 1).val = (i 1).val := by
  unfold DotDims.rhsIdx
  rw [dif_neg (show ¬(1 : Fin S30x2.rank) ∈ dot_S128x30_S30x2_S128x2_1_0_0_1_n_n.rhsBatch by decide), dif_pos (show (1 : Fin S30x2.rank) ∈ dot_S128x30_S30x2_S128x2_1_0_0_1_n_n.rhsNonContracting by decide)]
  rfl
/-- The product read at (i, j): the sum over the contracted axis of the operands' products. -/
theorem mmW234_apply (l : FVec Ideal S128x30 .f32) (r : FVec Ideal S30x2 .f32) (i : Fin 128) (j : Fin 2) :
    matmul dot_S128x30_S30x2_S128x2_1_0_0_1_n_n none l r (constant S128x2 .f32 0x00000000#32) (ix2 i j)
      = ∑ k : Fin 30, l (ix2 i k) * r (ix2 k j) := by
  show FloatOps.matmul dot_S128x30_S30x2_S128x2_1_0_0_1_n_n none l r (constant S128x2 .f32 0x00000000#32) (ix2 i j) = _
  rw [Ideal.matmul_constant_zero_apply, ← Equiv.sum_comp (ValueIdx.contrEquiv1 dot_S128x30_S30x2_S128x2_1_0_0_1_n_n 30 rfl rfl).symm]
  refine Finset.sum_congr rfl fun k _ => ?_
  have hk := ValueIdx.contrEquiv1_symm_val dot_S128x30_S30x2_S128x2_1_0_0_1_n_n 30 rfl rfl k
  have el : dot_S128x30_S30x2_S128x2_1_0_0_1_n_n.lhsIdx (ix2 i j) ((ValueIdx.contrEquiv1 dot_S128x30_S30x2_S128x2_1_0_0_1_n_n 30 rfl rfl).symm k) = ix2 i k := funext fun a => Fin.ext (by
    match a with
    | ⟨0, _⟩ => exact mmW234_lhs_0 _ _
    | ⟨1, _⟩ => exact (mmW234_lhs_1 _ _).trans hk)
  have er : dot_S128x30_S30x2_S128x2_1_0_0_1_n_n.rhsIdx (ix2 i j) ((ValueIdx.contrEquiv1 dot_S128x30_S30x2_S128x2_1_0_0_1_n_n 30 rfl rfl).symm k) = ix2 k j := funext fun a => Fin.ext (by
    match a with
    | ⟨0, _⟩ => exact (mmW234_rhs_0 _ _).trans hk
    | ⟨1, _⟩ => exact mmW234_rhs_1 _ _)
  rw [el, er]

/-- With operands that hold real numbers the product holds the real contraction. -/
theorem mmW234_coe (l : FVec Ideal S128x30 .f32) (r : FVec Ideal S30x2 .f32) (f : Fin 128 → Fin 30 → ℝ) (g : Fin 30 → Fin 2 → ℝ)
    (hl : ∀ (i : Fin 128) (k : Fin 30), l (ix2 i k) = ((f i k : ℝ) : EReal))
    (hr : ∀ (k : Fin 30) (j : Fin 2), r (ix2 k j) = ((g k j : ℝ) : EReal)) (i : Fin 128) (j : Fin 2) :
    matmul dot_S128x30_S30x2_S128x2_1_0_0_1_n_n none l r (constant S128x2 .f32 0x00000000#32) (ix2 i j)
      = ((∑ k : Fin 30, f i k * g k j : ℝ) : EReal) := by
  rw [mmW234_apply]
  exact sum_coe _ _ _ _ (fun k => hl i k) (fun k => hr k j)

theorem mmU_lhs_0 (i : S1500x2.Idx) (q : dot_S1500x128_S128x2_S1500x2_1_0_0_1_n_n.contr.Idx) :
    (dot_S1500x128_S128x2_S1500x2_1_0_0_1_n_n.lhsIdx i q 0).val = (i 0).val := by
  unfold DotDims.lhsIdx
  rw [dif_neg (show ¬(0 : Fin S1500x128.rank) ∈ dot_S1500x128_S128x2_S1500x2_1_0_0_1_n_n.lhsBatch by decide), dif_pos (show (0 : Fin S1500x128.rank) ∈ dot_S1500x128_S128x2_S1500x2_1_0_0_1_n_n.lhsNonContracting by decide)]
  rfl
theorem mmU_lhs_1 (i : S1500x2.Idx) (q : dot_S1500x128_S128x2_S1500x2_1_0_0_1_n_n.contr.Idx) :
    (dot_S1500x128_S128x2_S1500x2_1_0_0_1_n_n.lhsIdx i q 1).val = (q ⟨0, by decide⟩).val :=
  dot_S1500x128_S128x2_S1500x2_1_0_0_1_n_n.lhsIdx_val_of_single rfl i q
theorem mmU_rhs_0 (i : S1500x2.Idx) (q : dot_S1500x128_S128x2_S1500x2_1_0_0_1_n_n.contr.Idx) :
    (dot_S1500x128_S128x2_S1500x2_1_0_0_1_n_n.rhsIdx i q 0).val = (q ⟨0, by decide⟩).val :=
  dot_S1500x128_S128x2_S1500x2_1_0_0_1_n_n.rhsIdx_val_of_single rfl i q
theorem mmU_rhs_1 (i : S1500x2.Idx) (q : dot_S1500x128_S128x2_S1500x2_1_0_0_1_n_n.contr.Idx) :
    (dot_S1500x128_S128x2_S1500x2_1_0_0_1_n_n.rhsIdx i q 1).val = (i 1).val := by
  unfold DotDims.rhsIdx
  rw [dif_neg (show ¬(1 : Fin S128x2.rank) ∈ dot_S1500x128_S128x2_S1500x2_1_0_0_1_n_n.rhsBatch by decide), dif_pos (show (1 : Fin S128x2.rank) ∈ dot_S1500x128_S128x2_S1500x2_1_0_0_1_n_n.rhsNonContracting by decide)]
  rfl
/-- The product read at (i, j): the sum over the contracted axis of the operands' products. -/
theorem mmU_apply (l : FVec Ideal S1500x128 .f32) (r : FVec Ideal S128x2 .f32) (i : Fin 1500) (j : Fin 2) :
    matmul dot_S1500x128_S128x2_S1500x2_1_0_0_1_n_n none l r (constant S1500x2 .f32 0x00000000#32) (ix2 i j)
      = ∑ k : Fin 128, l (ix2 i k) * r (ix2 k j) := by
  show FloatOps.matmul dot_S1500x128_S128x2_S1500x2_1_0_0_1_n_n none l r (constant S1500x2 .f32 0x00000000#32) (ix2 i j) = _
  rw [Ideal.matmul_constant_zero_apply, ← Equiv.sum_comp (ValueIdx.contrEquiv1 dot_S1500x128_S128x2_S1500x2_1_0_0_1_n_n 128 rfl rfl).symm]
  refine Finset.sum_congr rfl fun k _ => ?_
  have hk := ValueIdx.contrEquiv1_symm_val dot_S1500x128_S128x2_S1500x2_1_0_0_1_n_n 128 rfl rfl k
  have el : dot_S1500x128_S128x2_S1500x2_1_0_0_1_n_n.lhsIdx (ix2 i j) ((ValueIdx.contrEquiv1 dot_S1500x128_S128x2_S1500x2_1_0_0_1_n_n 128 rfl rfl).symm k) = ix2 i k := funext fun a => Fin.ext (by
    match a with
    | ⟨0, _⟩ => exact mmU_lhs_0 _ _
    | ⟨1, _⟩ => exact (mmU_lhs_1 _ _).trans hk)
  have er : dot_S1500x128_S128x2_S1500x2_1_0_0_1_n_n.rhsIdx (ix2 i j) ((ValueIdx.contrEquiv1 dot_S1500x128_S128x2_S1500x2_1_0_0_1_n_n 128 rfl rfl).symm k) = ix2 k j := funext fun a => Fin.ext (by
    match a with
    | ⟨0, _⟩ => exact (mmU_rhs_0 _ _).trans hk
    | ⟨1, _⟩ => exact mmU_rhs_1 _ _)
  rw [el, er]

/-- With operands that hold real numbers the product holds the real contraction. -/
theorem mmU_coe (l : FVec Ideal S1500x128 .f32) (r : FVec Ideal S128x2 .f32) (f : Fin 1500 → Fin 128 → ℝ) (g : Fin 128 → Fin 2 → ℝ)
    (hl : ∀ (i : Fin 1500) (k : Fin 128), l (ix2 i k) = ((f i k : ℝ) : EReal))
    (hr : ∀ (k : Fin 128) (j : Fin 2), r (ix2 k j) = ((g k j : ℝ) : EReal)) (i : Fin 1500) (j : Fin 2) :
    matmul dot_S1500x128_S128x2_S1500x2_1_0_0_1_n_n none l r (constant S1500x2 .f32 0x00000000#32) (ix2 i j)
      = ((∑ k : Fin 128, f i k * g k j : ℝ) : EReal) := by
  rw [mmU_apply]
  exact sum_coe _ _ _ _ (fun k => hl i k) (fun k => hr k j)

theorem mmAdj2_lhs_0 (i : S1500x2.Idx) (q : dot_S1500x1500_S1500x2_S1500x2_1_0_0_1_n_n.contr.Idx) :
    (dot_S1500x1500_S1500x2_S1500x2_1_0_0_1_n_n.lhsIdx i q 0).val = (i 0).val := by
  unfold DotDims.lhsIdx
  rw [dif_neg (show ¬(0 : Fin S1500x1500.rank) ∈ dot_S1500x1500_S1500x2_S1500x2_1_0_0_1_n_n.lhsBatch by decide), dif_pos (show (0 : Fin S1500x1500.rank) ∈ dot_S1500x1500_S1500x2_S1500x2_1_0_0_1_n_n.lhsNonContracting by decide)]
  rfl
theorem mmAdj2_lhs_1 (i : S1500x2.Idx) (q : dot_S1500x1500_S1500x2_S1500x2_1_0_0_1_n_n.contr.Idx) :
    (dot_S1500x1500_S1500x2_S1500x2_1_0_0_1_n_n.lhsIdx i q 1).val = (q ⟨0, by decide⟩).val :=
  dot_S1500x1500_S1500x2_S1500x2_1_0_0_1_n_n.lhsIdx_val_of_single rfl i q
theorem mmAdj2_rhs_0 (i : S1500x2.Idx) (q : dot_S1500x1500_S1500x2_S1500x2_1_0_0_1_n_n.contr.Idx) :
    (dot_S1500x1500_S1500x2_S1500x2_1_0_0_1_n_n.rhsIdx i q 0).val = (q ⟨0, by decide⟩).val :=
  dot_S1500x1500_S1500x2_S1500x2_1_0_0_1_n_n.rhsIdx_val_of_single rfl i q
theorem mmAdj2_rhs_1 (i : S1500x2.Idx) (q : dot_S1500x1500_S1500x2_S1500x2_1_0_0_1_n_n.contr.Idx) :
    (dot_S1500x1500_S1500x2_S1500x2_1_0_0_1_n_n.rhsIdx i q 1).val = (i 1).val := by
  unfold DotDims.rhsIdx
  rw [dif_neg (show ¬(1 : Fin S1500x2.rank) ∈ dot_S1500x1500_S1500x2_S1500x2_1_0_0_1_n_n.rhsBatch by decide), dif_pos (show (1 : Fin S1500x2.rank) ∈ dot_S1500x1500_S1500x2_S1500x2_1_0_0_1_n_n.rhsNonContracting by decide)]
  rfl
/-- The product read at (i, j): the sum over the contracted axis of the operands' products. -/
theorem mmAdj2_apply (l : FVec Ideal S1500x1500 .f32) (r : FVec Ideal S1500x2 .f32) (i : Fin 1500) (j : Fin 2) :
    matmul dot_S1500x1500_S1500x2_S1500x2_1_0_0_1_n_n none l r (constant S1500x2 .f32 0x00000000#32) (ix2 i j)
      = ∑ k : Fin 1500, l (ix2 i k) * r (ix2 k j) := by
  show FloatOps.matmul dot_S1500x1500_S1500x2_S1500x2_1_0_0_1_n_n none l r (constant S1500x2 .f32 0x00000000#32) (ix2 i j) = _
  rw [Ideal.matmul_constant_zero_apply, ← Equiv.sum_comp (ValueIdx.contrEquiv1 dot_S1500x1500_S1500x2_S1500x2_1_0_0_1_n_n 1500 rfl rfl).symm]
  refine Finset.sum_congr rfl fun k _ => ?_
  have hk := ValueIdx.contrEquiv1_symm_val dot_S1500x1500_S1500x2_S1500x2_1_0_0_1_n_n 1500 rfl rfl k
  have el : dot_S1500x1500_S1500x2_S1500x2_1_0_0_1_n_n.lhsIdx (ix2 i j) ((ValueIdx.contrEquiv1 dot_S1500x1500_S1500x2_S1500x2_1_0_0_1_n_n 1500 rfl rfl).symm k) = ix2 i k := funext fun a => Fin.ext (by
    match a with
    | ⟨0, _⟩ => exact mmAdj2_lhs_0 _ _
    | ⟨1, _⟩ => exact (mmAdj2_lhs_1 _ _).trans hk)
  have er : dot_S1500x1500_S1500x2_S1500x2_1_0_0_1_n_n.rhsIdx (ix2 i j) ((ValueIdx.contrEquiv1 dot_S1500x1500_S1500x2_S1500x2_1_0_0_1_n_n 1500 rfl rfl).symm k) = ix2 k j := funext fun a => Fin.ext (by
    match a with
    | ⟨0, _⟩ => exact (mmAdj2_rhs_0 _ _).trans hk
    | ⟨1, _⟩ => exact mmAdj2_rhs_1 _ _)
  rw [el, er]

/-- With operands that hold real numbers the product holds the real contraction. -/
theorem mmAdj2_coe (l : FVec Ideal S1500x1500 .f32) (r : FVec Ideal S1500x2 .f32) (f : Fin 1500 → Fin 1500 → ℝ) (g : Fin 1500 → Fin 2 → ℝ)
    (hl : ∀ (i : Fin 1500) (k : Fin 1500), l (ix2 i k) = ((f i k : ℝ) : EReal))
    (hr : ∀ (k : Fin 1500) (j : Fin 2), r (ix2 k j) = ((g k j : ℝ) : EReal)) (i : Fin 1500) (j : Fin 2) :
    matmul dot_S1500x1500_S1500x2_S1500x2_1_0_0_1_n_n none l r (constant S1500x2 .f32 0x00000000#32) (ix2 i j)
      = ((∑ k : Fin 1500, f i k * g k j : ℝ) : EReal) := by
  rw [mmAdj2_apply]
  exact sum_coe _ _ _ _ (fun k => hl i k) (fun k => hr k j)

theorem mmRow_lhs_0 (i : S1x2.Idx) (q : dot_S1x30_S30x2_S1x2_1_0_0_1_n_n.contr.Idx) :
    (dot_S1x30_S30x2_S1x2_1_0_0_1_n_n.lhsIdx i q 0).val = (i 0).val := by
  unfold DotDims.lhsIdx
  rw [dif_neg (show ¬(0 : Fin S1x30.rank) ∈ dot_S1x30_S30x2_S1x2_1_0_0_1_n_n.lhsBatch by decide), dif_pos (show (0 : Fin S1x30.rank) ∈ dot_S1x30_S30x2_S1x2_1_0_0_1_n_n.lhsNonContracting by decide)]
  rfl
theorem mmRow_lhs_1 (i : S1x2.Idx) (q : dot_S1x30_S30x2_S1x2_1_0_0_1_n_n.contr.Idx) :
    (dot_S1x30_S30x2_S1x2_1_0_0_1_n_n.lhsIdx i q 1).val = (q ⟨0, by decide⟩).val :=
  dot_S1x30_S30x2_S1x2_1_0_0_1_n_n.lhsIdx_val_of_single rfl i q
theorem mmRow_rhs_0 (i : S1x2.Idx) (q : dot_S1x30_S30x2_S1x2_1_0_0_1_n_n.contr.Idx) :
    (dot_S1x30_S30x2_S1x2_1_0_0_1_n_n.rhsIdx i q 0).val = (q ⟨0, by decide⟩).val :=
  dot_S1x30_S30x2_S1x2_1_0_0_1_n_n.rhsIdx_val_of_single rfl i q
theorem mmRow_rhs_1 (i : S1x2.Idx) (q : dot_S1x30_S30x2_S1x2_1_0_0_1_n_n.contr.Idx) :
    (dot_S1x30_S30x2_S1x2_1_0_0_1_n_n.rhsIdx i q 1).val = (i 1).val := by
  unfold DotDims.rhsIdx
  rw [dif_neg (show ¬(1 : Fin S30x2.rank) ∈ dot_S1x30_S30x2_S1x2_1_0_0_1_n_n.rhsBatch by decide), dif_pos (show (1 : Fin S30x2.rank) ∈ dot_S1x30_S30x2_S1x2_1_0_0_1_n_n.rhsNonContracting by decide)]
  rfl
/-- The product read at (i, j): the sum over the contracted axis of the operands' products. -/
theorem mmRow_apply (l : FVec Ideal S1x30 .f32) (r : FVec Ideal S30x2 .f32) (i : Fin 1) (j : Fin 2) :
    matmul dot_S1x30_S30x2_S1x2_1_0_0_1_n_n none l r (constant S1x2 .f32 0x00000000#32) (ix2 i j)
      = ∑ k : Fin 30, l (ix2 i k) * r (ix2 k j) := by
  show FloatOps.matmul dot_S1x30_S30x2_S1x2_1_0_0_1_n_n none l r (constant S1x2 .f32 0x00000000#32) (ix2 i j) = _
  rw [Ideal.matmul_constant_zero_apply, ← Equiv.sum_comp (ValueIdx.contrEquiv1 dot_S1x30_S30x2_S1x2_1_0_0_1_n_n 30 rfl rfl).symm]
  refine Finset.sum_congr rfl fun k _ => ?_
  have hk := ValueIdx.contrEquiv1_symm_val dot_S1x30_S30x2_S1x2_1_0_0_1_n_n 30 rfl rfl k
  have el : dot_S1x30_S30x2_S1x2_1_0_0_1_n_n.lhsIdx (ix2 i j) ((ValueIdx.contrEquiv1 dot_S1x30_S30x2_S1x2_1_0_0_1_n_n 30 rfl rfl).symm k) = ix2 i k := funext fun a => Fin.ext (by
    match a with
    | ⟨0, _⟩ => exact mmRow_lhs_0 _ _
    | ⟨1, _⟩ => exact (mmRow_lhs_1 _ _).trans hk)
  have er : dot_S1x30_S30x2_S1x2_1_0_0_1_n_n.rhsIdx (ix2 i j) ((ValueIdx.contrEquiv1 dot_S1x30_S30x2_S1x2_1_0_0_1_n_n 30 rfl rfl).symm k) = ix2 k j := funext fun a => Fin.ext (by
    match a with
    | ⟨0, _⟩ => exact (mmRow_rhs_0 _ _).trans hk
    | ⟨1, _⟩ => exact mmRow_rhs_1 _ _)
  rw [el, er]

/-- With operands that hold real numbers the product holds the real contraction. -/
theorem mmRow_coe (l : FVec Ideal S1x30 .f32) (r : FVec Ideal S30x2 .f32) (f : Fin 1 → Fin 30 → ℝ) (g : Fin 30 → Fin 2 → ℝ)
    (hl : ∀ (i : Fin 1) (k : Fin 30), l (ix2 i k) = ((f i k : ℝ) : EReal))
    (hr : ∀ (k : Fin 30) (j : Fin 2), r (ix2 k j) = ((g k j : ℝ) : EReal)) (i : Fin 1) (j : Fin 2) :
    matmul dot_S1x30_S30x2_S1x2_1_0_0_1_n_n none l r (constant S1x2 .f32 0x00000000#32) (ix2 i j)
      = ((∑ k : Fin 30, f i k * g k j : ℝ) : EReal) := by
  rw [mmRow_apply]
  exact sum_coe _ _ _ _ (fun k => hl i k) (fun k => hr k j)

/-! ## The stages of the body, each over the stages before it -/

section Stages
variable (R : Cert.Spec.RIn)

/-- W34 = W_gc3·W_l4. -/
theorem w34_apply (wg3 : FVec Ideal S30x30 .f32) (wl4 : FVec Ideal S30x2 .f32)
    (hwg3 : ∀ a b : Fin 30, wg3 (ix2 a b) = ((R.wg3 a b : ℝ) : EReal))
    (hwl4 : ∀ (a : Fin 30) (q : Fin 2), wl4 (ix2 a q) = ((R.wl4 a q : ℝ) : EReal)) (a : Fin 30) (q : Fin 2) :
    k1_pay2 (F := Ideal) wg3 wl4 (ix2 a q) = ((Cert.Spec.W34 R a q : ℝ) : EReal) := by
  unfold k1_pay2
  exact mmW34_coe wg3 wl4 R.wg3 R.wl4 hwg3 hwl4 a q

/-- s1 = W_l1ᵀ·t + b_l1 ⊗ colsum. -/
theorem s1_apply (wl1 : FVec Ideal S300x1500 .f32) (t : FVec Ideal S300x128 .f32) (bl1 : FVec Ideal S1500x1 .f32)
    (cs : FVec Ideal S1x128 .f32)
    (hwl1 : ∀ (a : Fin 300) (i : Fin 1500), wl1 (ix2 a i) = ((R.wl1 a i : ℝ) : EReal))
    (ht : ∀ (a : Fin 300) (j : Fin 128), t (ix2 a j) = ((Cert.Spec.T R a j : ℝ) : EReal))
    (hbl1 : ∀ i : Fin 1500, bl1 (ix2 i (0 : Fin 1)) = ((R.bl1 i : ℝ) : EReal))
    (hcs : ∀ j : Fin 128, cs (ix2 (0 : Fin 1) j) = ((Cert.Spec.cs R j : ℝ) : EReal))
    (i : Fin 1500) (j : Fin 128) :
    addf (matmul dot_S300x1500_S300x128_S1500x128_0_0_1_1_n_n none wl1
          (shapeCast S300x128 t shapeCasts_S300x128_S300x128) (constant S1500x128 .f32 0x00000000#32))
        (mulf (broadcastTo S1500x128 (shapeCast S1500x1 bl1 shapeCasts_S1500x1_S1500x1) broadcasts_S1500x1_S1500x128)
          (broadcastTo S1500x128 (shapeCast S1x128 cs shapeCasts_S1x128_S1x128) broadcasts_S1x128_S1500x128))
        (ix2 i j)
      = ((Cert.Spec.S1 R i j : ℝ) : EReal) := by
  rw [shapeCast_self, shapeCast_self, shapeCast_self, addf_apply, mulf_apply,
    mmTN_coe wl1 t R.wl1 (Cert.Spec.T R) hwl1 ht, broadcastTo_a1_ab_apply, broadcastTo_1b_ab_apply, hbl1, hcs,
    ← EReal.coe_mul, ← EReal.coe_add]
  rfl

/-- h1 = relu(adj·s1 + b_gc1). -/
theorem h1_apply (adj : FVec Ideal S1500x1500 .f32) (s1 : FVec Ideal S1500x128 .f32) (bg1 : FVec Ideal S1x128 .f32)
    (hadj : ∀ i k : Fin 1500, adj (ix2 i k) = ((R.adj i k : ℝ) : EReal))
    (hs1 : ∀ (i : Fin 1500) (j : Fin 128), s1 (ix2 i j) = ((Cert.Spec.S1 R i j : ℝ) : EReal))
    (hbg1 : ∀ j : Fin 128, bg1 (ix2 (0 : Fin 1) j) = ((R.bg1 j : ℝ) : EReal))
    (i : Fin 1500) (j : Fin 128) :
    maximumf (addf (matmul dot_S1500x1500_S1500x128_S1500x128_1_0_0_1_n_n none adj s1 (constant S1500x128 .f32 0x00000000#32))
          (broadcastTo S1500x128 (shapeCast S1x128 bg1 shapeCasts_S1x128_S1x128) broadcasts_S1x128_S1500x128))
        (broadcast S1500x128 (Scalar.ofBits (F := Ideal) .f32 0x00000000#32)) (ix2 i j)
      = ((Cert.Spec.H1 R i j : ℝ) : EReal) := by
  rw [shapeCast_self, maximumf_apply, addf_apply, broadcast_apply,
    mmAdjS_coe adj s1 R.adj (Cert.Spec.S1 R) hadj hs1, broadcastTo_1b_ab_apply, hbg1,
    Ideal.ofBits_def, Ideal.ofBits_zero_f32, ← EReal.coe_add, ← EReal.coe_zero, Cert.Coe.coe_max]
  rfl

/-- W234 = W_gc2·W34. -/
theorem w234_apply (wg2 : FVec Ideal S128x30 .f32) (w34 : FVec Ideal S30x2 .f32)
    (hwg2 : ∀ (a : Fin 128) (b : Fin 30), wg2 (ix2 a b) = ((R.wg2 a b : ℝ) : EReal))
    (hw34 : ∀ (a : Fin 30) (q : Fin 2), w34 (ix2 a q) = ((Cert.Spec.W34 R a q : ℝ) : EReal))
    (a : Fin 128) (q : Fin 2) :
    matmul dot_S128x30_S30x2_S128x2_1_0_0_1_n_n none wg2 w34 (constant S128x2 .f32 0x00000000#32) (ix2 a q)
      = ((Cert.Spec.W234 R a q : ℝ) : EReal) :=
  mmW234_coe wg2 w34 R.wg2 (Cert.Spec.W34 R) hwg2 hw34 a q

/-- u = h1·W234. -/
theorem u_apply (h1 : FVec Ideal S1500x128 .f32) (w234 : FVec Ideal S128x2 .f32)
    (hh1 : ∀ (i : Fin 1500) (j : Fin 128), h1 (ix2 i j) = ((Cert.Spec.H1 R i j : ℝ) : EReal))
    (hw234 : ∀ (a : Fin 128) (q : Fin 2), w234 (ix2 a q) = ((Cert.Spec.W234 R a q : ℝ) : EReal))
    (i : Fin 1500) (q : Fin 2) :
    matmul dot_S1500x128_S128x2_S1500x2_1_0_0_1_n_n none h1 w234 (constant S1500x2 .f32 0x00000000#32) (ix2 i q)
      = ((Cert.Spec.U R i q : ℝ) : EReal) :=
  mmU_coe h1 w234 (Cert.Spec.H1 R) (Cert.Spec.W234 R) hh1 hw234 i q

/-- The value the first part hands on: adj·u. -/
theorem pay3_apply (wl1 : FVec Ideal S300x1500 .f32) (t : FVec Ideal S300x128 .f32) (bl1 : FVec Ideal S1500x1 .f32)
    (cs : FVec Ideal S1x128 .f32) (adj : FVec Ideal S1500x1500 .f32) (bg1 : FVec Ideal S1x128 .f32)
    (wg3 : FVec Ideal S30x30 .f32) (wl4 : FVec Ideal S30x2 .f32) (wg2 : FVec Ideal S128x30 .f32)
    (hwl1 : ∀ (a : Fin 300) (i : Fin 1500), wl1 (ix2 a i) = ((R.wl1 a i : ℝ) : EReal))
    (ht : ∀ (a : Fin 300) (j : Fin 128), t (ix2 a j) = ((Cert.Spec.T R a j : ℝ) : EReal))
    (hbl1 : ∀ i : Fin 1500, bl1 (ix2 i (0 : Fin 1)) = ((R.bl1 i : ℝ) : EReal))
    (hcs : ∀ j : Fin 128, cs (ix2 (0 : Fin 1) j) = ((Cert.Spec.cs R j : ℝ) : EReal))
    (hadj : ∀ i k : Fin 1500, adj (ix2 i k) = ((R.adj i k : ℝ) : EReal))
    (hbg1 : ∀ j : Fin 128, bg1 (ix2 (0 : Fin 1) j) = ((R.bg1 j : ℝ) : EReal))
    (hwg3 : ∀ a b : Fin 30, wg3 (ix2 a b) = ((R.wg3 a b : ℝ) : EReal))
    (hwl4 : ∀ (a : Fin 30) (q : Fin 2), wl4 (ix2 a q) = ((R.wl4 a q : ℝ) : EReal))
    (hwg2 : ∀ (a : Fin 128) (b : Fin 30), wg2 (ix2 a b) = ((R.wg2 a b : ℝ) : EReal))
    (i : Fin 1500) (q : Fin 2) :
    k1_pay3 (F := Ideal) wl1 t bl1 cs adj bg1 wg3 wl4 wg2 adj (ix2 i q)
      = ((∑ k : Fin 1500, R.adj i k * Cert.Spec.U R k q : ℝ) : EReal) := by
  unfold k1_pay3
  exact mmAdj2_coe adj _ R.adj (Cert.Spec.U R) hadj
    (u_apply R _ _
      (h1_apply R adj _ bg1 hadj (s1_apply R wl1 t bl1 cs hwl1 ht hbl1 hcs) hbg1)
      (w234_apply R wg2 _ hwg2 (w34_apply R wg3 wl4 hwg3 hwl4))) i q

end Stages

section Tail
variable (R : Cert.Spec.RIn)

/-- v = adj·u + b_gc2·W34. -/
theorem vk_apply (au : FVec Ideal S1500x2 .f32) (bg2 : FVec Ideal S1x30 .f32) (w34 : FVec Ideal S30x2 .f32)
    (hau : ∀ (i : Fin 1500) (q : Fin 2), au (ix2 i q) = ((∑ k : Fin 1500, R.adj i k * Cert.Spec.U R k q : ℝ) : EReal))
    (hbg2 : ∀ b : Fin 30, bg2 (ix2 (0 : Fin 1) b) = ((R.bg2 b : ℝ) : EReal))
    (hw34 : ∀ (a : Fin 30) (q : Fin 2), w34 (ix2 a q) = ((Cert.Spec.W34 R a q : ℝ) : EReal))
    (i : Fin 1500) (q : Fin 2) :
    addf au (broadcastTo S1500x2
          (matmul dot_S1x30_S30x2_S1x2_1_0_0_1_n_n none bg2 w34 (constant S1x2 .f32 0x00000000#32))
          broadcasts_S1x2_S1500x2) (ix2 i q)
      = ((Cert.Spec.Vk R i q : ℝ) : EReal) := by
  rw [addf_apply, broadcastTo_1b_ab_apply, hau,
    mmRow_coe bg2 w34 (fun _ b => R.bg2 b) (Cert.Spec.W34 R)
      (fun u b => by obtain rfl : u = 0 := Subsingleton.elim _ _; exact hbg2 b) hw34,
    ← EReal.coe_add]
  rfl

/-- w = adj2·v + b_gc3·W_l4 + b_l4. -/
theorem wk_apply (adj2 : FVec Ideal S1500x1500 .f32) (v : FVec Ideal S1500x2 .f32) (bg3 : FVec Ideal S1x30 .f32)
    (wl4 : FVec Ideal S30x2 .f32) (bl4 : FVec Ideal S1x2 .f32)
    (hadj2 : ∀ i k : Fin 1500, adj2 (ix2 i k) = ((R.adj2 i k : ℝ) : EReal))
    (hv : ∀ (i : Fin 1500) (q : Fin 2), v (ix2 i q) = ((Cert.Spec.Vk R i q : ℝ) : EReal))
    (hbg3 : ∀ b : Fin 30, bg3 (ix2 (0 : Fin 1) b) = ((R.bg3 b : ℝ) : EReal))
    (hwl4 : ∀ (a : Fin 30) (q : Fin 2), wl4 (ix2 a q) = ((R.wl4 a q : ℝ) : EReal))
    (hbl4 : ∀ q : Fin 2, bl4 (ix2 (0 : Fin 1) q) = ((R.bl4 q : ℝ) : EReal))
    (i : Fin 1500) (q : Fin 2) :
    addf (addf (matmul dot_S1500x1500_S1500x2_S1500x2_1_0_0_1_n_n none adj2 v (constant S1500x2 .f32 0x00000000#32))
          (broadcastTo S1500x2
            (matmul dot_S1x30_S30x2_S1x2_1_0_0_1_n_n none (shapeCast S1x30 bg3 shapeCasts_S1x30_S1x30) wl4
              (constant S1x2 .f32 0x00000000#32))
            broadcasts_S1x2_S1500x2))
        (broadcastTo S1500x2 (shapeCast S1x2 bl4 shapeCasts_S1x2_S1x2) broadcasts_S1x2_S1500x2) (ix2 i q)
      = ((Cert.Spec.Wk R i q : ℝ) : EReal) := by
  rw [shapeCast_self, shapeCast_self, addf_apply, addf_apply, broadcastTo_1b_ab_apply, broadcastTo_1b_ab_apply,
    mmAdj2_coe adj2 v R.adj2 (Cert.Spec.Vk R) hadj2 hv,
    mmRow_coe bg3 wl4 (fun _ b => R.bg3 b) R.wl4
      (fun u b => by obtain rfl : u = 0 := Subsingleton.elim _ _; exact hbg3 b) hwl4,
    hbl4, ← EReal.coe_add, ← EReal.coe_add]
  rfl

end Tail

/-! ## The log-softmax over the two classes -/

section Softmax
variable (w : FVec Ideal S1500x2 .f32) (z : Fin 1500 → Fin 2 → ℝ)

/-- The row maximum, as a column. -/
theorem m_apply (hw : ∀ (i : Fin 1500) (q : Fin 2), w (ix2 i q) = ((z i q : ℝ) : EReal)) (i : Fin 1500) (u : Fin 1) :
    shapeCast S1500x1 (multiReduction .maximumf [1] S1500 w 0xFF800000#32 reduces_S1500x2_S1500 (.inl rfl) rfl)
        shapeCasts_S1500_S1500x1 (ix2 i u)
      = ((Cert.Spec.mx z i : ℝ) : EReal) := by
  rw [shapeCast_a_a1_apply, rowmax_apply, hw, hw, Cert.Coe.coe_max]
  rfl

/-- e^{w − m}. -/
theorem e_apply (hw : ∀ (i : Fin 1500) (q : Fin 2), w (ix2 i q) = ((z i q : ℝ) : EReal)) (m : FVec Ideal S1500x1 .f32)
    (hm : ∀ i : Fin 1500, m (ix2 i (0 : Fin 1)) = ((Cert.Spec.mx z i : ℝ) : EReal)) (i : Fin 1500) (q : Fin 2) :
    exp (subf w (broadcastTo S1500x2 m broadcasts_S1500x1_S1500x2)) (ix2 i q)
      = ((Real.exp (z i q - Cert.Spec.mx z i) : ℝ) : EReal) := by
  show FloatOps.exp (subf w (broadcastTo S1500x2 m broadcasts_S1500x1_S1500x2) (ix2 i q)) = _
  rw [subf_apply, broadcastTo_a1_ab_apply, hw, hm, ← EReal.coe_sub, Ideal.exp_def, Cert.Coe.exp_coe]

/-- log Σ_q e^{w − m}, as a column. -/
theorem lse_apply (e : FVec Ideal S1500x2 .f32)
    (he : ∀ (i : Fin 1500) (q : Fin 2), e (ix2 i q) = ((Real.exp (z i q - Cert.Spec.mx z i) : ℝ) : EReal))
    (i : Fin 1500) (u : Fin 1) :
    log (shapeCast S1500x1 (multiReduction .add [1] S1500 e 0x00000000#32 reduces_S1500x2_S1500 (.inl rfl) rfl)
        shapeCasts_S1500_S1500x1) (ix2 i u)
      = ((Real.log (Cert.Spec.se z i) : ℝ) : EReal) := by
  show FloatOps.log (shapeCast S1500x1 (multiReduction .add [1] S1500 e 0x00000000#32 reduces_S1500x2_S1500 (.inl rfl) rfl)
        shapeCasts_S1500_S1500x1 (ix2 i u)) = _
  rw [shapeCast_a_a1_apply, rowsum_apply, he, he, ← EReal.coe_add, Ideal.log_def]
  exact Cert.Coe.log_coe (Cert.Spec.se_pos z i)

/-- w − (m + log Σ e^{w−m}). -/
theorem out_apply (hw : ∀ (i : Fin 1500) (q : Fin 2), w (ix2 i q) = ((z i q : ℝ) : EReal)) (m l : FVec Ideal S1500x1 .f32)
    (hm : ∀ i : Fin 1500, m (ix2 i (0 : Fin 1)) = ((Cert.Spec.mx z i : ℝ) : EReal))
    (hl : ∀ i : Fin 1500, l (ix2 i (0 : Fin 1)) = ((Real.log (Cert.Spec.se z i) : ℝ) : EReal))
    (p : Fin 1500) (q : Fin 2) :
    subf w (broadcastTo S1500x2 (addf m l) broadcasts_S1500x1_S1500x2) (ix2 p q)
      = ((z p q - (Cert.Spec.mx z p + Real.log (Cert.Spec.se z p)) : ℝ) : EReal) := by
  rw [subf_apply, broadcastTo_a1_ab_apply, addf_apply, hw, hm, hl, ← EReal.coe_add, ← EReal.coe_sub]

end Softmax

/-- The stored value, over the values the first part hands on. -/
theorem pay1_apply (R : Cert.Spec.RIn) (w34 : FVec Ideal S30x2 .f32) (au : FVec Ideal S1500x2 .f32) (bg2 : FVec Ideal S1x30 .f32)
    (adj2 : FVec Ideal S1500x1500 .f32) (bg3 : FVec Ideal S1x30 .f32) (wl4 : FVec Ideal S30x2 .f32)
    (bl4 : FVec Ideal S1x2 .f32)
    (hw34 : ∀ (a : Fin 30) (q : Fin 2), w34 (ix2 a q) = ((Cert.Spec.W34 R a q : ℝ) : EReal))
    (hau : ∀ (i : Fin 1500) (q : Fin 2), au (ix2 i q) = ((∑ k : Fin 1500, R.adj i k * Cert.Spec.U R k q : ℝ) : EReal))
    (hbg2 : ∀ b : Fin 30, bg2 (ix2 (0 : Fin 1) b) = ((R.bg2 b : ℝ) : EReal))
    (hadj2 : ∀ i k : Fin 1500, adj2 (ix2 i k) = ((R.adj2 i k : ℝ) : EReal))
    (hbg3 : ∀ b : Fin 30, bg3 (ix2 (0 : Fin 1) b) = ((R.bg3 b : ℝ) : EReal))
    (hwl4 : ∀ (a : Fin 30) (q : Fin 2), wl4 (ix2 a q) = ((R.wl4 a q : ℝ) : EReal))
    (hbl4 : ∀ q : Fin 2, bl4 (ix2 (0 : Fin 1) q) = ((R.bl4 q : ℝ) : EReal))
    (p : Fin 1500) (q : Fin 2) :
    k1_pay1 (F := Ideal) w34 au bg2 (constant S1x2 .f32 0x00000000#32) adj2 bg3 wl4 bl4 (ix2 p q)
      = ((Cert.Spec.OutK R p q : ℝ) : EReal) := by
  unfold k1_pay1
  have hW := wk_apply R adj2 _ bg3 wl4 bl4 hadj2 (vk_apply R au bg2 w34 hau hbg2 hw34) hbg3 hwl4 hbl4
  have hM := fun i => m_apply _ (Cert.Spec.Wk R) hW i 0
  exact out_apply _ (Cert.Spec.Wk R) hW _ _ hM
    (fun i => lse_apply (Cert.Spec.Wk R) _ (e_apply _ (Cert.Spec.Wk R) hW _ hM) i 0) p q

/-- The stored value of the second kernel at (p, q), when every operand holds the real numbers of `R`
    (t the accumulated xᵀ·W_gc1, cs the accumulated column sums of W_gc1; the biases as the columns and rows the
    host reshaped them to). -/
theorem kout_apply (R : Cert.Spec.RIn)
    (t : Vec Ideal S300x128 .f32) (cs : Vec Ideal S1x128 .f32) (wl1 : Vec Ideal S300x1500 .f32)
    (bl1 : Vec Ideal S1500x1 .f32) (adj adj2 : Vec Ideal S1500x1500 .f32) (bg1 : Vec Ideal S1x128 .f32)
    (wg2 : Vec Ideal S128x30 .f32) (bg2 : Vec Ideal S1x30 .f32) (wg3 : Vec Ideal S30x30 .f32)
    (bg3 : Vec Ideal S1x30 .f32) (wl4 : Vec Ideal S30x2 .f32) (bl4 : Vec Ideal S1x2 .f32)
    (ht : ∀ (a : Fin 300) (j : Fin 128), t (ix2 a j) = ((Cert.Spec.T R a j : ℝ) : EReal))
    (hcs : ∀ j : Fin 128, cs (ix2 (0 : Fin 1) j) = ((Cert.Spec.cs R j : ℝ) : EReal))
    (hwl1 : ∀ (a : Fin 300) (i : Fin 1500), wl1 (ix2 a i) = ((R.wl1 a i : ℝ) : EReal))
    (hbl1 : ∀ i : Fin 1500, bl1 (ix2 i (0 : Fin 1)) = ((R.bl1 i : ℝ) : EReal))
    (hadj : ∀ i k : Fin 1500, adj (ix2 i k) = ((R.adj i k : ℝ) : EReal))
    (hadj2 : ∀ i k : Fin 1500, adj2 (ix2 i k) = ((R.adj2 i k : ℝ) : EReal))
    (hbg1 : ∀ j : Fin 128, bg1 (ix2 (0 : Fin 1) j) = ((R.bg1 j : ℝ) : EReal))
    (hwg2 : ∀ (a : Fin 128) (b : Fin 30), wg2 (ix2 a b) = ((R.wg2 a b : ℝ) : EReal))
    (hbg2 : ∀ b : Fin 30, bg2 (ix2 (0 : Fin 1) b) = ((R.bg2 b : ℝ) : EReal))
    (hwg3 : ∀ a b : Fin 30, wg3 (ix2 a b) = ((R.wg3 a b : ℝ) : EReal))
    (hbg3 : ∀ b : Fin 30, bg3 (ix2 (0 : Fin 1) b) = ((R.bg3 b : ℝ) : EReal))
    (hwl4 : ∀ (a : Fin 30) (q : Fin 2), wl4 (ix2 a q) = ((R.wl4 a q : ℝ) : EReal))
    (hbl4 : ∀ q : Fin 2, bl4 (ix2 (0 : Fin 1) q) = ((R.bl4 q : ℝ) : EReal))
    (p : Fin 1500) (q : Fin 2) :
    k1_pay1 (F := Ideal) (k1_pay2 wg3 wl4) (k1_pay3 wl1 t bl1 cs adj bg1 wg3 wl4 wg2 adj) (k1_pay4 bg2)
        (constant S1x2 .f32 0x00000000#32) adj2 bg3 wl4 bl4 (ix2 p q)
      = ((Cert.Spec.OutK R p q : ℝ) : EReal) :=
  pay1_apply R _ _ _ adj2 bg3 wl4 bl4 (w34_apply R wg3 wl4 hwg3 hwl4)
    (pay3_apply R wl1 t bl1 cs adj bg1 wg3 wl4 wg2 hwl1 ht hbl1 hcs hadj hbg1 hwg3 hwl4 hwg2)
    (fun b => by
      unfold k1_pay4
      rw [shapeCast_self]
      exact hbg2 b)
    hadj2 hbg3 hwl4 hbl4 p q

end Cert.KernelIdeal.KPay

end
-- ==== Proof.KVal.lean ====
/-
  The kernel program's result at an index, over the reals.

  The result buffer after the run is the second kernel's stored value of its operands as it finds them (KTop). Under
  the hypothesis that every input holds real numbers, the operands are: the first kernel's accumulated xᵀ·W_gc1 and
  column sums (given here as hypotheses `ht`, `hcs`), six arguments as launched, and the five bias vectors reshaped —
  an `[a]` array cast to a column `[a, 1]` or a row `[1, a]` reads the same entries. So the result at (p, q) is the real
  number `Spec.OutK R p q`.
-/
import proofs.«146911_g64390149702081_cont_9to1_m_674_1_alg».proof.Proof.KTop
import proofs.«146911_g64390149702081_cont_9to1_m_674_1_alg».proof.Proof.KPay
import proofs.«146911_g64390149702081_cont_9to1_m_674_1_alg».proof.Proof.Spec
import Idealize.ShloMosaic.Lib.ValueLayout

noncomputable section

namespace Cert.KernelIdeal.KVal

open Cert.KernelIdeal Cert.KernelIdeal.Gen Idealize.ShloMosaic Idealize.ShloMosaic.TcCoe Idealize.SL.Sem Idealize.ShloMosaic.ValueIdx

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

variable (m : (ℓ : Loc nD τ sig) → Buf (Elt Ideal) ℓ) (ρ : Dev nD → PrngReg)

/-- The result buffer at the last boundary, read at (p, q), when every input holds the real numbers of `R` and the
    first kernel's result arrays hold xᵀ·W_gc1 and the column sums of W_gc1. -/
theorem out_apply (R : Cert.Spec.RIn) (c : Dev nD)
    (ht : ∀ (a : Fin 300) (j : Fin 128),
      ((dat0 (F := Ideal) (V0 m ρ) c).arrAt 2 cfg0.N : Vec Ideal S300x128 .f32) (ix2 a j) = ((Cert.Spec.T R a j : ℝ) : EReal))
    (hcs : ∀ j : Fin 128,
      ((dat0 (F := Ideal) (V0 m ρ) c).arrAt 3 cfg0.N : Vec Ideal S1x128 .f32) (ix2 (0 : Fin 1) j) = ((Cert.Spec.cs R j : ℝ) : EReal))
    (h1 : ∀ i k : Fin 1500, (m ((c : Thread nD τ).loc main_arg1) : Vec Ideal S1500x1500 .f32) (ix2 i k) = ((R.adj i k : ℝ) : EReal))
    (h2 : ∀ i k : Fin 1500, (m ((c : Thread nD τ).loc main_arg2) : Vec Ideal S1500x1500 .f32) (ix2 i k) = ((R.adj2 i k : ℝ) : EReal))
    (h3 : ∀ (a : Fin 300) (i : Fin 1500), (m ((c : Thread nD τ).loc main_arg3) : Vec Ideal S300x1500 .f32) (ix2 a i) = ((R.wl1 a i : ℝ) : EReal))
    (h4 : ∀ i : Fin 1500, (m ((c : Thread nD τ).loc main_arg4) : Vec Ideal S1500 .f32) (ix1 i) = ((R.bl1 i : ℝ) : EReal))
    (h6 : ∀ j : Fin 128, (m ((c : Thread nD τ).loc main_arg6) : Vec Ideal S128 .f32) (ix1 j) = ((R.bg1 j : ℝ) : EReal))
    (h7 : ∀ (a : Fin 128) (b : Fin 30), (m ((c : Thread nD τ).loc main_arg7) : Vec Ideal S128x30 .f32) (ix2 a b) = ((R.wg2 a b : ℝ) : EReal))
    (h8 : ∀ b : Fin 30, (m ((c : Thread nD τ).loc main_arg8) : Vec Ideal S30 .f32) (ix1 b) = ((R.bg2 b : ℝ) : EReal))
    (h9 : ∀ a b : Fin 30, (m ((c : Thread nD τ).loc main_arg9) : Vec Ideal S30x30 .f32) (ix2 a b) = ((R.wg3 a b : ℝ) : EReal))
    (h10 : ∀ b : Fin 30, (m ((c : Thread nD τ).loc main_arg10) : Vec Ideal S30 .f32) (ix1 b) = ((R.bg3 b : ℝ) : EReal))
    (h11 : ∀ (a : Fin 30) (q : Fin 2), (m ((c : Thread nD τ).loc main_arg11) : Vec Ideal S30x2 .f32) (ix2 a q) = ((R.wl4 a q : ℝ) : EReal))
    (h12 : ∀ q : Fin 2, (m ((c : Thread nD τ).loc main_arg12) : Vec Ideal S2 .f32) (ix1 q) = ((R.bl4 q : ℝ) : EReal))
    (p : Fin 1500) (q : Fin 2) :
    (W3 m ρ c (Proc.devRef .tc main_v6) : Vec Ideal S1500x2 .f32) (ix2 p q) = ((Cert.Spec.OutK R p q : ℝ) : EReal) := by
  rw [KTop.W3_out]
  have e_t : ∀ (a : Fin 300) (j : Fin 128), (V2 m ρ c main_v0_0 : Vec Ideal S300x128 .f32) (ix2 a j) = ((Cert.Spec.T R a j : ℝ) : EReal) :=
    fun a j => by rw [KTop.V2_v0_0]; exact ht a j
  have e_cs : ∀ j : Fin 128, (V2 m ρ c main_v0_1 : Vec Ideal S1x128 .f32) (ix2 (0 : Fin 1) j) = ((Cert.Spec.cs R j : ℝ) : EReal) :=
    fun j => by rw [KTop.V2_v0_1]; exact hcs j
  have e_wl1 : ∀ (a : Fin 300) (i : Fin 1500), (V2 m ρ c main_arg3 : Vec Ideal S300x1500 .f32) (ix2 a i) = ((R.wl1 a i : ℝ) : EReal) :=
    fun a i => by rw [KTop.V2_arg3]; exact h3 a i
  have e_bl1 : ∀ i : Fin 1500, (V2 m ρ c main_v1 : Vec Ideal S1500x1 .f32) (ix2 i (0 : Fin 1)) = ((R.bl1 i : ℝ) : EReal) :=
    fun i => by rw [KTop.V2_v1]; exact (shapeCast_a_a1_apply _ _ i 0).trans (h4 i)
  have e_adj : ∀ i k : Fin 1500, (V2 m ρ c main_arg1 : Vec Ideal S1500x1500 .f32) (ix2 i k) = ((R.adj i k : ℝ) : EReal) :=
    fun i k => by rw [KTop.V2_arg1]; exact h1 i k
  have e_adj2 : ∀ i k : Fin 1500, (V2 m ρ c main_arg2 : Vec Ideal S1500x1500 .f32) (ix2 i k) = ((R.adj2 i k : ℝ) : EReal) :=
    fun i k => by rw [KTop.V2_arg2]; exact h2 i k
  have e_bg1 : ∀ j : Fin 128, (V2 m ρ c main_v2 : Vec Ideal S1x128 .f32) (ix2 (0 : Fin 1) j) = ((R.bg1 j : ℝ) : EReal) :=
    fun j => by rw [KTop.V2_v2]; exact (shapeCast_a_1a_apply _ _ 0 j).trans (h6 j)
  have e_wg2 : ∀ (a : Fin 128) (b : Fin 30), (V2 m ρ c main_arg7 : Vec Ideal S128x30 .f32) (ix2 a b) = ((R.wg2 a b : ℝ) : EReal) :=
    fun a b => by rw [KTop.V2_arg7]; exact h7 a b
  have e_bg2 : ∀ b : Fin 30, (V2 m ρ c main_v3 : Vec Ideal S1x30 .f32) (ix2 (0 : Fin 1) b) = ((R.bg2 b : ℝ) : EReal) :=
    fun b => by rw [KTop.V2_v3]; exact (shapeCast_a_1a_apply _ _ 0 b).trans (h8 b)
  have e_wg3 : ∀ a b : Fin 30, (V2 m ρ c main_arg9 : Vec Ideal S30x30 .f32) (ix2 a b) = ((R.wg3 a b : ℝ) : EReal) :=
    fun a b => by rw [KTop.V2_arg9]; exact h9 a b
  have e_bg3 : ∀ b : Fin 30, (V2 m ρ c main_v4 : Vec Ideal S1x30 .f32) (ix2 (0 : Fin 1) b) = ((R.bg3 b : ℝ) : EReal) :=
    fun b => by rw [KTop.V2_v4]; exact (shapeCast_a_1a_apply _ _ 0 b).trans (h10 b)
  have e_wl4 : ∀ (a : Fin 30) (q : Fin 2), (V2 m ρ c main_arg11 : Vec Ideal S30x2 .f32) (ix2 a q) = ((R.wl4 a q : ℝ) : EReal) :=
    fun a q => by rw [KTop.V2_arg11]; exact h11 a q
  have e_bl4 : ∀ q : Fin 2, (V2 m ρ c main_v5 : Vec Ideal S1x2 .f32) (ix2 (0 : Fin 1) q) = ((R.bl4 q : ℝ) : EReal) :=
    fun q => by rw [KTop.V2_v5]; exact (shapeCast_a_1a_apply _ _ 0 q).trans (h12 q)
  exact Cert.KernelIdeal.KPay.kout_apply R _ _ _ _ _ _ _ _ _ _ _ _ _ e_t e_cs e_wl1 e_bl1 e_adj e_adj2 e_bg1 e_wg2 e_bg2 e_wg3
    e_bg3 e_wl4 e_bl4 p q

end Cert.KernelIdeal.KVal

end
-- ==== Proof.KReg0.lean ====
/-
  The first kernel: what its two result arrays hold.

  The grid has five points; point n reads rows 2000n … 2000n+1999 of x and of W_gc1. Point 0 clears the two
  accumulators; every point adds x_blockᵀ·W_block (300×128) to the first and the column sums of W_block (1×128) to the
  second. Both output blocks stay at index (0, 0) and are written back once, after the last point. So the first
  result array holds ((((0 + M₀) + M₁) + M₂) + M₃) + M₄ with Mₙ = x_nᵀ·W_n, and when x and W_gc1 hold real numbers
  this is Σ over all 10000 rows, xᵀ·W_gc1; likewise the second holds the column sums of W_gc1.
-/
import proofs.«146911_g64390149702081_cont_9to1_m_674_1_alg».proof.Proof.Gen.KernelIdeal.Frame
import proofs.«146911_g64390149702081_cont_9to1_m_674_1_alg».proof.Proof.Spec
import proofs.«146911_g64390149702081_cont_9to1_m_674_1_alg».proof.Proof.Coe
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.KReg0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets, spelt as a constant function. -/
theorem hz : (![0, 0] : Fin 2 → Nat) = fun _ => 0 := funext fun a => by fin_cases a <;> rfl

/-! ## What one point leaves in the two accumulators -/

/-- After the first point the first accumulator holds the zero block plus the point's product. -/
theorem outA2 (c : Dev nD) (i : grid0.Coords) (a1 : Memref sig .tc .vmem S2000x300 .f32) (h1 : a1.IsWhole)
    (a2 : Memref sig .tc .vmem S2000x128 .f32) (h2 : a2.IsWhole) (a3 : Memref sig .tc .vmem S300x128 .f32) (h3 : a3.IsWhole)
    (a4 : Memref sig .tc .vmem S1x128 .f32) (h4 : a4.IsWhole) (hc : cond0_0 i)
    (x0 : Vec Ideal S2000x300 .f32) (x1 : Vec Ideal S2000x128 .f32) :
    out0_A_2 c i a1 h1 a2 h2 a3 h3 a4 h4 hc x0 x1 = k0_pay3 x0 x1 (k0_pay1 (F := Ideal)) := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S300x128) hz, View.readCov_unit_zero (S := S300x128) _ hz]
  simp only [View.readAt_eq_ld, h1.read_unread, h2.read_unread, View.ld_unit_zero (S := S2000x300) hz,
    View.ld_unit_zero (S := S2000x128) hz]

/-- After the first point the second accumulator holds the zero row plus the point's column sums. -/
theorem outA3 (c : Dev nD) (i : grid0.Coords) (a1 : Memref sig .tc .vmem S2000x300 .f32) (h1 : a1.IsWhole)
    (a2 : Memref sig .tc .vmem S2000x128 .f32) (h2 : a2.IsWhole) (a3 : Memref sig .tc .vmem S300x128 .f32) (h3 : a3.IsWhole)
    (a4 : Memref sig .tc .vmem S1x128 .f32) (h4 : a4.IsWhole) (hc : cond0_0 i)
    (x0 : Vec Ideal S2000x300 .f32) (x1 : Vec Ideal S2000x128 .f32) :
    out0_A_3 c i a1 h1 a2 h2 a3 h3 a4 h4 hc x0 x1 = k0_pay4 x1 (k0_pay2 (F := Ideal)) := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S1x128) hz, View.readCov_unit_zero (S := S1x128) _ hz]
  simp only [View.readAt_eq_ld, h2.read_unread, View.ld_unit_zero (S := S2000x128) hz]

/-- After a later point the first accumulator holds what it held plus the point's product. -/
theorem outB2 (c : Dev nD) (i : grid0.Coords) (a1 : Memref sig .tc .vmem S2000x300 .f32) (h1 : a1.IsWhole)
    (a2 : Memref sig .tc .vmem S2000x128 .f32) (h2 : a2.IsWhole) (a3 : Memref sig .tc .vmem S300x128 .f32) (h3 : a3.IsWhole)
    (a4 : Memref sig .tc .vmem S1x128 .f32) (h4 : a4.IsWhole) (hc : ¬cond0_0 i)
    (x0 : Vec Ideal S2000x300 .f32) (x1 : Vec Ideal S2000x128 .f32) (xo2 : Vec Ideal S300x128 .f32) (xo3 : Vec Ideal S1x128 .f32) :
    out0_B_2 c i a1 h1 a2 h2 a3 h3 a4 h4 hc x0 x1 xo2 xo3 = k0_pay3 x0 x1 xo2 := by
  unfold out0_B_2
  rw [View.read_writes_eq_canon _ _ _ (cover0_B_2 c i a1 h1 a2 h2 a3 h3 a4 h4 hc x0 x1 xo2 xo3)]
  unfold kernelRun0_B
  dsimp only
  sl_unfold_words
  rw [View.canon_unit_zero hz]
  simp only [View.readAt_eq_ld, h1.read_unread, h2.read_unread, h3.read_unread, View.ld_unit_zero (S := S2000x300) hz,
    View.ld_unit_zero (S := S2000x128) hz, View.ld_unit_zero (S := S300x128) hz]

/-- After a later point the second accumulator holds what it held plus the point's column sums. -/
theorem outB3 (c : Dev nD) (i : grid0.Coords) (a1 : Memref sig .tc .vmem S2000x300 .f32) (h1 : a1.IsWhole)
    (a2 : Memref sig .tc .vmem S2000x128 .f32) (h2 : a2.IsWhole) (a3 : Memref sig .tc .vmem S300x128 .f32) (h3 : a3.IsWhole)
    (a4 : Memref sig .tc .vmem S1x128 .f32) (h4 : a4.IsWhole) (hc : ¬cond0_0 i)
    (x0 : Vec Ideal S2000x300 .f32) (x1 : Vec Ideal S2000x128 .f32) (xo2 : Vec Ideal S300x128 .f32) (xo3 : Vec Ideal S1x128 .f32) :
    out0_B_3 c i a1 h1 a2 h2 a3 h3 a4 h4 hc x0 x1 xo2 xo3 = k0_pay4 x1 xo3 := by
  unfold out0_B_3
  rw [View.read_writes_eq_canon _ _ _ (cover0_B_3 c i a1 h1 a2 h2 a3 h3 a4 h4 hc x0 x1 xo2 xo3)]
  unfold kernelRun0_B
  dsimp only
  sl_unfold_words
  rw [View.canon_unit_zero hz]
  simp only [View.readAt_eq_ld, h2.read_unread, h4.read_unread, View.ld_unit_zero (S := S2000x128) hz,
    View.ld_unit_zero (S := S1x128) hz]

/-! ## The two sums a point adds, read at an index -/

/-- The product contracts the row axis of both blocks: the left block is read at (row, a). -/
theorem dl0 (i : S300x128.Idx) (q : dot_S2000x300_S2000x128_S300x128_0_0_1_1_n_n.contr.Idx) :
    (dot_S2000x300_S2000x128_S300x128_0_0_1_1_n_n.lhsIdx i q 0).val = (q ⟨0, by decide⟩).val :=
  dot_S2000x300_S2000x128_S300x128_0_0_1_1_n_n.lhsIdx_val_of_single rfl i q
theorem dl1 (i : S300x128.Idx) (q : dot_S2000x300_S2000x128_S300x128_0_0_1_1_n_n.contr.Idx) :
    (dot_S2000x300_S2000x128_S300x128_0_0_1_1_n_n.lhsIdx i q 1).val = (i 0).val := by
  unfold DotDims.lhsIdx
  rw [dif_neg (show ¬(1 : Fin S2000x300.rank) ∈ dot_S2000x300_S2000x128_S300x128_0_0_1_1_n_n.lhsBatch by decide), dif_pos (show (1 : Fin S2000x300.rank) ∈ dot_S2000x300_S2000x128_S300x128_0_0_1_1_n_n.lhsNonContracting by decide)]
  rfl
/-- … and the right block at (row, j). -/
theorem dr0 (i : S300x128.Idx) (q : dot_S2000x300_S2000x128_S300x128_0_0_1_1_n_n.contr.Idx) :
    (dot_S2000x300_S2000x128_S300x128_0_0_1_1_n_n.rhsIdx i q 0).val = (q ⟨0, by decide⟩).val :=
  dot_S2000x300_S2000x128_S300x128_0_0_1_1_n_n.rhsIdx_val_of_single rfl i q
theorem dr1 (i : S300x128.Idx) (q : dot_S2000x300_S2000x128_S300x128_0_0_1_1_n_n.contr.Idx) :
    (dot_S2000x300_S2000x128_S300x128_0_0_1_1_n_n.rhsIdx i q 1).val = (i 1).val := by
  unfold DotDims.rhsIdx
  rw [dif_neg (show ¬(1 : Fin S2000x128.rank) ∈ dot_S2000x300_S2000x128_S300x128_0_0_1_1_n_n.rhsBatch by decide), dif_pos (show (1 : Fin S2000x128.rank) ∈ dot_S2000x300_S2000x128_S300x128_0_0_1_1_n_n.rhsNonContracting by decide)]
  rfl

/-- The first accumulator's update at (a, j): what it held plus Σ over the block's rows of x(r, a)·w(r, j). -/
theorem pay3_apply (x0 : Vec Ideal S2000x300 .f32) (x1 : Vec Ideal S2000x128 .f32) (acc : Vec Ideal S300x128 .f32)
    (a : Fin 300) (j : Fin 128) :
    k0_pay3 x0 x1 acc (ix2 a j) = acc (ix2 a j) + ∑ r : Fin 2000, x0 (ix2 r a) * x1 (ix2 r j) := by
  unfold k0_pay3
  rw [shapeCast_self, addf_apply]
  congr 1
  simp only [matmul]
  rw [Ideal.matmul_constant_zero_apply, ← Equiv.sum_comp (ValueIdx.contrEquiv1 dot_S2000x300_S2000x128_S300x128_0_0_1_1_n_n 2000 rfl rfl).symm]
  refine Finset.sum_congr rfl fun k _ => ?_
  have hk := ValueIdx.contrEquiv1_symm_val dot_S2000x300_S2000x128_S300x128_0_0_1_1_n_n 2000 rfl rfl k
  have el : dot_S2000x300_S2000x128_S300x128_0_0_1_1_n_n.lhsIdx (ix2 a j) ((ValueIdx.contrEquiv1 dot_S2000x300_S2000x128_S300x128_0_0_1_1_n_n 2000 rfl rfl).symm k) = ix2 k a := funext fun b => Fin.ext (by
    match b with
    | ⟨0, _⟩ => exact (dl0 _ _).trans hk
    | ⟨1, _⟩ => exact dl1 _ _)
  have er : dot_S2000x300_S2000x128_S300x128_0_0_1_1_n_n.rhsIdx (ix2 a j) ((ValueIdx.contrEquiv1 dot_S2000x300_S2000x128_S300x128_0_0_1_1_n_n 2000 rfl rfl).symm k) = ix2 k j := funext fun b => Fin.ext (by
    match b with
    | ⟨0, _⟩ => exact (dr0 _ _).trans hk
    | ⟨1, _⟩ => exact dr1 _ _)
  rw [el, er]

/-- The second accumulator's update at (0, j): what it held plus Σ over the block's rows of w(r, j). -/
theorem pay4_apply (x1 : Vec Ideal S2000x128 .f32) (acc : Vec Ideal S1x128 .f32) (j : Fin 128) :
    k0_pay4 x1 acc (ix2 (0 : Fin 1) j) = acc (ix2 (0 : Fin 1) j) + ∑ r : Fin 2000, x1 (ix2 r j) := by
  unfold k0_pay4
  dsimp only
  rw [shapeCast_self, addf_apply, shapeCast_a_1a_apply]
  congr 1
  refine (Ideal.multiReduction_add_single x1 0x00000000#32 reduces_S2000x128_S128 (.inl rfl) rfl (ix1 j)).trans ?_
  refine Finset.sum_congr rfl fun k _ => congrArg x1 ?_
  funext b
  match b with
  | ⟨0, _⟩ => rfl
  | ⟨1, _⟩ => rfl

/-- The block the first point clears the first accumulator to is zero everywhere. -/
theorem pay1_apply (i : S300x128.Idx) : k0_pay1 (F := Ideal) i = 0 := by
  unfold k0_pay1
  rw [broadcast_apply]
  exact Ideal.ofBits_zero_f32
/-- … and the second. -/
theorem pay2_apply (i : S1x128.Idx) : k0_pay2 (F := Ideal) i = 0 := by
  unfold k0_pay2
  rw [broadcast_apply]
  exact Ideal.ofBits_zero_f32

/-! ## The blocks a point reads: rows 2000·t … 2000·t + 1999 of the two arrays -/

/-- A row of point t's block is row 2000·t + r of the array. -/
theorem row_lt (t : Fin cfg0.N) (r : Fin 2000) : 2000 * t.val + r.val < 10000 := by
  have := t.isLt; have hN : cfg0.N = 5 := N_0; have := r.isLt; omega

theorem iblk_x (c : Dev nD) (t : Fin cfg0.N) (r : Fin 2000) (a : Fin 300) :
    (iblk0 V c 0 t : Vec Ideal S2000x300 .f32) (ix2 r a)
      = (V c main_arg0 : Vec Ideal S10000x300 .f32) (ix2 ⟨2000 * t.val + r.val, row_lt t r⟩ a) := by
  have hi : win0_0.index t 0 = t.val ∧ win0_0.index t 1 = 0 := by
    rcases fin_N0 t with rfl | rfl | rfl | rfl | rfl <;> decide
  unfold iblk0
  rw [View.read_apply]
  show V c main_arg0 _ = V c main_arg0 _
  congr 1
  funext b
  apply Fin.ext
  match b with
  | ⟨0, _⟩ => show win0_0.index t 0 * 2000 + 1 * r.val = 2000 * t.val + r.val; rw [hi.1]; omega
  | ⟨1, _⟩ => show win0_0.index t 1 * 300 + 1 * a.val = a.val; rw [hi.2]; omega

theorem iblk_w (c : Dev nD) (t : Fin cfg0.N) (r : Fin 2000) (j : Fin 128) :
    (iblk0 V c 1 t : Vec Ideal S2000x128 .f32) (ix2 r j)
      = (V c main_arg5 : Vec Ideal S10000x128 .f32) (ix2 ⟨2000 * t.val + r.val, row_lt t r⟩ j) := by
  have hi : win0_1.index t 0 = t.val ∧ win0_1.index t 1 = 0 := by
    rcases fin_N0 t with rfl | rfl | rfl | rfl | rfl <;> decide
  unfold iblk0
  rw [View.read_apply]
  show V c main_arg5 _ = V c main_arg5 _
  congr 1
  funext b
  apply Fin.ext
  match b with
  | ⟨0, _⟩ => show win0_1.index t 0 * 2000 + 1 * r.val = 2000 * t.val + r.val; rw [hi.1]; omega
  | ⟨1, _⟩ => show win0_1.index t 1 * 128 + 1 * j.val = j.val; rw [hi.2]; omega

/-! ## The running sums, over the reals -/

/-- Row k's term of (xᵀ·W_gc1)(a, j); zero past the last row. -/
def tT (R : Cert.Spec.RIn) (a : Fin 300) (j : Fin 128) (k : ℕ) : ℝ :=
  if h : k < 10000 then R.x ⟨k, h⟩ a * R.wg1 ⟨k, h⟩ j else 0
/-- Row k's term of the column sum of W_gc1 at j; zero past the last row. -/
def tC (R : Cert.Spec.RIn) (j : Fin 128) (k : ℕ) : ℝ :=
  if h : k < 10000 then R.wg1 ⟨k, h⟩ j else 0

/-- A point's product at (a, j), when its two blocks hold rows 2000·t … 2000·t + 1999 of real arrays: those rows' terms. -/
theorem blockT (R : Cert.Spec.RIn) (t : Fin cfg0.N) (x0 : Vec Ideal S2000x300 .f32) (x1 : Vec Ideal S2000x128 .f32)
    (h0 : ∀ (r : Fin 2000) (a : Fin 300), x0 (ix2 r a) = ((R.x ⟨2000 * t.val + r.val, row_lt t r⟩ a : ℝ) : EReal))
    (h1 : ∀ (r : Fin 2000) (j : Fin 128), x1 (ix2 r j) = ((R.wg1 ⟨2000 * t.val + r.val, row_lt t r⟩ j : ℝ) : EReal))
    (a : Fin 300) (j : Fin 128) :
    ∑ r : Fin 2000, x0 (ix2 r a) * x1 (ix2 r j)
      = ((∑ r ∈ Finset.range 2000, tT R a j (2000 * t.val + r) : ℝ) : EReal) := by
  rw [Finset.sum_range]
  refine Eq.trans (Finset.sum_congr rfl fun r _ => ?_)
    (Cert.Coe.coe_sum Finset.univ fun r : Fin 2000 => tT R a j (2000 * t.val + r.val))
  rw [h0, h1, ← EReal.coe_mul]
  unfold tT
  rw [dif_pos (row_lt t r)]

/-- A point's column sums at j, when its block holds rows 2000·t … 2000·t + 1999 of a real array. -/
theorem blockC (R : Cert.Spec.RIn) (t : Fin cfg0.N) (x1 : Vec Ideal S2000x128 .f32)
    (h1 : ∀ (r : Fin 2000) (j : Fin 128), x1 (ix2 r j) = ((R.wg1 ⟨2000 * t.val + r.val, row_lt t r⟩ j : ℝ) : EReal))
    (j : Fin 128) :
    ∑ r : Fin 2000, x1 (ix2 r j)
      = ((∑ r ∈ Finset.range 2000, tC R j (2000 * t.val + r) : ℝ) : EReal) := by
  rw [Finset.sum_range]
  refine Eq.trans (Finset.sum_congr rfl fun r _ => ?_)
    (Cert.Coe.coe_sum Finset.univ fun r : Fin 2000 => tC R j (2000 * t.val + r.val))
  rw [h1]
  unfold tC
  rw [dif_pos (row_lt t r)]

/-- After point n the first accumulator holds, at (a, j), the sum of the terms of rows 0 … 2000·(n+1) − 1:
    by induction on the point. -/
theorem outs1 (R : Cert.Spec.RIn) (c : Dev nD)
    (hx : ∀ (k : Fin 10000) (a : Fin 300), (V c main_arg0 : Vec Ideal S10000x300 .f32) (ix2 k a) = ((R.x k a : ℝ) : EReal))
    (hw : ∀ (k : Fin 10000) (j : Fin 128), (V c main_arg5 : Vec Ideal S10000x128 .f32) (ix2 k j) = ((R.wg1 k j : ℝ) : EReal)) :
    ∀ (n : ℕ) (h : n < cfg0.N) (a : Fin 300) (j : Fin 128),
      ((outsAt0 V c n h).1 : Vec Ideal S300x128 .f32) (ix2 a j)
        = ((∑ k ∈ Finset.range (2000 * (n + 1)), tT R a j k : ℝ) : EReal)
  | 0, h, a, j => by
    rw [outsAt0_A V c ⟨0, h⟩ rfl]
    dsimp only
    rw [outA2, pay3_apply, pay1_apply, zero_add,
      blockT R ⟨0, h⟩ _ _ (fun r a => (iblk_x V c ⟨0, h⟩ r a).trans (hx _ _)) (fun r j => (iblk_w V c ⟨0, h⟩ r j).trans (hw _ _))]
    simp only [Nat.mul_zero, Nat.zero_add, Nat.mul_one]
  | n + 1, h, a, j => by
    have hN : cfg0.N = 5 := N_0
    have hB : ¬(⟨n + 1, h⟩ : Fin cfg0.N).val % 5 = 0 := by dsimp only; omega
    rw [outsAt0_B V c ⟨n + 1, h⟩ hB]
    dsimp only
    rw [outB2, pay3_apply]
    show ((outsAt0 V c n _).1 : Vec Ideal S300x128 .f32) (ix2 a j) + _ = _
    rw [outs1 R c hx hw n _ a j,
      blockT R ⟨n + 1, h⟩ _ _ (fun r a => (iblk_x V c ⟨n + 1, h⟩ r a).trans (hx _ _)) (fun r j => (iblk_w V c ⟨n + 1, h⟩ r j).trans (hw _ _)),
      ← EReal.coe_add, show 2000 * (n + 1 + 1) = 2000 * (n + 1) + 2000 by omega, Finset.sum_range_add]

/-- After point n the second accumulator holds, at (0, j), the sum of the terms of rows 0 … 2000·(n+1) − 1. -/
theorem outs2 (R : Cert.Spec.RIn) (c : Dev nD)
    (hw : ∀ (k : Fin 10000) (j : Fin 128), (V c main_arg5 : Vec Ideal S10000x128 .f32) (ix2 k j) = ((R.wg1 k j : ℝ) : EReal)) :
    ∀ (n : ℕ) (h : n < cfg0.N) (j : Fin 128),
      ((outsAt0 V c n h).2 : Vec Ideal S1x128 .f32) (ix2 (0 : Fin 1) j)
        = ((∑ k ∈ Finset.range (2000 * (n + 1)), tC R j k : ℝ) : EReal)
  | 0, h, j => by
    rw [outsAt0_A V c ⟨0, h⟩ rfl]
    dsimp only
    rw [outA3, pay4_apply, pay2_apply, zero_add,
      blockC R ⟨0, h⟩ _ (fun r j => (iblk_w V c ⟨0, h⟩ r j).trans (hw _ _))]
    simp only [Nat.mul_zero, Nat.zero_add, Nat.mul_one]
  | n + 1, h, j => by
    have hN : cfg0.N = 5 := N_0
    have hB : ¬(⟨n + 1, h⟩ : Fin cfg0.N).val % 5 = 0 := by dsimp only; omega
    rw [outsAt0_B V c ⟨n + 1, h⟩ hB]
    dsimp only
    rw [outB3, pay4_apply]
    show ((outsAt0 V c n _).2 : Vec Ideal S1x128 .f32) (ix2 (0 : Fin 1) j) + _ = _
    rw [outs2 R c hw n _ j,
      blockC R ⟨n + 1, h⟩ _ (fun r j => (iblk_w V c ⟨n + 1, h⟩ r j).trans (hw _ _)),
      ← EReal.coe_add, show 2000 * (n + 1 + 1) = 2000 * (n + 1) + 2000 by omega, Finset.sum_range_add]

/-- All 10000 rows' terms are the product xᵀ·W_gc1; -/
theorem sumT (R : Cert.Spec.RIn) (a : Fin 300) (j : Fin 128) :
    ∑ k ∈ Finset.range 10000, tT R a j k = Cert.Spec.T R a j := by
  unfold Cert.Spec.T
  rw [Finset.sum_range]
  exact Finset.sum_congr rfl fun k _ => by unfold tT; rw [dif_pos k.isLt]
/-- … and the column sums. -/
theorem sumC (R : Cert.Spec.RIn) (j : Fin 128) :
    ∑ k ∈ Finset.range 10000, tC R j k = Cert.Spec.cs R j := by
  unfold Cert.Spec.cs
  rw [Finset.sum_range]
  exact Finset.sum_congr rfl fun k _ => by unfold tC; rw [dif_pos k.isLt]

/-! ## The write-back: after the last point each accumulator is the whole result array -/

/-- The last point. -/
theorem lt4 : 4 < cfg0.N := by rw [show cfg0.N = 5 from N_0]; decide

/-- What the first accumulator holds after the last point, as contents of the first result array. -/
abbrev res2 (c : Dev nD) : Buf (Elt Ideal) ((c : Thread nD τ).loc main_v0_0) := (outsAt0 V c 4 lt4).1
/-- What the second accumulator holds after the last point, as contents of the second result array. -/
abbrev res3 (c : Dev nD) : Buf (Elt Ideal) ((c : Thread nD τ).loc main_v0_1) := (outsAt0 V c 4 lt4).2

/-- The one write-back of the first accumulator, at the last point, writes it whole: its block is the array. -/
theorem flushed2 (c : Dev nD) (t : Fin cfg0.N) (hf : (cfg0.win 2).flush t = true) :
    (dat0 V c).flushed 2 t = ((cfg0.win 2).blk t).view.read (Elt Ideal) (res2 V c) := by
  have hN : cfg0.N = 5 := N_0
  have h4 : t.val = 4 := by have := (flush0_2 t).mp hf; have := t.isLt; omega
  obtain rfl : t = t0_4 := Fin.ext h4
  show (cfg0.win 2).cut (grid0.coords t0_4) ((dat0 V c).after 2 t0_4) = _
  rw [after0_2]
  have hz' : (fun a => win0_2.index t0_4 a * main_v0_0.ty.shape.size a) = fun _ => 0 := funext fun a => by fin_cases a <;> decide
  exact (Memref.read_access_unit_zero (Elt Ideal) main_v0_0 hz' (fun a => by rw [congrFun hz' a]; simp) (res2 V c)).symm

theorem flushed3 (c : Dev nD) (t : Fin cfg0.N) (hf : (cfg0.win 3).flush t = true) :
    (dat0 V c).flushed 3 t = ((cfg0.win 3).blk t).view.read (Elt Ideal) (res3 V c) := by
  have hN : cfg0.N = 5 := N_0
  have h4 : t.val = 4 := by have := (flush0_3 t).mp hf; have := t.isLt; omega
  obtain rfl : t = t0_4 := Fin.ext h4
  show (cfg0.win 3).cut (grid0.coords t0_4) ((dat0 V c).after 3 t0_4) = _
  rw [after0_3]
  have hz' : (fun a => win0_3.index t0_4 a * main_v0_1.ty.shape.size a) = fun _ => 0 := funext fun a => by fin_cases a <;> decide
  exact (Memref.read_access_unit_zero (Elt Ideal) main_v0_1 hz' (fun a => by rw [congrFun hz' a]; simp) (res3 V c)).symm

/-- So the first result array ends holding the first accumulator's last contents. -/
theorem final2 (c : Dev nD) : (dat0 V c).arrAt 2 cfg0.N = res2 V c :=
  (dat0 V c).arrAt_eq_of_cover 2 (res2 V c) (flushed2 V c) fun i =>
    ⟨t0_4, (flush0_2 t0_4).mpr rfl, by
      show i ∈ ((View.whole main_v0_0).slice (win0_2.rect t0_4)).set
      rw [View.set_slice_whole, Rect.mem_set_unit]
      intro a
      have h0 : (i 0 : Nat) < 300 := (i 0).isLt
      have h1 : (i 1 : Nat) < 128 := (i 1).isLt
      match a with
      | ⟨0, _⟩ => show win0_2.index t0_4 0 * win0_2.size 0 ≤ (i 0 : Nat) ∧ (i 0 : Nat) < win0_2.index t0_4 0 * win0_2.size 0 + win0_2.xsize (grid0.coords t0_4) 0
                  rw [show win0_2.index t0_4 0 * win0_2.size 0 = 0 from by decide +kernel, show win0_2.xsize (grid0.coords t0_4) 0 = 300 from by decide +kernel]; omega
      | ⟨1, _⟩ => show win0_2.index t0_4 1 * win0_2.size 1 ≤ (i 1 : Nat) ∧ (i 1 : Nat) < win0_2.index t0_4 1 * win0_2.size 1 + win0_2.xsize (grid0.coords t0_4) 1
                  rw [show win0_2.index t0_4 1 * win0_2.size 1 = 0 from by decide +kernel, show win0_2.xsize (grid0.coords t0_4) 1 = 128 from by decide +kernel]; omega⟩

/-- … and the second result array the second's. -/
theorem final3 (c : Dev nD) : (dat0 V c).arrAt 3 cfg0.N = res3 V c :=
  (dat0 V c).arrAt_eq_of_cover 3 (res3 V c) (flushed3 V c) fun i =>
    ⟨t0_4, (flush0_3 t0_4).mpr rfl, by
      show i ∈ ((View.whole main_v0_1).slice (win0_3.rect t0_4)).set
      rw [View.set_slice_whole, Rect.mem_set_unit]
      intro a
      have h0 : (i 0 : Nat) < 1 := (i 0).isLt
      have h1 : (i 1 : Nat) < 128 := (i 1).isLt
      match a with
      | ⟨0, _⟩ => show win0_3.index t0_4 0 * win0_3.size 0 ≤ (i 0 : Nat) ∧ (i 0 : Nat) < win0_3.index t0_4 0 * win0_3.size 0 + win0_3.xsize (grid0.coords t0_4) 0
                  rw [show win0_3.index t0_4 0 * win0_3.size 0 = 0 from by decide +kernel, show win0_3.xsize (grid0.coords t0_4) 0 = 1 from by decide +kernel]; omega
      | ⟨1, _⟩ => show win0_3.index t0_4 1 * win0_3.size 1 ≤ (i 1 : Nat) ∧ (i 1 : Nat) < win0_3.index t0_4 1 * win0_3.size 1 + win0_3.xsize (grid0.coords t0_4) 1
                  rw [show win0_3.index t0_4 1 * win0_3.size 1 = 0 from by decide +kernel, show win0_3.xsize (grid0.coords t0_4) 1 = 128 from by decide +kernel]; omega⟩

/-- The first result array of the first kernel is xᵀ·W_gc1 when x and W_gc1 (as the region finds them) are real. -/
theorem t_apply (R : Cert.Spec.RIn) (c : Dev nD)
    (hx : ∀ (k : Fin 10000) (a : Fin 300), (V c main_arg0 : Vec Ideal S10000x300 .f32) (ix2 k a) = ((R.x k a : ℝ) : EReal))
    (hw : ∀ (k : Fin 10000) (j : Fin 128), (V c main_arg5 : Vec Ideal S10000x128 .f32) (ix2 k j) = ((R.wg1 k j : ℝ) : EReal))
    (a : Fin 300) (j : Fin 128) :
    ((dat0 (F := Ideal) V c).arrAt 2 cfg0.N : Vec Ideal S300x128 .f32) (ix2 a j) = ((Cert.Spec.T R a j : ℝ) : EReal) := by
  rw [final2 V c]
  show ((outsAt0 V c 4 lt4).1 : Vec Ideal S300x128 .f32) (ix2 a j) = _
  rw [outs1 V R c hx hw 4 lt4 a j, show 2000 * (4 + 1) = 10000 from rfl, sumT]

/-- The second result array of the first kernel is the row of column sums of W_gc1 when W_gc1 is real. -/
theorem cs_apply (R : Cert.Spec.RIn) (c : Dev nD)
    (hw : ∀ (k : Fin 10000) (j : Fin 128), (V c main_arg5 : Vec Ideal S10000x128 .f32) (ix2 k j) = ((R.wg1 k j : ℝ) : EReal))
    (j : Fin 128) :
    ((dat0 (F := Ideal) V c).arrAt 3 cfg0.N : Vec Ideal S1x128 .f32) (ix2 (0 : Fin 1) j) = ((Cert.Spec.cs R j : ℝ) : EReal) := by
  rw [final3 V c]
  show ((outsAt0 V c 4 lt4).2 : Vec Ideal S1x128 .f32) (ix2 (0 : Fin 1) j) = _
  rw [outs2 V R c hw 4 lt4 j, show 2000 * (4 + 1) = 10000 from rfl, sumC]

end Cert.KernelIdeal.KReg0

end
-- ==== Proof.lean ====
/-
  The certificate of the two-kernel graph-convolution program against its jnp reference.

  Frames: the two kernel programs' frames are the generated frame certificates; the reference has no kernel, and its
  frame is its run with the result dropped. The idealization rewrote nothing, so `preserves` is trivial.

  Equivalence over the extended reals: under the precondition every input entry is a real number (Finite). Over the
  reals the kernel program's result is w − (m + log Σ e^{w−m}) with w its folded logits (KRun, KTop, KReg0, KPay,
  KVal), the reference's is (z − m) − log Σ e^{z−m} with z its logits (the generated run, RefVal), and the two are
  equal: hᵀ·W_gc1 = W_l1ᵀ·(xᵀ·W_gc1) + b_l1 ⊗ colsum(W_gc1), the post-ReLU layers are linear so the products
  re-associate, and the two spellings of the log-softmax agree (SpecLaws). Finiteness is what makes the
  distributive steps valid.
-/
import proofs.«146911_g64390149702081_cont_9to1_m_674_1_alg».proof.Defs
import proofs.«146911_g64390149702081_cont_9to1_m_674_1_alg».proof.Proof.Gen.Kernel
import proofs.«146911_g64390149702081_cont_9to1_m_674_1_alg».proof.Proof.Gen.Kernel.Skeleton
import proofs.«146911_g64390149702081_cont_9to1_m_674_1_alg».proof.Proof.Gen.Kernel.Launch
import proofs.«146911_g64390149702081_cont_9to1_m_674_1_alg».proof.Proof.Gen.Kernel.Points
import proofs.«146911_g64390149702081_cont_9to1_m_674_1_alg».proof.Proof.Gen.Kernel.Frame
import proofs.«146911_g64390149702081_cont_9to1_m_674_1_alg».proof.Proof.Gen.KernelIdeal
import proofs.«146911_g64390149702081_cont_9to1_m_674_1_alg».proof.Proof.Gen.KernelIdeal.Skeleton
import proofs.«146911_g64390149702081_cont_9to1_m_674_1_alg».proof.Proof.Gen.KernelIdeal.Launch
import proofs.«146911_g64390149702081_cont_9to1_m_674_1_alg».proof.Proof.Gen.KernelIdeal.Points
import proofs.«146911_g64390149702081_cont_9to1_m_674_1_alg».proof.Proof.Gen.KernelIdeal.Frame
import proofs.«146911_g64390149702081_cont_9to1_m_674_1_alg».proof.Proof.Gen.ReferenceIdeal
import proofs.«146911_g64390149702081_cont_9to1_m_674_1_alg».proof.Proof.Gen.Pre_finite_inputs
import proofs.«146911_g64390149702081_cont_9to1_m_674_1_alg».proof.Proof.Gen.ReferenceIdeal.Run
import proofs.«146911_g64390149702081_cont_9to1_m_674_1_alg».proof.Proof.Gen.ReferenceIdeal.Read
import proofs.«146911_g64390149702081_cont_9to1_m_674_1_alg».proof.Proof.SpecLaws
import proofs.«146911_g64390149702081_cont_9to1_m_674_1_alg».proof.Proof.Finite
import proofs.«146911_g64390149702081_cont_9to1_m_674_1_alg».proof.Proof.RefVal
import proofs.«146911_g64390149702081_cont_9to1_m_674_1_alg».proof.Proof.KRun
import proofs.«146911_g64390149702081_cont_9to1_m_674_1_alg».proof.Proof.KVal
import proofs.«146911_g64390149702081_cont_9to1_m_674_1_alg».proof.Proof.KReg0
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs run; the kernel program's result buffer and the reference's agree entry by entry: under the
    precondition the inputs are real, each result at (p, q) is then a real number, and the two real numbers are equal. -/
theorem algebraic : Cert.algebraic_KernelIdeal_ReferenceIdeal := by
  intro m ρ m' ρ' hpre hagree
  refine ⟨fun c => Cert.KernelIdeal.Gen.W3 m ρ c (Proc.devRef .tc Cert.KernelIdeal.main_v6),
    Cert.KernelIdeal.Gen.run_value m ρ, ?_⟩
  refine (θ_run Cert.ReferenceIdeal.defs _ _).mono (fun _ h c => ⟨(h c).1.trans ?_, (h c).2⟩)
    (Cert.ReferenceIdeal.Value.run (F := Ideal) m' ρ')
  obtain ⟨R, r0, r1, r2, r3, r4, r5, r6, r7, r8, r9, r10, r11, r12⟩ :=
    Cert.Finite.reals_of_pre _ _ _ _ _ _ _ _ _ _ _ _ _ (hpre c)
  obtain ⟨a0, a1, a2, a3, a4, a5, a6, a7, a8, a9, a10, a11, a12⟩ := hagree c
  rw [Cert.ReferenceIdeal.Read.val_main_v25_eq, a0, a1, a2, a3, a4, a5, a6, a7, a8, a9, a10, a11, a12]
  funext i
  obtain ⟨p, q, rfl⟩ : ∃ (p : Fin 1500) (q : Fin 2), i = ix2 p q := ⟨i 0, i 1, eq_ix2 i⟩
  rw [Cert.ReferenceIdeal.RefVal.ref_apply R _ _ _ _ _ _ _ _ _ _ _ _ _ r0 r1 r2 r3 r4 r5 r6 r7 r8 r9 r10 r11 r12 p q,
    ← Cert.Spec.OutK_eq_OutR]
  exact (Cert.KernelIdeal.KVal.out_apply m ρ R c
    (Cert.KernelIdeal.KReg0.t_apply (Cert.KernelIdeal.Gen.V0 m ρ) R c r0 r5)
    (Cert.KernelIdeal.KReg0.cs_apply (Cert.KernelIdeal.Gen.V0 m ρ) R c r5)
    r1 r2 r3 r4 r6 r7 r8 r9 r10 r11 r12 p q).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
